-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v48)) (v2 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_v47) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144 : Shape := ⟨1, ![262144]⟩
abbrev S128 : Shape := ⟨1, ![128]⟩
abbrev S32 : Shape := ⟨1, ![32]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S262144x128 .f32) (main_arg1 : IVec S262144 32) (main_arg2 : FVec F S128 .f32) (main_arg3 : IVec S32 32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Kernel.lean ====
abbrev S262144x128 : Shape := ⟨2, ![262144, 128]⟩
abbrev S262144 : Shape := ⟨1, ![262144]⟩
abbrev S128 : Shape := ⟨1, ![128]⟩
abbrev S32 : Shape := ⟨1, ![32]⟩
abbrev S262144x1 : Shape := ⟨2, ![262144, 1]⟩
abbrev S1x128 : Shape := ⟨2, ![1, 128]⟩
abbrev S2x1x128 : Shape := ⟨3, ![2, 1, 128]⟩
abbrev S32768x128 : Shape := ⟨2, ![32768, 128]⟩
abbrev S32768x1 : Shape := ⟨2, ![32768, 1]⟩
abbrev S1x1x128 : Shape := ⟨3, ![1, 1, 128]⟩
abbrev S32768 : Shape := ⟨1, ![32768]⟩
abbrev S1x32768x1 : Shape := ⟨3, ![1, 32768, 1]⟩
abbrev S1 : Shape := ⟨1, ![1]⟩
abbrev S1x1x1 : Shape := ⟨3, ![1, 1, 1]⟩
abbrev S2x128 : Shape := ⟨2, ![2, 128]⟩
abbrev S_ : Shape := ⟨0, ![]⟩
abbrev S32x1 : Shape := ⟨2, ![32, 1]⟩

abbrev nBuf : Space → Nat
  | .hbm => 77
  | .vmem => 11
  | .smem => 0
  | _ => 0

abbrev bufTy : (tb : Table) → Fin (tcTables nBuf tb) → BufTy
  | .hbm, ⟨0, _⟩ => ⟨S262144x128, .f32⟩
  | .hbm, ⟨1, _⟩ => ⟨S262144, .i32⟩
  | .hbm, ⟨2, _⟩ => ⟨S128, .f32⟩
  | .hbm, ⟨3, _⟩ => ⟨S32, .i32⟩
  | .hbm, ⟨4, _⟩ => ⟨S262144x1, .i32⟩
  | .hbm, ⟨5, _⟩ => ⟨S1x128, .f32⟩
  | .hbm, ⟨6, _⟩ => ⟨S2x1x128, .f32⟩
  | .hbm, ⟨7, _⟩ => ⟨S2x1x128, .f32⟩
  | .hbm, ⟨8, _⟩ => ⟨S2x1x128, .f32⟩
  | .hbm, ⟨9, _⟩ => ⟨S2x128, .f32⟩
  | .hbm, ⟨10, _⟩ => ⟨S_, .f32⟩
  | .hbm, ⟨11, _⟩ => ⟨S128, .f32⟩
  | .hbm, ⟨12, _⟩ => ⟨S2x128, .f32⟩
  | .hbm, ⟨13, _⟩ => ⟨S_, .f32⟩
  | .hbm, ⟨14, _⟩ => ⟨S128, .f32⟩
  | .hbm, ⟨15, _⟩ => ⟨S2x128, .f32⟩
  | .hbm, ⟨16, _⟩ => ⟨S_, .f32⟩
  | .hbm, ⟨17, _⟩ => ⟨S128, .f32⟩
  | .hbm, ⟨18, _⟩ => ⟨S1, .f32⟩
  | .hbm, ⟨19, _⟩ => ⟨S_, .f32⟩
  | .hbm, ⟨20, _⟩ => ⟨S1, .f32⟩
  | .hbm, ⟨21, _⟩ => ⟨S_, .f32⟩
  | .hbm, ⟨22, _⟩ => ⟨S1, .f32⟩
  | .hbm, ⟨23, _⟩ => ⟨S_, .f32⟩
  | .hbm, ⟨24, _⟩ => ⟨S1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .i1⟩
  | .hbm, ⟨31, _⟩ => ⟨S128, .i1⟩
  | .hbm, ⟨32, _⟩ => ⟨S_, .i32⟩
  | .hbm, ⟨33, _⟩ => ⟨S32, .i32⟩
  | .hbm, ⟨34, _⟩ => ⟨S32, .i1⟩
  | .hbm, ⟨35, _⟩ => ⟨S_, .i32⟩
  | .hbm, ⟨36, _⟩ => ⟨S32, .i32⟩
  | .hbm, ⟨37, _⟩ => ⟨S32, .i32⟩
  | .hbm, ⟨38, _⟩ => ⟨S32, .i32⟩
  | .hbm, ⟨39, _⟩ => ⟨S32x1, .i32⟩
  | .hbm, ⟨40, _⟩ => ⟨S_, .i1⟩
  | .hbm, ⟨41, _⟩ => ⟨S32, .i1⟩
  | .hbm, ⟨42, _⟩ => ⟨S128, .i1⟩
  | .hbm, ⟨43, _⟩ => ⟨S_, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S_, .f32⟩
  | .hbm, ⟨57, _⟩ => ⟨S_, .f32⟩
  | .hbm, ⟨58, _⟩ => ⟨S1, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S1, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .local _ .vmem, ⟨0, _⟩ => ⟨S32768x128, .f32⟩
  | .local _ .vmem, ⟨1, _⟩ => ⟨S32768x128, .f32⟩
  | .local _ .vmem, ⟨2, _⟩ => ⟨S32768x1, .i32⟩
  | .local _ .vmem, ⟨3, _⟩ => ⟨S32768x1, .i32⟩
  | .local _ .vmem, ⟨4, _⟩ => ⟨S1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_call0_v0 : Ref sig .tc := ⟨.hbm, 44, rfl⟩
abbrev main_call0_v1 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_cst_10 : Ref sig .tc := ⟨.hbm, 52, rfl⟩
abbrev main_call1_v0 : Ref sig .tc := ⟨.hbm, 53, rfl⟩
abbrev main_call1_v1 : Ref sig .tc := ⟨.hbm, 54, rfl⟩
abbrev main_v32 : Ref sig .tc := ⟨.hbm, 55, rfl⟩
abbrev main_cst_11 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_12 : Ref sig .tc := ⟨.hbm, 60, rfl⟩
abbrev main_v36 : Ref sig .tc := ⟨.hbm, 61, rfl⟩
abbrev main_c_13 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_14 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_15 : Ref sig .tc := ⟨.hbm, 75, rfl⟩
abbrev main_v48 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32768x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32768x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S262144_S262144x1 : S262144.ShapeCasts S262144x1
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S32768x128_S32768x128_0_0 : ∀ a, (![0, 0] : Fin 2 → Nat) a + S32768x128.size a ≤ S32768x128.size a
  h_S32768x128 : 0 < S32768x128.numel
  inb_S32768x1_S32768x1_0_0 : ∀ a, (![0, 0] : Fin 2 → Nat) a + S32768x1.size a ≤ S32768x1.size a
  h_S32768x1 : 0 < S32768x1.numel
  shapeCasts_S32768x1_S32768x1 : S32768x1.ShapeCasts S32768x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S32768x128_S32768 : S32768x128.Reduces [1] S32768
  shapeCasts_S32768_S32768x1 : S32768.ShapeCasts S32768x1
  broadcasts_S32768x1_S32768x128 : S32768x1.Broadcasts S32768x128
  natLt_1_32 : 1 < 32
  reduces_S32768x128_S128 : S32768x128.Reduces [0] S128
  shapeCasts_S32768x1_S1x32768x1 : S32768x1.ShapeCasts S1x32768x1
  reduces_S1x32768x1_S1 : S1x32768x1.Reduces [1, 2] S1
  shapeCasts_S1_S1x1x1 : S1.ShapeCasts S1x1x1
  inpos_S1x1x1_p0_0_0 : ∀ a, (![0, 0, 0] : Fin 3 → Nat) a < S1x1x1.size a
  iota_S32768x128_d1_w32 : S32768x128.Iotas .tc 32 [1]
  broadcasts_S1x128_S32768x128 : S1x128.Broadcasts S32768x128
  iota_S1x128_d1_w32 : S1x128.Iotas .tc 32 [1]
  shapeCasts_S2x1x128_S2x128 : S2x1x128.ShapeCasts S2x128
  reducesTo_S2x128_S128_d0 : S2x128.ReducesTo [0] S128
  h_S_ : 0 < S_.numel
  slices_S128_S1_0 : S128.Slices ![0] S1
  shapeCasts_S1_S_ : S1.ShapeCasts S_
  slices_S128_S1_1 : S128.Slices ![1] S1
  slices_S128_S1_2 : S128.Slices ![2] S1
  slices_S128_S1_3 : S128.Slices ![3] S1
  bcast_S_S128 : S_.BroadcastsInDim S128 (![] : Fin 0 → Fin S128.rank)
  bcast_S_S32 : S_.BroadcastsInDim S32 (![] : Fin 0 → Fin S32.rank)
  bcast_S32_S32x1_0 : S32.BroadcastsInDim S32x1 (![0] : Fin 1 → Fin S32x1.rank)
  reducesTo_S128_S_d0 : S128.ReducesTo [0] S_
  slices_S32_S1_0 : S32.Slices ![0] S1
  sliceFits_S128_S1 : S128.Slices (fun _ => 0) S1
  scatter_S128_S32x1_S32_n_0_0_1_wf : ScatterDims.WF S128 S32x1 S32 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32768x128.size a ≤ S262144x128.size a
  hwx0_0 : ∀ i : grid0.Coords, EltTy.bits .f32 = 32 ∨ (Rect.block (s := S262144x128) S32768x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32768x1.size a ≤ S262144x1.size a
  hwx0_1 : ∀ i : grid0.Coords, EltTy.bits .i32 = 32 ∨ (Rect.block (s := S262144x1) S32768x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)

variable [Facts₀]

def scatter_S128_S32x1_S32_n_0_0_1 : ScatterDims S128 S32x1 S32 where
  updateWindowDims := []
  insertedWindowDims := [0]
  scatterDimsToOperandDims := [0]
  indexVectorDim := 1
  wf := scatter_S128_S32x1_S32_n_0_0_1_wf

abbrev win0_0 : Pipeline.Window sig grid0 :=
  Pipeline.Window.ofSpec (Memref.whole main_arg0) S32768x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32768x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x1x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x128 : Shape := ⟨2, ![262144, 128]⟩
abbrev S262144 : Shape := ⟨1, ![262144]⟩
abbrev S128 : Shape := ⟨1, ![128]⟩
abbrev S32 : Shape := ⟨1, ![32]⟩
abbrev S_ : Shape := ⟨0, ![]⟩
abbrev S262144x1 : Shape := ⟨2, ![262144, 1]⟩
abbrev S32x1 : Shape := ⟨2, ![32, 1]⟩
abbrev S1 : Shape := ⟨1, ![1]⟩
abbrev S262144x1x1 : Shape := ⟨3, ![262144, 1, 1]⟩
abbrev S1x1x1 : Shape := ⟨3, ![1, 1, 1]⟩

abbrev nBuf : Space → Nat
  | .hbm => 185
  | .vmem => 0
  | .smem => 0
  | _ => 0

abbrev hbmTy0_0 (i : Nat) : BufTy := match i % 128 with
  | 0 => ⟨S262144x128, .f32⟩
  | 1 => ⟨S262144, .i32⟩
  | 2 => ⟨S128, .f32⟩
  | 3 => ⟨S32, .i32⟩
  | 4 => ⟨S_, .f32⟩
  | 5 => ⟨S262144, .f32⟩
  | 6 => ⟨S_, .f32⟩
  | 7 => ⟨S262144, .f32⟩
  | 8 => ⟨S262144, .f32⟩
  | 9 => ⟨S262144x1, .f32⟩
  | 10 => ⟨S262144x128, .f32⟩
  | 11 => ⟨S262144x128, .f32⟩
  | 12 => ⟨S262144x128, .f32⟩
  | 13 => ⟨S_, .f32⟩
  | 14 => ⟨S262144, .f32⟩
  | 15 => ⟨S262144x1, .f32⟩
  | 16 => ⟨S262144x128, .f32⟩
  | 17 => ⟨S262144x128, .f32⟩
  | 18 => ⟨S_, .i32⟩
  | 19 => ⟨S262144, .i32⟩
  | 20 => ⟨S262144, .i1⟩
  | 21 => ⟨S262144, .i1⟩
  | 22 => ⟨S262144, .f32⟩
  | 23 => ⟨S262144, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S262144x128, .f32⟩
  | 34 => ⟨S262144x128, .f32⟩
  | 35 => ⟨S_, .f32⟩
  | 36 => ⟨S262144x128, .f32⟩
  | 37 => ⟨S262144x128, .f32⟩
  | 38 => ⟨S262144x128, .f32⟩
  | 39 => ⟨S262144x128, .f32⟩
  | 40 => ⟨S262144x1, .f32⟩
  | 41 => ⟨S262144x128, .f32⟩
  | 42 => ⟨S262144x128, .f32⟩
  | 43 => ⟨S_, .f32⟩
  | 44 => ⟨S128, .f32⟩
  | 45 => ⟨S262144x1, .f32⟩
  | 46 => ⟨S262144x128, .f32⟩
  | 47 => ⟨S262144x128, .f32⟩
  | 48 => ⟨S_, .f32⟩
  | 49 => ⟨S128, .f32⟩
  | 50 => ⟨S_, .i1⟩
  | 51 => ⟨S128, .i1⟩
  | 52 => ⟨S_, .i32⟩
  | 53 => ⟨S32, .i32⟩
  | 54 => ⟨S32, .i1⟩
  | 55 => ⟨S_, .i32⟩
  | 56 => ⟨S32, .i32⟩
  | 57 => ⟨S32, .i32⟩
  | 58 => ⟨S32, .i32⟩
  | 59 => ⟨S32x1, .i32⟩
  | 60 => ⟨S_, .i1⟩
  | 61 => ⟨S32, .i1⟩
  | 62 => ⟨S128, .i1⟩
  | 63 => ⟨S_, .f32⟩
  | 64 => ⟨S_, .f32⟩
  | 65 => ⟨S128, .f32⟩
  | 66 => ⟨S128, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S128, .f32⟩
  | 75 => ⟨S128, .f32⟩
  | 76 => ⟨S_, .f32⟩
  | 77 => ⟨S_, .f32⟩
  | 78 => ⟨S1, .i32⟩
  | 79 => ⟨S_, .i32⟩
  | 80 => ⟨S_, .i32⟩
  | 81 => ⟨S_, .i1⟩
  | 82 => ⟨S_, .i32⟩
  | 83 => ⟨S_, .i32⟩
  | 84 => ⟨S_, .i32⟩
  | 85 => ⟨S1, .f32⟩
  | 86 => ⟨S_, .f32⟩
  | 87 => ⟨S_, .f32⟩
  | 88 => ⟨S_, .f32⟩
  | 89 => ⟨S_, .f32⟩
  | 90 => ⟨S_, .f32⟩
  | 91 => ⟨S_, .i32⟩
  | 92 => ⟨S_, .i32⟩
  | 93 => ⟨S_, .i32⟩
  | 94 => ⟨S262144, .i32⟩
  | 95 => ⟨S262144, .i32⟩
  | 96 => ⟨S_, .i32⟩
  | 97 => ⟨S262144, .i32⟩
  | 98 => ⟨S262144, .i32⟩
  | 99 => ⟨S262144x1, .i32⟩
  | 100 => ⟨S_, .i32⟩
  | 101 => ⟨S262144x1, .i32⟩
  | 102 => ⟨S262144x1, .i1⟩
  | 103 => ⟨S_, .i32⟩
  | 104 => ⟨S262144x1, .i32⟩
  | 105 => ⟨S262144x1, .i32⟩
  | 106 => ⟨S262144x1, .i32⟩
  | 107 => ⟨S262144x1x1, .i32⟩
  | 108 => ⟨S1, .i32⟩
  | 109 => ⟨S_, .i32⟩
  | 110 => ⟨S262144x1x1, .i32⟩
  | 111 => ⟨S262144x1x1, .i1⟩
  | 112 => ⟨S1x1x1, .i32⟩
  | 113 => ⟨S262144x1x1, .i32⟩
  | 114 => ⟨S262144x1x1, .i1⟩
  | 115 => ⟨S262144x1x1, .i1⟩
  | 116 => ⟨S_, .i1⟩
  | 117 => ⟨S262144x1, .i1⟩
  | 118 => ⟨S262144x1, .f32⟩
  | 119 => ⟨S_, .f32⟩
  | 120 => ⟨S262144x1, .f32⟩
  | 121 => ⟨S262144x1, .f32⟩
  | 122 => ⟨S262144, .f32⟩
  | 123 => ⟨S_, .i32⟩
  | 124 => ⟨S262144, .i32⟩
  | 125 => ⟨S262144, .i1⟩
  | 126 => ⟨S_, .i32⟩
  | 127 => ⟨S262144, .i32⟩
  | _ => ⟨S262144x128, .f32⟩

abbrev hbmTy0_1 (i : Nat) : BufTy := match i % 128 with
  | 0 => ⟨S262144, .i32⟩
  | 1 => ⟨S262144, .i32⟩
  | 2 => ⟨S262144x1, .i32⟩
  | 3 => ⟨S262144, .f32⟩
  | 4 => ⟨S262144, .f32⟩
  | 5 => ⟨S262144, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S262144, .f32⟩
  | 13 => ⟨S_, .f32⟩
  | 14 => ⟨S262144, .f32⟩
  | 15 => ⟨S262144, .f32⟩
  | 16 => ⟨S262144x1, .f32⟩
  | 17 => ⟨S262144x128, .f32⟩
  | 18 => ⟨S262144x128, .f32⟩
  | 19 => ⟨S262144x128, .f32⟩
  | 20 => ⟨S_, .f32⟩
  | 21 => ⟨S262144, .f32⟩
  | 22 => ⟨S262144x1, .f32⟩
  | 23 => ⟨S262144x1, .f32⟩
  | 24 => ⟨S262144x128, .f32⟩
  | 25 => ⟨S262144x128, .f32⟩
  | 26 => ⟨S262144x1, .i32⟩
  | 27 => ⟨S_, .i32⟩
  | 28 => ⟨S262144x1, .i32⟩
  | 29 => ⟨S262144x1, .i1⟩
  | 30 => ⟨S_, .i32⟩
  | 31 => ⟨S262144x1, .i32⟩
  | 32 => ⟨S262144x1, .i32⟩
  | 33 => ⟨S262144x1, .i32⟩
  | 34 => ⟨S262144x1x1, .i32⟩
  | 35 => ⟨S1, .i32⟩
  | 36 => ⟨S_, .i32⟩
  | 37 => ⟨S262144x1x1, .i32⟩
  | 38 => ⟨S262144x1x1, .i1⟩
  | 39 => ⟨S1x1x1, .i32⟩
  | 40 => ⟨S262144x1x1, .i32⟩
  | 41 => ⟨S262144x1x1, .i1⟩
  | 42 => ⟨S262144x1x1, .i1⟩
  | 43 => ⟨S_, .i1⟩
  | 44 => ⟨S262144x1, .i1⟩
  | 45 => ⟨S262144x1, .f32⟩
  | 46 => ⟨S_, .f32⟩
  | 47 => ⟨S262144x1, .f32⟩
  | 48 => ⟨S262144x1, .f32⟩
  | 49 => ⟨S262144, .f32⟩
  | 50 => ⟨S262144, .f32⟩
  | 51 => ⟨S262144, .f32⟩
  | 52 => ⟨S_, .f32⟩
  | 53 => ⟨S_, .f32⟩
  | 54 => ⟨S_, .f32⟩
  | 55 => ⟨S_, .f32⟩
  | 56 => ⟨S_, .f32⟩
  | _ => ⟨S262144x128, .f32⟩

abbrev hbmTy (i : Nat) : BufTy := match i / 128 with
  | 0 => hbmTy0_0 i
  | 1 => hbmTy0_1 i
  | _ => ⟨S262144x128, .f32⟩

abbrev bufTy : (tb : Table) → Fin (tcTables nBuf tb) → BufTy
  | .hbm, ⟨i, _⟩ => hbmTy i
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_c_10 : Ref sig .tc := ⟨.hbm, 50, rfl⟩
abbrev main_v34 : Ref sig .tc := ⟨.hbm, 51, rfl⟩
abbrev main_c_11 : Ref sig .tc := ⟨.hbm, 52, rfl⟩
abbrev main_v35 : Ref sig .tc := ⟨.hbm, 53, rfl⟩
abbrev main_v36 : Ref sig .tc := ⟨.hbm, 54, rfl⟩
abbrev main_c_12 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_call0_v0 : Ref sig .tc := ⟨.hbm, 64, rfl⟩
abbrev main_call0_v1 : Ref sig .tc := ⟨.hbm, 65, rfl⟩
abbrev main_v43 : Ref sig .tc := ⟨.hbm, 66, rfl⟩
abbrev main_cst_15 : Ref sig .tc := ⟨.hbm, 67, rfl⟩
abbrev main_v44 : Ref sig .tc := ⟨.hbm, 68, rfl⟩
abbrev main_v45 : Ref sig .tc := ⟨.hbm, 69, rfl⟩
abbrev main_cst_16 : Ref sig .tc := ⟨.hbm, 70, rfl⟩
abbrev main_v46 : Ref sig .tc := ⟨.hbm, 71, rfl⟩
abbrev main_cst_17 : Ref sig .tc := ⟨.hbm, 72, rfl⟩
abbrev main_call1_v0 : Ref sig .tc := ⟨.hbm, 73, rfl⟩
abbrev main_call1_v1 : Ref sig .tc := ⟨.hbm, 74, rfl⟩
abbrev main_v47 : Ref sig .tc := ⟨.hbm, 75, rfl⟩
abbrev main_cst_18 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_19 : Ref sig .tc := ⟨.hbm, 80, rfl⟩
abbrev main_v51 : Ref sig .tc := ⟨.hbm, 81, rfl⟩
abbrev main_c_20 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_21 : Ref sig .tc := ⟨.hbm, 89, rfl⟩
abbrev main_v58 : Ref sig .tc := ⟨.hbm, 90, rfl⟩
abbrev main_c_22 : Ref sig .tc := ⟨.hbm, 91, rfl⟩
abbrev main_c_23 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_v59 : Ref sig .tc := ⟨.hbm, 98, rfl⟩
abbrev main_v60 : Ref sig .tc := ⟨.hbm, 99, rfl⟩
abbrev main_call3_c : Ref sig .tc := ⟨.hbm, 100, rfl⟩
abbrev main_call3_v0 : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_c_1 : Ref sig .tc := ⟨.hbm, 108, rfl⟩
abbrev main_call3_c_2 : Ref sig .tc := ⟨.hbm, 109, rfl⟩
abbrev main_call3_v6 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_c_3 : Ref sig .tc := ⟨.hbm, 116, rfl⟩
abbrev main_call3_v12 : Ref sig .tc := ⟨.hbm, 117, rfl⟩
abbrev main_call3_v13 : Ref sig .tc := ⟨.hbm, 118, rfl⟩
abbrev main_call3_cst : Ref sig .tc := ⟨.hbm, 119, rfl⟩
abbrev main_call3_v14 : Ref sig .tc := ⟨.hbm, 120, rfl⟩
abbrev main_v61 : Ref sig .tc := ⟨.hbm, 121, rfl⟩
abbrev main_v62 : Ref sig .tc := ⟨.hbm, 122, rfl⟩
abbrev main_c_24 : Ref sig .tc := ⟨.hbm, 123, rfl⟩
abbrev main_v63 : Ref sig .tc := ⟨.hbm, 124, rfl⟩
abbrev main_v64 : Ref sig .tc := ⟨.hbm, 125, rfl⟩
abbrev main_c_25 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_cst_26 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_call4_cst : Ref sig .tc := ⟨.hbm, 139, rfl⟩
abbrev main_call4_v0 : Ref sig .tc := ⟨.hbm, 140, rfl⟩
abbrev main_call4_cst_0 : Ref sig .tc := ⟨.hbm, 141, rfl⟩
abbrev main_call4_v1 : Ref sig .tc := ⟨.hbm, 142, rfl⟩
abbrev main_call4_v2 : Ref sig .tc := ⟨.hbm, 143, rfl⟩
abbrev main_call4_v3 : Ref sig .tc := ⟨.hbm, 144, rfl⟩
abbrev main_call4_v4 : Ref sig .tc := ⟨.hbm, 145, rfl⟩
abbrev main_call4_v5 : Ref sig .tc := ⟨.hbm, 146, rfl⟩
abbrev main_call4_v6 : Ref sig .tc := ⟨.hbm, 147, rfl⟩
abbrev main_call4_cst_1 : Ref sig .tc := ⟨.hbm, 148, rfl⟩
abbrev main_call4_v7 : Ref sig .tc := ⟨.hbm, 149, rfl⟩
abbrev main_call4_v8 : Ref sig .tc := ⟨.hbm, 150, rfl⟩
abbrev main_call4_v9 : Ref sig .tc := ⟨.hbm, 151, rfl⟩
abbrev main_call4_v10 : Ref sig .tc := ⟨.hbm, 152, rfl⟩
abbrev main_v76 : Ref sig .tc := ⟨.hbm, 153, rfl⟩
abbrev main_v77 : Ref sig .tc := ⟨.hbm, 154, rfl⟩
abbrev main_call5_c : Ref sig .tc := ⟨.hbm, 155, rfl⟩
abbrev main_call5_v0 : Ref sig .tc := ⟨.hbm, 156, rfl⟩
abbrev main_call5_v1 : Ref sig .tc := ⟨.hbm, 157, rfl⟩
abbrev main_call5_c_0 : Ref sig .tc := ⟨.hbm, 158, rfl⟩
abbrev main_call5_v2 : Ref sig .tc := ⟨.hbm, 159, rfl⟩
abbrev main_call5_v3 : Ref sig .tc := ⟨.hbm, 160, rfl⟩
abbrev main_call5_v4 : Ref sig .tc := ⟨.hbm, 161, rfl⟩
abbrev main_call5_v5 : Ref sig .tc := ⟨.hbm, 162, rfl⟩
abbrev main_call5_c_1 : Ref sig .tc := ⟨.hbm, 163, rfl⟩
abbrev main_call5_c_2 : Ref sig .tc := ⟨.hbm, 164, rfl⟩
abbrev main_call5_v6 : Ref sig .tc := ⟨.hbm, 165, rfl⟩
abbrev main_call5_v7 : Ref sig .tc := ⟨.hbm, 166, rfl⟩
abbrev main_call5_v8 : Ref sig .tc := ⟨.hbm, 167, rfl⟩
abbrev main_call5_v9 : Ref sig .tc := ⟨.hbm, 168, rfl⟩
abbrev main_call5_v10 : Ref sig .tc := ⟨.hbm, 169, rfl⟩
abbrev main_call5_v11 : Ref sig .tc := ⟨.hbm, 170, rfl⟩
abbrev main_call5_c_3 : Ref sig .tc := ⟨.hbm, 171, rfl⟩
abbrev main_call5_v12 : Ref sig .tc := ⟨.hbm, 172, rfl⟩
abbrev main_call5_v13 : Ref sig .tc := ⟨.hbm, 173, rfl⟩
abbrev main_call5_cst : Ref sig .tc := ⟨.hbm, 174, rfl⟩
abbrev main_call5_v14 : Ref sig .tc := ⟨.hbm, 175, rfl⟩
abbrev main_v78 : Ref sig .tc := ⟨.hbm, 176, rfl⟩
abbrev main_v79 : Ref sig .tc := ⟨.hbm, 177, rfl⟩
abbrev main_v80 : Ref sig .tc := ⟨.hbm, 178, rfl⟩
abbrev main_v81 : Ref sig .tc := ⟨.hbm, 179, rfl⟩
abbrev main_cst_27 : Ref sig .tc := ⟨.hbm, 180, rfl⟩
abbrev main_v82 : Ref sig .tc := ⟨.hbm, 181, rfl⟩
abbrev main_v83 : Ref sig .tc := ⟨.hbm, 182, rfl⟩
abbrev main_cst_28 : Ref sig .tc := ⟨.hbm, 183, rfl⟩
abbrev main_v84 : Ref sig .tc := ⟨.hbm, 184, rfl⟩

abbrev nD : Nat := 1
abbrev τ : Topo := Topo.v7x

variable {F : FTy → Type} [FloatOps F]

class Facts₀ : Prop where
  reducesTo_S262144x128_S262144_d1 : S262144x128.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x128_0_1 : S262144x1.BroadcastsInDim S262144x128 (![0, 1] : Fin 2 → Fin S262144x128.rank)
  reducesTo_S262144_S_d0 : S262144.ReducesTo [0] S_
  bcast_S_S262144x128 : S_.BroadcastsInDim S262144x128 (![] : Fin 0 → Fin S262144x128.rank)
  reducesTo_S262144x128_S128_d0 : S262144x128.ReducesTo [0] S128
  bcast_S_S128 : S_.BroadcastsInDim S128 (![] : Fin 0 → Fin S128.rank)
  bcast_S_S32 : S_.BroadcastsInDim S32 (![] : Fin 0 → Fin S32.rank)
  bcast_S32_S32x1_0 : S32.BroadcastsInDim S32x1 (![0] : Fin 1 → Fin S32x1.rank)
  reducesTo_S128_S_d0 : S128.ReducesTo [0] S_
  slices_S32_S1_0 : S32.Slices ![0] S1
  shapeCasts_S1_S_ : S1.ShapeCasts S_
  sliceFits_S128_S1 : S128.Slices (fun _ => 0) S1
  bcast_S_S262144x1 : S_.BroadcastsInDim S262144x1 (![] : Fin 0 → Fin S262144x1.rank)
  shapeCasts_S262144x1_S262144x1x1 : S262144x1.ShapeCasts S262144x1x1
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  shapeCasts_S262144x1_S262144 : S262144x1.ShapeCasts S262144
  scatter_S128_S32x1_S32_n_0_0_1_wf : ScatterDims.WF S128 S32x1 S32 [] [0] [0] 1
  gather_S262144x128_S262144x1x1_S262144x1_n_1_0_0_1_2_11_wf : GatherDims.WF S262144x128 S262144x1x1 S262144x1 [] [1] [0] [1] [0] 2 ![1, 1]
  gather_S128_S262144x1_S262144_n_0_n_n_0_1_1_wf : GatherDims.WF S128 S262144x1 S262144 [] [0] [] [0] [] 1 ![1]

variable [Facts₀]

def scatter_S128_S32x1_S32_n_0_0_1 : ScatterDims S128 S32x1 S32 where
  updateWindowDims := []
  insertedWindowDims := [0]
  scatterDimsToOperandDims := [0]
  indexVectorDim := 1
  wf := scatter_S128_S32x1_S32_n_0_0_1_wf
def gather_S262144x128_S262144x1x1_S262144x1_n_1_0_0_1_2_11 : GatherDims S262144x128 S262144x1x1 S262144x1 where
  offsetDims := []
  collapsedSliceDims := [1]
  operandBatchingDims := [0]
  startIndicesBatchingDims := [0]
  startIndexMap := [1]
  indexVectorDim := 2
  sliceSizes := ![1, 1]
  wf := gather_S262144x128_S262144x1x1_S262144x1_n_1_0_0_1_2_11_wf
def gather_S128_S262144x1_S262144_n_0_n_n_0_1_1 : GatherDims S128 S262144x1 S262144 where
  offsetDims := []
  collapsedSliceDims := [0]
  operandBatchingDims := []
  startIndicesBatchingDims := []
  startIndexMap := [0]
  indexVectorDim := 1
  sliceSizes := ![1]
  wf := gather_S128_S262144x1_S262144_n_0_n_n_0_1_1_wf

class Facts : Prop extends Facts₀ where

variable [Facts]
-- ==== Proof.K.Kit.lean ====
/- The frame of the one pallas_call with host lines before and after it, part 1: what the two runs of the
   kernel body and the launch are stated over. The grid has eight points (two cores' halves of four row tiles);
   three input windows (the logits' row tile, the labels' row tile, the class priors) and three output windows,
   each a (1, 1, 128) accumulator block indexed by the core coordinate only, so it is revisited over four
   consecutive points: zeroed and added to at the first of them, added to at the other three, and written back
   after the fourth. -/
import proofs.«430741_j180388627001_2_alg».proof.Proof.Gen.Kernel.Launch
import proofs.«430741_j180388627001_2_alg».proof.Proof.Gen.Kernel.Skeleton
import proofs.«430741_j180388627001_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch. -/
abbrev tailOps : List (List (HloOp τ sig (Elt F))) := [hostOps1, hostOps1_1, hostOps1_2, hostOps1_3, hostOps1_4]

/-- Core `c`'s buffer contents when the region is entered: after the two reshapes before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the two reshapes, the region, and the later lines: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps hostOps0_sub hostOps0_fresh main_chain

/-- The later lines touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- And they write no array of the pipeline: each writes only its own result buffer, which is none of the six. -/
theorem hostOps1_keeps : (hostOps1 : List (HloOp τ sig (Elt F))).Forall fun op => ∀ w, Proc.devRef .tc (Pipeline.arrRef spec0 w) ∉ op.writes := by
  simp only [List.Forall]
  repeat' constructor
  all_goals
    intro w
    fin_cases w <;> simp only [StableHlo.TRef.unary, StableHlo.TRef.ternary, StableHlo.nullary_writes, StableHlo.unary_writes, StableHlo.binary_writes, StableHlo.ternary_writes, StableHlo.reshape_writes, StableHlo.unaryIndexed_writes, Finset.mem_singleton] <;> exact StableHlo.devRef_ne_of_ne (by decide)
theorem hostOps1_1_keeps : (hostOps1_1 : List (HloOp τ sig (Elt F))).Forall fun op => ∀ w, Proc.devRef .tc (Pipeline.arrRef spec0 w) ∉ op.writes := by
  simp only [List.Forall]
  repeat' constructor
  all_goals
    intro w
    fin_cases w <;> simp only [StableHlo.TRef.unary, StableHlo.TRef.ternary, StableHlo.nullary_writes, StableHlo.unary_writes, StableHlo.binary_writes, StableHlo.ternary_writes, StableHlo.reshape_writes, StableHlo.unaryIndexed_writes, Finset.mem_singleton] <;> exact StableHlo.devRef_ne_of_ne (by decide)
theorem hostOps1_2_keeps : (hostOps1_2 : List (HloOp τ sig (Elt F))).Forall fun op => ∀ w, Proc.devRef .tc (Pipeline.arrRef spec0 w) ∉ op.writes := by
  simp only [List.Forall]
  repeat' constructor
  all_goals
    intro w
    fin_cases w <;> simp only [StableHlo.TRef.unary, StableHlo.TRef.ternary, StableHlo.nullary_writes, StableHlo.unary_writes, StableHlo.binary_writes, StableHlo.ternary_writes, StableHlo.reshape_writes, StableHlo.unaryIndexed_writes, Finset.mem_singleton] <;> exact StableHlo.devRef_ne_of_ne (by decide)
theorem hostOps1_3_keeps : (hostOps1_3 : List (HloOp τ sig (Elt F))).Forall fun op => ∀ w, Proc.devRef .tc (Pipeline.arrRef spec0 w) ∉ op.writes := by
  simp only [List.Forall]
  repeat' constructor
  all_goals
    intro w
    fin_cases w <;> simp only [StableHlo.TRef.unary, StableHlo.TRef.ternary, StableHlo.nullary_writes, StableHlo.unary_writes, StableHlo.binary_writes, StableHlo.ternary_writes, StableHlo.reshape_writes, StableHlo.unaryIndexed_writes, Finset.mem_singleton] <;> exact StableHlo.devRef_ne_of_ne (by decide)
theorem hostOps1_4_keeps : (hostOps1_4 : List (HloOp τ sig (Elt F))).Forall fun op => ∀ w, Proc.devRef .tc (Pipeline.arrRef spec0 w) ∉ op.writes := by
  simp only [List.Forall]
  repeat' constructor
  all_goals
    intro w
    fin_cases w <;> simp only [StableHlo.TRef.unary, StableHlo.TRef.ternary, StableHlo.nullary_writes, StableHlo.unary_writes, StableHlo.binary_writes, StableHlo.ternary_writes, StableHlo.reshape_writes, StableHlo.unaryIndexed_writes, Finset.mem_singleton] <;> exact StableHlo.devRef_ne_of_ne (by decide)

theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-! ## The argument arrays around the region -/

/-- Neither reshape before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.TRef.unary, StableHlo.TRef.ternary, StableHlo.nullary_writes, StableHlo.unary_writes, StableHlo.binary_writes, StableHlo.ternary_writes, StableHlo.reshape_writes, StableHlo.unaryIndexed_writes, Finset.mem_singleton]
    repeat' apply And.intro
    all_goals exact StableHlo.devRef_ne_of_ne (by decide)))

/-- Neither reshape before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.TRef.unary, StableHlo.TRef.ternary, StableHlo.nullary_writes, StableHlo.unary_writes, StableHlo.binary_writes, StableHlo.ternary_writes, StableHlo.reshape_writes, StableHlo.unaryIndexed_writes, Finset.mem_singleton]
    repeat' apply And.intro
    all_goals exact StableHlo.devRef_ne_of_ne (by decide)))

/-- Neither reshape before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.TRef.unary, StableHlo.TRef.ternary, StableHlo.nullary_writes, StableHlo.unary_writes, StableHlo.binary_writes, StableHlo.ternary_writes, StableHlo.reshape_writes, StableHlo.unaryIndexed_writes, Finset.mem_singleton]
    repeat' apply And.intro
    all_goals exact StableHlo.devRef_ne_of_ne (by decide)))

/-- Neither reshape before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.TRef.unary, StableHlo.TRef.ternary, StableHlo.nullary_writes, StableHlo.unary_writes, StableHlo.binary_writes, StableHlo.ternary_writes, StableHlo.reshape_writes, StableHlo.unaryIndexed_writes, Finset.mem_singleton]
    repeat' apply And.intro
    all_goals exact StableHlo.devRef_ne_of_ne (by decide)))

/-- No line after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, List.flatten_cons, List.flatten_nil, List.append_nil, List.cons_append, List.nil_append, List.Forall, StableHlo.TRef.unary, StableHlo.TRef.ternary, StableHlo.nullary_writes, StableHlo.unary_writes, StableHlo.binary_writes, StableHlo.ternary_writes, StableHlo.reshape_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No line after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, hostOps1_4, List.flatten_cons, List.flatten_nil, List.append_nil, List.cons_append, List.nil_append, List.Forall, StableHlo.TRef.unary, StableHlo.TRef.ternary, StableHlo.nullary_writes, StableHlo.unary_writes, StableHlo.binary_writes, StableHlo.ternary_writes, StableHlo.reshape_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No line after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [tailOps, hostOps1, hostOps1_1, hostOps1_2, hostOps1_3, hostOps1_4, List.flatten_cons, List.flatten_nil, List.append_nil, List.cons_append, List.nil_append, List.Forall, StableHlo.TRef.unary, StableHlo.TRef.ternary, StableHlo.nullary_writes, StableHlo.unary_writes, StableHlo.binary_writes, StableHlo.ternary_writes, StableHlo.reshape_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is not
    fetched the block index has not moved), for any proof data whose array is the region-entry one and whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The four argument arrays end as launched: the logits are a window's array and an input window's array ends at its
    entry contents; the other three are no window's array and no later line writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c)⟩) h

/-! ## The body's one branch -/

/-- The reset's condition, from the grid coordinates: the row-tile coordinate is zero. -/
abbrev cond0_0 (i : grid0.Coords) : Prop := (Scalar.cmpi .ne (Scalar.extui (Scalar.cmpi .eq (BitVec.ofNat 32 (i 1).val) 0#32)) 0#32) = 1#1
/-- It holds at the first of each core's four points. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging memrefs -/

/-- One staging buffer of each output window, through which its contents are stated. -/
abbrev VO0_3 : View sig .tc .vmem S1x1x128 .f32 := (Memref.whole cc0_stg3_0 : Memref sig .tc .vmem S1x1x128 .f32).view
abbrev VO0_4 : View sig .tc .vmem S1x1x128 .f32 := (Memref.whole cc0_stg4_0 : Memref sig .tc .vmem S1x1x128 .f32).view
abbrev VO0_5 : View sig .tc .vmem S1x1x128 .f32 := (Memref.whole cc0_stg5_0 : Memref sig .tc .vmem S1x1x128 .f32).view
/-- Each window's current staging memref at point `t`, as the pipeline passes it, and its wholeness. -/
abbrev ms0_0 (t : Fin cfg0.N) : Memref sig .tc .vmem S32768x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32768x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x128 .f32 := win0_5.stage (cfg0.slots t 5)
abbrev hs0_5 (t : Fin cfg0.N) : (ms0_5 t).IsWhole := hstage0_5 ((cfg0.slots t 5).cast nbuf0_5)

end Cert.Kernel.Fr

end
-- ==== Proof.K.RunB.lean ====
/- The frame of the one pallas_call, part 2: the kernel body run once at a point that is NOT the first of its core's
   four (the reset's branch not taken). Each accumulator block is loaded, the row tile's contribution added, and the
   sum stored back whole; what each output's staging buffer ends with is found by the run, as pieces. -/
import proofs.«430741_j180388627001_2_alg».proof.Proof.K.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the three accumulator buffers at a later point of a core's four, with the
    proof that from the inputs' buffers at their contents and the accumulators' at what the point before left the
    body runs to the continuation holding the inputs' as they were and each accumulator's with its pieces written. -/
noncomputable def kernelRun0_B (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : ¬cond0_0 i)
    (x0 : Vec F S32768x128 .f32) (x1 : Vec F S32768x1 .i32) (x2 : Vec F S1x128 .f32) (xo3 xo4 xo5 : Vec F S1x1x128 .f32) :
    Σ' (L3 : List (View.Piece (Elt F) S1x1x128 .f32)) (L4 : List (View.Piece (Elt F) S1x1x128 .f32)), { L5 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0__reduce_kernel i arg2 harg2 arg3 harg3 arg4 harg4 arg5 harg5 arg6 harg6 arg7 harg7) K } := by
  refine ⟨?_, ?_, ?_, fun E K => ?run⟩
  case run =>
    simp only [cc0__reduce_kernel_eq_skeleton]; unfold cc0__reduce_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexists _; iexact H4
    iexists _; iexact H5

end Cert.Kernel.Fr

end
-- ==== Proof.K.RunA.lean ====
/- The frame of the one pallas_call, part 3: the kernel body run once at the FIRST of a core's four points (the reset's
   branch taken). Each accumulator block is stored zero, read back, the row tile's contribution added, and the sum
   stored back whole: two covering stores per accumulator, found by the run as pieces. -/
import proofs.«430741_j180388627001_2_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the three accumulator buffers at the first of a core's four points, with the
    proof that from the inputs' buffers at their contents and the accumulators' at anything the body runs to the
    continuation holding the inputs' as they were and each accumulator's with its pieces written. -/
noncomputable def kernelRun0_A (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : cond0_0 i)
    (x0 : Vec F S32768x128 .f32) (x1 : Vec F S32768x1 .i32) (x2 : Vec F S1x128 .f32) :
    Σ' (L3 : List (View.Piece (Elt F) S1x1x128 .f32)) (L4 : List (View.Piece (Elt F) S1x1x128 .f32)), { L5 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0__reduce_kernel i arg2 harg2 arg3 harg3 arg4 harg4 arg5 harg5 arg6 harg6 arg7 harg7) K } := by
  refine ⟨?_, ?_, ?_, fun E K => ?run⟩
  case run =>
    simp only [cc0__reduce_kernel_eq_skeleton]; unfold cc0__reduce_kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexists _; iexact H4
    iexists _; iexact H5

end Cert.Kernel.Fr

end
-- ==== Proof.K.Frame.lean ====
/- The frame of the one pallas_call, part 4: what the three accumulator buffers hold after each grid point (by recursion on
   the point: the first of a core's four points starts from anything, a later one from what the point before left), the
   pipeline's proof data, the body obligation at every point, the run of @main, and the frame claim. -/
import proofs.«430741_j180388627001_2_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first of a core's four points the pieces stored into accumulator window 3 tile its block, so they cover it. -/
theorem cover0_A_3 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : cond0_0 i)
    (x0 : Vec F S32768x128 .f32) (x1 : Vec F S32768x1 .i32) (x2 : Vec F S1x128 .f32) (y : S1x1x128.Idx) :
    ∃ pc ∈ (kernelRun0_A c i arg2 harg2 arg3 harg3 arg4 harg4 arg5 harg5 arg6 harg6 arg7 harg7 hc0 x0 x1 x2).1, y ∈ pc.1.set :=
  View.cover_of_tiledL (kernelRun0_A c i arg2 harg2 arg3 harg3 arg4 harg4 arg5 harg5 arg6 harg6 arg7 harg7 hc0 x0 x1 x2).1 S1x1x128.size (by sl_kernel_rfl) y

/-- What that point leaves in accumulator window 3's staging buffer: its pieces read back. -/
def out0_A_3 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : cond0_0 i)
    (x0 : Vec F S32768x128 .f32) (x1 : Vec F S32768x1 .i32) (x2 : Vec F S1x128 .f32) : Vec F S1x1x128 .f32 :=
  VO0_3.read (Elt F) (VO0_3.writes (Elt F) VO0_3.junk (kernelRun0_A c i arg2 harg2 arg3 harg3 arg4 harg4 arg5 harg5 arg6 harg6 arg7 harg7 hc0 x0 x1 x2).1)

/-- At the first of a core's four points the pieces stored into accumulator window 4 tile its block, so they cover it. -/
theorem cover0_A_4 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : cond0_0 i)
    (x0 : Vec F S32768x128 .f32) (x1 : Vec F S32768x1 .i32) (x2 : Vec F S1x128 .f32) (y : S1x1x128.Idx) :
    ∃ pc ∈ (kernelRun0_A c i arg2 harg2 arg3 harg3 arg4 harg4 arg5 harg5 arg6 harg6 arg7 harg7 hc0 x0 x1 x2).2.1, y ∈ pc.1.set :=
  View.cover_of_tiledL (kernelRun0_A c i arg2 harg2 arg3 harg3 arg4 harg4 arg5 harg5 arg6 harg6 arg7 harg7 hc0 x0 x1 x2).2.1 S1x1x128.size (by sl_kernel_rfl) y

/-- What that point leaves in accumulator window 4's staging buffer: its pieces read back. -/
def out0_A_4 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : cond0_0 i)
    (x0 : Vec F S32768x128 .f32) (x1 : Vec F S32768x1 .i32) (x2 : Vec F S1x128 .f32) : Vec F S1x1x128 .f32 :=
  VO0_4.read (Elt F) (VO0_4.writes (Elt F) VO0_4.junk (kernelRun0_A c i arg2 harg2 arg3 harg3 arg4 harg4 arg5 harg5 arg6 harg6 arg7 harg7 hc0 x0 x1 x2).2.1)

/-- At the first of a core's four points the pieces stored into accumulator window 5 tile its block, so they cover it. -/
theorem cover0_A_5 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : cond0_0 i)
    (x0 : Vec F S32768x128 .f32) (x1 : Vec F S32768x1 .i32) (x2 : Vec F S1x128 .f32) (y : S1x1x128.Idx) :
    ∃ pc ∈ (kernelRun0_A c i arg2 harg2 arg3 harg3 arg4 harg4 arg5 harg5 arg6 harg6 arg7 harg7 hc0 x0 x1 x2).2.2.1, y ∈ pc.1.set :=
  View.cover_of_tiledL (kernelRun0_A c i arg2 harg2 arg3 harg3 arg4 harg4 arg5 harg5 arg6 harg6 arg7 harg7 hc0 x0 x1 x2).2.2.1 S1x1x128.size (by sl_kernel_rfl) y

/-- What that point leaves in accumulator window 5's staging buffer: its pieces read back. -/
def out0_A_5 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : cond0_0 i)
    (x0 : Vec F S32768x128 .f32) (x1 : Vec F S32768x1 .i32) (x2 : Vec F S1x128 .f32) : Vec F S1x1x128 .f32 :=
  VO0_5.read (Elt F) (VO0_5.writes (Elt F) VO0_5.junk (kernelRun0_A c i arg2 harg2 arg3 harg3 arg4 harg4 arg5 harg5 arg6 harg6 arg7 harg7 hc0 x0 x1 x2).2.2.1)

/-- At a later point of a core's four the pieces stored into accumulator window 3 tile its block, so they cover it. -/
theorem cover0_B_3 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : ¬cond0_0 i)
    (x0 : Vec F S32768x128 .f32) (x1 : Vec F S32768x1 .i32) (x2 : Vec F S1x128 .f32) (xo3 xo4 xo5 : Vec F S1x1x128 .f32) (y : S1x1x128.Idx) :
    ∃ pc ∈ (kernelRun0_B c i arg2 harg2 arg3 harg3 arg4 harg4 arg5 harg5 arg6 harg6 arg7 harg7 hc0 x0 x1 x2 xo3 xo4 xo5).1, y ∈ pc.1.set :=
  View.cover_of_tiledL (kernelRun0_B c i arg2 harg2 arg3 harg3 arg4 harg4 arg5 harg5 arg6 harg6 arg7 harg7 hc0 x0 x1 x2 xo3 xo4 xo5).1 S1x1x128.size (by sl_kernel_rfl) y

/-- What that point leaves in accumulator window 3's staging buffer: its pieces read back. -/
def out0_B_3 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : ¬cond0_0 i)
    (x0 : Vec F S32768x128 .f32) (x1 : Vec F S32768x1 .i32) (x2 : Vec F S1x128 .f32) (xo3 xo4 xo5 : Vec F S1x1x128 .f32) : Vec F S1x1x128 .f32 :=
  VO0_3.read (Elt F) (VO0_3.writes (Elt F) VO0_3.junk (kernelRun0_B c i arg2 harg2 arg3 harg3 arg4 harg4 arg5 harg5 arg6 harg6 arg7 harg7 hc0 x0 x1 x2 xo3 xo4 xo5).1)

/-- At a later point of a core's four the pieces stored into accumulator window 4 tile its block, so they cover it. -/
theorem cover0_B_4 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : ¬cond0_0 i)
    (x0 : Vec F S32768x128 .f32) (x1 : Vec F S32768x1 .i32) (x2 : Vec F S1x128 .f32) (xo3 xo4 xo5 : Vec F S1x1x128 .f32) (y : S1x1x128.Idx) :
    ∃ pc ∈ (kernelRun0_B c i arg2 harg2 arg3 harg3 arg4 harg4 arg5 harg5 arg6 harg6 arg7 harg7 hc0 x0 x1 x2 xo3 xo4 xo5).2.1, y ∈ pc.1.set :=
  View.cover_of_tiledL (kernelRun0_B c i arg2 harg2 arg3 harg3 arg4 harg4 arg5 harg5 arg6 harg6 arg7 harg7 hc0 x0 x1 x2 xo3 xo4 xo5).2.1 S1x1x128.size (by sl_kernel_rfl) y

/-- What that point leaves in accumulator window 4's staging buffer: its pieces read back. -/
def out0_B_4 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : ¬cond0_0 i)
    (x0 : Vec F S32768x128 .f32) (x1 : Vec F S32768x1 .i32) (x2 : Vec F S1x128 .f32) (xo3 xo4 xo5 : Vec F S1x1x128 .f32) : Vec F S1x1x128 .f32 :=
  VO0_4.read (Elt F) (VO0_4.writes (Elt F) VO0_4.junk (kernelRun0_B c i arg2 harg2 arg3 harg3 arg4 harg4 arg5 harg5 arg6 harg6 arg7 harg7 hc0 x0 x1 x2 xo3 xo4 xo5).2.1)

/-- At a later point of a core's four the pieces stored into accumulator window 5 tile its block, so they cover it. -/
theorem cover0_B_5 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : ¬cond0_0 i)
    (x0 : Vec F S32768x128 .f32) (x1 : Vec F S32768x1 .i32) (x2 : Vec F S1x128 .f32) (xo3 xo4 xo5 : Vec F S1x1x128 .f32) (y : S1x1x128.Idx) :
    ∃ pc ∈ (kernelRun0_B c i arg2 harg2 arg3 harg3 arg4 harg4 arg5 harg5 arg6 harg6 arg7 harg7 hc0 x0 x1 x2 xo3 xo4 xo5).2.2.1, y ∈ pc.1.set :=
  View.cover_of_tiledL (kernelRun0_B c i arg2 harg2 arg3 harg3 arg4 harg4 arg5 harg5 arg6 harg6 arg7 harg7 hc0 x0 x1 x2 xo3 xo4 xo5).2.2.1 S1x1x128.size (by sl_kernel_rfl) y

/-- What that point leaves in accumulator window 5's staging buffer: its pieces read back. -/
def out0_B_5 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : ¬cond0_0 i)
    (x0 : Vec F S32768x128 .f32) (x1 : Vec F S32768x1 .i32) (x2 : Vec F S1x128 .f32) (xo3 xo4 xo5 : Vec F S1x1x128 .f32) : Vec F S1x1x128 .f32 :=
  VO0_5.read (Elt F) (VO0_5.writes (Elt F) VO0_5.junk (kernelRun0_B c i arg2 harg2 arg3 harg3 arg4 harg4 arg5 harg5 arg6 harg6 arg7 harg7 hc0 x0 x1 x2 xo3 xo4 xo5).2.2.1)

/-! ## What the accumulators hold after each point -/

/-- The three accumulator buffers' contents after the body at position `n`. -/
def outsAt0 (c : Dev nD) : (n : ℕ) → n < cfg0.N → Vec F S1x1x128 .f32 × Vec F S1x1x128 .f32 × Vec F S1x1x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩),
        out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩),
        out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 4 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩),
        out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩),
        out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2,
        out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2,
        out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2)

/-- At the first of a core's four points. -/
theorem outsAt0_A (c : Dev nD) (t : Fin cfg0.N) (h0 : t.val % 4 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t),
        out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t),
        out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t)) := by
  obtain ⟨n, hn⟩ := t
  cases n with
  | zero => exact rfl
  | succ n => exact (dif_pos h0).trans rfl

/-- At a later point: over what the point before left. -/
theorem outsAt0_B (c : Dev nD) (t : Fin cfg0.N) (h0 : ¬t.val % 4 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
        out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
        out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block and each accumulator's at
    `outsAt0`'s component; the invariant the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a later point of a core's four, accumulator window 3's current staging buffer holds what the body left at the
    point before: it was not written back between and the block index has not moved. -/
theorem before0_3_B (c : Dev nD) (t : Fin cfg0.N) (h0 : ¬t.val % 4 = 0) (d) :
    (dats m 0 c).before 3 t d = (outsAt0 m c (t.val - 1) (Nat.lt_of_le_of_lt (Nat.sub_le _ _) t.isLt)).1 := by
  have hN : t.val < 8 := lt_of_lt_of_eq t.isLt (show cfg0.N = 8 from N_0)
  rw [Dat.before_out_kept _ 3 rfl t (by omega) (Bool.eq_false_iff.mpr fun h => by have := (flush0_3 _).mp h; dsimp only at this; omega)
    (fun _ => rfl) (fun _ _ => rfl)]
  dsimp only [dats]
/-- At a later point of a core's four, accumulator window 4's current staging buffer holds what the body left at the
    point before: it was not written back between and the block index has not moved. -/
theorem before0_4_B (c : Dev nD) (t : Fin cfg0.N) (h0 : ¬t.val % 4 = 0) (d) :
    (dats m 0 c).before 4 t d = (outsAt0 m c (t.val - 1) (Nat.lt_of_le_of_lt (Nat.sub_le _ _) t.isLt)).2.1 := by
  have hN : t.val < 8 := lt_of_lt_of_eq t.isLt (show cfg0.N = 8 from N_0)
  rw [Dat.before_out_kept _ 4 rfl t (by omega) (Bool.eq_false_iff.mpr fun h => by have := (flush0_4 _).mp h; dsimp only at this; omega)
    (fun _ => rfl) (fun _ _ => rfl)]
  dsimp only [dats]
/-- At a later point of a core's four, accumulator window 5's current staging buffer holds what the body left at the
    point before: it was not written back between and the block index has not moved. -/
theorem before0_5_B (c : Dev nD) (t : Fin cfg0.N) (h0 : ¬t.val % 4 = 0) (d) :
    (dats m 0 c).before 5 t d = (outsAt0 m c (t.val - 1) (Nat.lt_of_le_of_lt (Nat.sub_le _ _) t.isLt)).2.2 := by
  have hN : t.val < 8 := lt_of_lt_of_eq t.isLt (show cfg0.N = 8 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: the inputs' buffers hold their blocks; at the first of a core's four points the accumulators'
    buffers hold anything and the reset's run applies, at a later one they hold what the point before left and the
    other run applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  have hN : t.val < 8 := lt_of_lt_of_eq t.isLt (show cfg0.N = 8 from N_0)
  by_cases h0 : t.val % 4 = 0
  · rw [outsAt0_A m c t h0]
    unfold out0_A_3 out0_A_4 out0_A_5
    dsimp only
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk m c 0 t) (iblk m c 1 t) (iblk m c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _)
  · rw [outsAt0_B m c t h0]
    simp only [before0_3_B m c t h0, before0_4_B m c t h0, before0_5_B m c t h0]
    unfold out0_B_3 out0_B_4 out0_B_5
    dsimp only
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk m c 0 t) (iblk m c 1 t) (iblk m c 2 t) _ _ _).2.2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every final state has each array of the pipeline at what the
    library computes from the proof data and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Fr

end
-- ==== Proof.KI.Kit.lean ====
/- The frame of the one pallas_call with host lines before and after it, part 1: what the two runs of the
   kernel body and the launch are stated over. The grid has eight points (two cores' halves of four row tiles);
   three input windows (the logits' row tile, the labels' row tile, the class priors) and three output windows,
   each a (1, 1, 128) accumulator block indexed by the core coordinate only, so it is revisited over four
   consecutive points: zeroed and added to at the first of them, added to at the other three, and written back
   after the fourth. -/
import proofs.«430741_j180388627001_2_alg».proof.Proof.Gen.KernelIdeal.Launch
import proofs.«430741_j180388627001_2_alg».proof.Proof.Gen.KernelIdeal.Skeleton
import proofs.«430741_j180388627001_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch. -/
abbrev tailOps : List (List (HloOp τ sig (Elt F))) := [hostOps1, hostOps1_1, hostOps1_2, hostOps1_3, hostOps1_4]

/-- Core `c`'s buffer contents when the region is entered: after the two reshapes before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the two reshapes, the region, and the later lines: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps hostOps0_sub hostOps0_fresh main_chain

/-- The later lines touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- And they write no array of the pipeline: each writes only its own result buffer, which is none of the six. -/
theorem hostOps1_keeps : (hostOps1 : List (HloOp τ sig (Elt F))).Forall fun op => ∀ w, Proc.devRef .tc (Pipeline.arrRef spec0 w) ∉ op.writes := by
  simp only [List.Forall]
  repeat' constructor
  all_goals
    intro w
    fin_cases w <;> simp only [StableHlo.TRef.unary, StableHlo.TRef.ternary, StableHlo.nullary_writes, StableHlo.unary_writes, StableHlo.binary_writes, StableHlo.ternary_writes, StableHlo.reshape_writes, StableHlo.unaryIndexed_writes, Finset.mem_singleton] <;> exact StableHlo.devRef_ne_of_ne (by decide)
theorem hostOps1_1_keeps : (hostOps1_1 : List (HloOp τ sig (Elt F))).Forall fun op => ∀ w, Proc.devRef .tc (Pipeline.arrRef spec0 w) ∉ op.writes := by
  simp only [List.Forall]
  repeat' constructor
  all_goals
    intro w
    fin_cases w <;> simp only [StableHlo.TRef.unary, StableHlo.TRef.ternary, StableHlo.nullary_writes, StableHlo.unary_writes, StableHlo.binary_writes, StableHlo.ternary_writes, StableHlo.reshape_writes, StableHlo.unaryIndexed_writes, Finset.mem_singleton] <;> exact StableHlo.devRef_ne_of_ne (by decide)
theorem hostOps1_2_keeps : (hostOps1_2 : List (HloOp τ sig (Elt F))).Forall fun op => ∀ w, Proc.devRef .tc (Pipeline.arrRef spec0 w) ∉ op.writes := by
  simp only [List.Forall]
  repeat' constructor
  all_goals
    intro w
    fin_cases w <;> simp only [StableHlo.TRef.unary, StableHlo.TRef.ternary, StableHlo.nullary_writes, StableHlo.unary_writes, StableHlo.binary_writes, StableHlo.ternary_writes, StableHlo.reshape_writes, StableHlo.unaryIndexed_writes, Finset.mem_singleton] <;> exact StableHlo.devRef_ne_of_ne (by decide)
theorem hostOps1_3_keeps : (hostOps1_3 : List (HloOp τ sig (Elt F))).Forall fun op => ∀ w, Proc.devRef .tc (Pipeline.arrRef spec0 w) ∉ op.writes := by
  simp only [List.Forall]
  repeat' constructor
  all_goals
    intro w
    fin_cases w <;> simp only [StableHlo.TRef.unary, StableHlo.TRef.ternary, StableHlo.nullary_writes, StableHlo.unary_writes, StableHlo.binary_writes, StableHlo.ternary_writes, StableHlo.reshape_writes, StableHlo.unaryIndexed_writes, Finset.mem_singleton] <;> exact StableHlo.devRef_ne_of_ne (by decide)
theorem hostOps1_4_keeps : (hostOps1_4 : List (HloOp τ sig (Elt F))).Forall fun op => ∀ w, Proc.devRef .tc (Pipeline.arrRef spec0 w) ∉ op.writes := by
  simp only [List.Forall]
  repeat' constructor
  all_goals
    intro w
    fin_cases w <;> simp only [StableHlo.TRef.unary, StableHlo.TRef.ternary, StableHlo.nullary_writes, StableHlo.unary_writes, StableHlo.binary_writes, StableHlo.ternary_writes, StableHlo.reshape_writes, StableHlo.unaryIndexed_writes, Finset.mem_singleton] <;> exact StableHlo.devRef_ne_of_ne (by decide)

theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-! ## The argument arrays around the region -/

/-- Neither reshape before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.TRef.unary, StableHlo.TRef.ternary, StableHlo.nullary_writes, StableHlo.unary_writes, StableHlo.binary_writes, StableHlo.ternary_writes, StableHlo.reshape_writes, StableHlo.unaryIndexed_writes, Finset.mem_singleton]
    repeat' apply And.intro
    all_goals exact StableHlo.devRef_ne_of_ne (by decide)))

/-- Neither reshape before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.TRef.unary, StableHlo.TRef.ternary, StableHlo.nullary_writes, StableHlo.unary_writes, StableHlo.binary_writes, StableHlo.ternary_writes, StableHlo.reshape_writes, StableHlo.unaryIndexed_writes, Finset.mem_singleton]
    repeat' apply And.intro
    all_goals exact StableHlo.devRef_ne_of_ne (by decide)))

/-- Neither reshape before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.TRef.unary, StableHlo.TRef.ternary, StableHlo.nullary_writes, StableHlo.unary_writes, StableHlo.binary_writes, StableHlo.ternary_writes, StableHlo.reshape_writes, StableHlo.unaryIndexed_writes, Finset.mem_singleton]
    repeat' apply And.intro
    all_goals exact StableHlo.devRef_ne_of_ne (by decide)))

/-- Neither reshape before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.TRef.unary, StableHlo.TRef.ternary, StableHlo.nullary_writes, StableHlo.unary_writes, StableHlo.binary_writes, StableHlo.ternary_writes, StableHlo.reshape_writes, StableHlo.unaryIndexed_writes, Finset.mem_singleton]
    repeat' apply And.intro
    all_goals exact StableHlo.devRef_ne_of_ne (by decide)))

/-- No line after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, List.flatten_cons, List.flatten_nil, List.append_nil, List.cons_append, List.nil_append, List.Forall, StableHlo.TRef.unary, StableHlo.TRef.ternary, StableHlo.nullary_writes, StableHlo.unary_writes, StableHlo.binary_writes, StableHlo.ternary_writes, StableHlo.reshape_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No line after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, hostOps1_4, List.flatten_cons, List.flatten_nil, List.append_nil, List.cons_append, List.nil_append, List.Forall, StableHlo.TRef.unary, StableHlo.TRef.ternary, StableHlo.nullary_writes, StableHlo.unary_writes, StableHlo.binary_writes, StableHlo.ternary_writes, StableHlo.reshape_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No line after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [tailOps, hostOps1, hostOps1_1, hostOps1_2, hostOps1_3, hostOps1_4, List.flatten_cons, List.flatten_nil, List.append_nil, List.cons_append, List.nil_append, List.Forall, StableHlo.TRef.unary, StableHlo.TRef.ternary, StableHlo.nullary_writes, StableHlo.unary_writes, StableHlo.binary_writes, StableHlo.ternary_writes, StableHlo.reshape_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is not
    fetched the block index has not moved), for any proof data whose array is the region-entry one and whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The four argument arrays end as launched: the logits are a window's array and an input window's array ends at its
    entry contents; the other three are no window's array and no later line writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c)⟩) h

/-! ## The body's one branch -/

/-- The reset's condition, from the grid coordinates: the row-tile coordinate is zero. -/
abbrev cond0_0 (i : grid0.Coords) : Prop := (Scalar.cmpi .ne (Scalar.extui (Scalar.cmpi .eq (BitVec.ofNat 32 (i 1).val) 0#32)) 0#32) = 1#1
/-- It holds at the first of each core's four points. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging memrefs -/

/-- One staging buffer of each output window, through which its contents are stated. -/
abbrev VO0_3 : View sig .tc .vmem S1x1x128 .f32 := (Memref.whole cc0_stg3_0 : Memref sig .tc .vmem S1x1x128 .f32).view
abbrev VO0_4 : View sig .tc .vmem S1x1x128 .f32 := (Memref.whole cc0_stg4_0 : Memref sig .tc .vmem S1x1x128 .f32).view
abbrev VO0_5 : View sig .tc .vmem S1x1x128 .f32 := (Memref.whole cc0_stg5_0 : Memref sig .tc .vmem S1x1x128 .f32).view
/-- Each window's current staging memref at point `t`, as the pipeline passes it, and its wholeness. -/
abbrev ms0_0 (t : Fin cfg0.N) : Memref sig .tc .vmem S32768x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32768x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x128 .f32 := win0_5.stage (cfg0.slots t 5)
abbrev hs0_5 (t : Fin cfg0.N) : (ms0_5 t).IsWhole := hstage0_5 ((cfg0.slots t 5).cast nbuf0_5)

end Cert.KernelIdeal.Fr

end
-- ==== Proof.KI.RunB.lean ====
/- The frame of the one pallas_call, part 2: the kernel body run once at a point that is NOT the first of its core's
   four (the reset's branch not taken). Each accumulator block is loaded, the row tile's contribution added, and the
   sum stored back whole; what each output's staging buffer ends with is found by the run, as pieces. -/
import proofs.«430741_j180388627001_2_alg».proof.Proof.KI.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the three accumulator buffers at a later point of a core's four, with the
    proof that from the inputs' buffers at their contents and the accumulators' at what the point before left the
    body runs to the continuation holding the inputs' as they were and each accumulator's with its pieces written. -/
noncomputable def kernelRun0_B (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : ¬cond0_0 i)
    (x0 : Vec F S32768x128 .f32) (x1 : Vec F S32768x1 .i32) (x2 : Vec F S1x128 .f32) (xo3 xo4 xo5 : Vec F S1x1x128 .f32) :
    Σ' (L3 : List (View.Piece (Elt F) S1x1x128 .f32)) (L4 : List (View.Piece (Elt F) S1x1x128 .f32)), { L5 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0__reduce_kernel i arg2 harg2 arg3 harg3 arg4 harg4 arg5 harg5 arg6 harg6 arg7 harg7) K } := by
  refine ⟨?_, ?_, ?_, fun E K => ?run⟩
  case run =>
    simp only [cc0__reduce_kernel_eq_skeleton]; unfold cc0__reduce_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexists _; iexact H4
    iexists _; iexact H5

end Cert.KernelIdeal.Fr

end
-- ==== Proof.KI.RunA.lean ====
/- The frame of the one pallas_call, part 3: the kernel body run once at the FIRST of a core's four points (the reset's
   branch taken). Each accumulator block is stored zero, read back, the row tile's contribution added, and the sum
   stored back whole: two covering stores per accumulator, found by the run as pieces. -/
import proofs.«430741_j180388627001_2_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the three accumulator buffers at the first of a core's four points, with the
    proof that from the inputs' buffers at their contents and the accumulators' at anything the body runs to the
    continuation holding the inputs' as they were and each accumulator's with its pieces written. -/
noncomputable def kernelRun0_A (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : cond0_0 i)
    (x0 : Vec F S32768x128 .f32) (x1 : Vec F S32768x1 .i32) (x2 : Vec F S1x128 .f32) :
    Σ' (L3 : List (View.Piece (Elt F) S1x1x128 .f32)) (L4 : List (View.Piece (Elt F) S1x1x128 .f32)), { L5 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0__reduce_kernel i arg2 harg2 arg3 harg3 arg4 harg4 arg5 harg5 arg6 harg6 arg7 harg7) K } := by
  refine ⟨?_, ?_, ?_, fun E K => ?run⟩
  case run =>
    simp only [cc0__reduce_kernel_eq_skeleton]; unfold cc0__reduce_kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexists _; iexact H4
    iexists _; iexact H5

end Cert.KernelIdeal.Fr

end
-- ==== Proof.KI.Frame.lean ====
/- The frame of the one pallas_call, part 4: what the three accumulator buffers hold after each grid point (by recursion on
   the point: the first of a core's four points starts from anything, a later one from what the point before left), the
   pipeline's proof data, the body obligation at every point, the run of @main, and the frame claim. -/
import proofs.«430741_j180388627001_2_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first of a core's four points the pieces stored into accumulator window 3 tile its block, so they cover it. -/
theorem cover0_A_3 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : cond0_0 i)
    (x0 : Vec F S32768x128 .f32) (x1 : Vec F S32768x1 .i32) (x2 : Vec F S1x128 .f32) (y : S1x1x128.Idx) :
    ∃ pc ∈ (kernelRun0_A c i arg2 harg2 arg3 harg3 arg4 harg4 arg5 harg5 arg6 harg6 arg7 harg7 hc0 x0 x1 x2).1, y ∈ pc.1.set :=
  View.cover_of_tiledL (kernelRun0_A c i arg2 harg2 arg3 harg3 arg4 harg4 arg5 harg5 arg6 harg6 arg7 harg7 hc0 x0 x1 x2).1 S1x1x128.size (by sl_kernel_rfl) y

/-- What that point leaves in accumulator window 3's staging buffer: its pieces read back. -/
def out0_A_3 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : cond0_0 i)
    (x0 : Vec F S32768x128 .f32) (x1 : Vec F S32768x1 .i32) (x2 : Vec F S1x128 .f32) : Vec F S1x1x128 .f32 :=
  VO0_3.read (Elt F) (VO0_3.writes (Elt F) VO0_3.junk (kernelRun0_A c i arg2 harg2 arg3 harg3 arg4 harg4 arg5 harg5 arg6 harg6 arg7 harg7 hc0 x0 x1 x2).1)

/-- At the first of a core's four points the pieces stored into accumulator window 4 tile its block, so they cover it. -/
theorem cover0_A_4 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : cond0_0 i)
    (x0 : Vec F S32768x128 .f32) (x1 : Vec F S32768x1 .i32) (x2 : Vec F S1x128 .f32) (y : S1x1x128.Idx) :
    ∃ pc ∈ (kernelRun0_A c i arg2 harg2 arg3 harg3 arg4 harg4 arg5 harg5 arg6 harg6 arg7 harg7 hc0 x0 x1 x2).2.1, y ∈ pc.1.set :=
  View.cover_of_tiledL (kernelRun0_A c i arg2 harg2 arg3 harg3 arg4 harg4 arg5 harg5 arg6 harg6 arg7 harg7 hc0 x0 x1 x2).2.1 S1x1x128.size (by sl_kernel_rfl) y

/-- What that point leaves in accumulator window 4's staging buffer: its pieces read back. -/
def out0_A_4 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : cond0_0 i)
    (x0 : Vec F S32768x128 .f32) (x1 : Vec F S32768x1 .i32) (x2 : Vec F S1x128 .f32) : Vec F S1x1x128 .f32 :=
  VO0_4.read (Elt F) (VO0_4.writes (Elt F) VO0_4.junk (kernelRun0_A c i arg2 harg2 arg3 harg3 arg4 harg4 arg5 harg5 arg6 harg6 arg7 harg7 hc0 x0 x1 x2).2.1)

/-- At the first of a core's four points the pieces stored into accumulator window 5 tile its block, so they cover it. -/
theorem cover0_A_5 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : cond0_0 i)
    (x0 : Vec F S32768x128 .f32) (x1 : Vec F S32768x1 .i32) (x2 : Vec F S1x128 .f32) (y : S1x1x128.Idx) :
    ∃ pc ∈ (kernelRun0_A c i arg2 harg2 arg3 harg3 arg4 harg4 arg5 harg5 arg6 harg6 arg7 harg7 hc0 x0 x1 x2).2.2.1, y ∈ pc.1.set :=
  View.cover_of_tiledL (kernelRun0_A c i arg2 harg2 arg3 harg3 arg4 harg4 arg5 harg5 arg6 harg6 arg7 harg7 hc0 x0 x1 x2).2.2.1 S1x1x128.size (by sl_kernel_rfl) y

/-- What that point leaves in accumulator window 5's staging buffer: its pieces read back. -/
def out0_A_5 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : cond0_0 i)
    (x0 : Vec F S32768x128 .f32) (x1 : Vec F S32768x1 .i32) (x2 : Vec F S1x128 .f32) : Vec F S1x1x128 .f32 :=
  VO0_5.read (Elt F) (VO0_5.writes (Elt F) VO0_5.junk (kernelRun0_A c i arg2 harg2 arg3 harg3 arg4 harg4 arg5 harg5 arg6 harg6 arg7 harg7 hc0 x0 x1 x2).2.2.1)

/-- At a later point of a core's four the pieces stored into accumulator window 3 tile its block, so they cover it. -/
theorem cover0_B_3 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : ¬cond0_0 i)
    (x0 : Vec F S32768x128 .f32) (x1 : Vec F S32768x1 .i32) (x2 : Vec F S1x128 .f32) (xo3 xo4 xo5 : Vec F S1x1x128 .f32) (y : S1x1x128.Idx) :
    ∃ pc ∈ (kernelRun0_B c i arg2 harg2 arg3 harg3 arg4 harg4 arg5 harg5 arg6 harg6 arg7 harg7 hc0 x0 x1 x2 xo3 xo4 xo5).1, y ∈ pc.1.set :=
  View.cover_of_tiledL (kernelRun0_B c i arg2 harg2 arg3 harg3 arg4 harg4 arg5 harg5 arg6 harg6 arg7 harg7 hc0 x0 x1 x2 xo3 xo4 xo5).1 S1x1x128.size (by sl_kernel_rfl) y

/-- What that point leaves in accumulator window 3's staging buffer: its pieces read back. -/
def out0_B_3 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : ¬cond0_0 i)
    (x0 : Vec F S32768x128 .f32) (x1 : Vec F S32768x1 .i32) (x2 : Vec F S1x128 .f32) (xo3 xo4 xo5 : Vec F S1x1x128 .f32) : Vec F S1x1x128 .f32 :=
  VO0_3.read (Elt F) (VO0_3.writes (Elt F) VO0_3.junk (kernelRun0_B c i arg2 harg2 arg3 harg3 arg4 harg4 arg5 harg5 arg6 harg6 arg7 harg7 hc0 x0 x1 x2 xo3 xo4 xo5).1)

/-- At a later point of a core's four the pieces stored into accumulator window 4 tile its block, so they cover it. -/
theorem cover0_B_4 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : ¬cond0_0 i)
    (x0 : Vec F S32768x128 .f32) (x1 : Vec F S32768x1 .i32) (x2 : Vec F S1x128 .f32) (xo3 xo4 xo5 : Vec F S1x1x128 .f32) (y : S1x1x128.Idx) :
    ∃ pc ∈ (kernelRun0_B c i arg2 harg2 arg3 harg3 arg4 harg4 arg5 harg5 arg6 harg6 arg7 harg7 hc0 x0 x1 x2 xo3 xo4 xo5).2.1, y ∈ pc.1.set :=
  View.cover_of_tiledL (kernelRun0_B c i arg2 harg2 arg3 harg3 arg4 harg4 arg5 harg5 arg6 harg6 arg7 harg7 hc0 x0 x1 x2 xo3 xo4 xo5).2.1 S1x1x128.size (by sl_kernel_rfl) y

/-- What that point leaves in accumulator window 4's staging buffer: its pieces read back. -/
def out0_B_4 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : ¬cond0_0 i)
    (x0 : Vec F S32768x128 .f32) (x1 : Vec F S32768x1 .i32) (x2 : Vec F S1x128 .f32) (xo3 xo4 xo5 : Vec F S1x1x128 .f32) : Vec F S1x1x128 .f32 :=
  VO0_4.read (Elt F) (VO0_4.writes (Elt F) VO0_4.junk (kernelRun0_B c i arg2 harg2 arg3 harg3 arg4 harg4 arg5 harg5 arg6 harg6 arg7 harg7 hc0 x0 x1 x2 xo3 xo4 xo5).2.1)

/-- At a later point of a core's four the pieces stored into accumulator window 5 tile its block, so they cover it. -/
theorem cover0_B_5 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : ¬cond0_0 i)
    (x0 : Vec F S32768x128 .f32) (x1 : Vec F S32768x1 .i32) (x2 : Vec F S1x128 .f32) (xo3 xo4 xo5 : Vec F S1x1x128 .f32) (y : S1x1x128.Idx) :
    ∃ pc ∈ (kernelRun0_B c i arg2 harg2 arg3 harg3 arg4 harg4 arg5 harg5 arg6 harg6 arg7 harg7 hc0 x0 x1 x2 xo3 xo4 xo5).2.2.1, y ∈ pc.1.set :=
  View.cover_of_tiledL (kernelRun0_B c i arg2 harg2 arg3 harg3 arg4 harg4 arg5 harg5 arg6 harg6 arg7 harg7 hc0 x0 x1 x2 xo3 xo4 xo5).2.2.1 S1x1x128.size (by sl_kernel_rfl) y

/-- What that point leaves in accumulator window 5's staging buffer: its pieces read back. -/
def out0_B_5 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : ¬cond0_0 i)
    (x0 : Vec F S32768x128 .f32) (x1 : Vec F S32768x1 .i32) (x2 : Vec F S1x128 .f32) (xo3 xo4 xo5 : Vec F S1x1x128 .f32) : Vec F S1x1x128 .f32 :=
  VO0_5.read (Elt F) (VO0_5.writes (Elt F) VO0_5.junk (kernelRun0_B c i arg2 harg2 arg3 harg3 arg4 harg4 arg5 harg5 arg6 harg6 arg7 harg7 hc0 x0 x1 x2 xo3 xo4 xo5).2.2.1)

/-! ## What the accumulators hold after each point -/

/-- The three accumulator buffers' contents after the body at position `n`. -/
def outsAt0 (c : Dev nD) : (n : ℕ) → n < cfg0.N → Vec F S1x1x128 .f32 × Vec F S1x1x128 .f32 × Vec F S1x1x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩),
        out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩),
        out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 4 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩),
        out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩),
        out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2,
        out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2,
        out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2)

/-- At the first of a core's four points. -/
theorem outsAt0_A (c : Dev nD) (t : Fin cfg0.N) (h0 : t.val % 4 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t),
        out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t),
        out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t)) := by
  obtain ⟨n, hn⟩ := t
  cases n with
  | zero => exact rfl
  | succ n => exact (dif_pos h0).trans rfl

/-- At a later point: over what the point before left. -/
theorem outsAt0_B (c : Dev nD) (t : Fin cfg0.N) (h0 : ¬t.val % 4 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
        out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
        out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block and each accumulator's at
    `outsAt0`'s component; the invariant the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a later point of a core's four, accumulator window 3's current staging buffer holds what the body left at the
    point before: it was not written back between and the block index has not moved. -/
theorem before0_3_B (c : Dev nD) (t : Fin cfg0.N) (h0 : ¬t.val % 4 = 0) (d) :
    (dats m 0 c).before 3 t d = (outsAt0 m c (t.val - 1) (Nat.lt_of_le_of_lt (Nat.sub_le _ _) t.isLt)).1 := by
  have hN : t.val < 8 := lt_of_lt_of_eq t.isLt (show cfg0.N = 8 from N_0)
  rw [Dat.before_out_kept _ 3 rfl t (by omega) (Bool.eq_false_iff.mpr fun h => by have := (flush0_3 _).mp h; dsimp only at this; omega)
    (fun _ => rfl) (fun _ _ => rfl)]
  dsimp only [dats]
/-- At a later point of a core's four, accumulator window 4's current staging buffer holds what the body left at the
    point before: it was not written back between and the block index has not moved. -/
theorem before0_4_B (c : Dev nD) (t : Fin cfg0.N) (h0 : ¬t.val % 4 = 0) (d) :
    (dats m 0 c).before 4 t d = (outsAt0 m c (t.val - 1) (Nat.lt_of_le_of_lt (Nat.sub_le _ _) t.isLt)).2.1 := by
  have hN : t.val < 8 := lt_of_lt_of_eq t.isLt (show cfg0.N = 8 from N_0)
  rw [Dat.before_out_kept _ 4 rfl t (by omega) (Bool.eq_false_iff.mpr fun h => by have := (flush0_4 _).mp h; dsimp only at this; omega)
    (fun _ => rfl) (fun _ _ => rfl)]
  dsimp only [dats]
/-- At a later point of a core's four, accumulator window 5's current staging buffer holds what the body left at the
    point before: it was not written back between and the block index has not moved. -/
theorem before0_5_B (c : Dev nD) (t : Fin cfg0.N) (h0 : ¬t.val % 4 = 0) (d) :
    (dats m 0 c).before 5 t d = (outsAt0 m c (t.val - 1) (Nat.lt_of_le_of_lt (Nat.sub_le _ _) t.isLt)).2.2 := by
  have hN : t.val < 8 := lt_of_lt_of_eq t.isLt (show cfg0.N = 8 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: the inputs' buffers hold their blocks; at the first of a core's four points the accumulators'
    buffers hold anything and the reset's run applies, at a later one they hold what the point before left and the
    other run applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  have hN : t.val < 8 := lt_of_lt_of_eq t.isLt (show cfg0.N = 8 from N_0)
  by_cases h0 : t.val % 4 = 0
  · rw [outsAt0_A m c t h0]
    unfold out0_A_3 out0_A_4 out0_A_5
    dsimp only
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk m c 0 t) (iblk m c 1 t) (iblk m c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _)
  · rw [outsAt0_B m c t h0]
    simp only [before0_3_B m c t h0, before0_4_B m c t h0, before0_5_B m c t h0]
    unfold out0_B_3 out0_B_4 out0_B_5
    dsimp only
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk m c 0 t) (iblk m c 1 t) (iblk m c 2 t) _ _ _).2.2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every final state has each array of the pipeline at what the
    library computes from the proof data and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Fr

end
-- ==== Proof.KI.Pieces.lean ====
/- What the two runs of the kernel body leave in the three accumulator buffers, as values: at a later point of a core's
   four, the stored payload of the old contents and the row tile; at the first point, the same payload of the zero block
   the reset stored (the read-back of the reset's covering store). -/
import proofs.«430741_j180388627001_2_alg».proof.Proof.KI.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- A later point: one covering store per accumulator, of the old contents and the tile. -/
theorem out_B_3 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : ¬cond0_0 i)
    (x0 : Vec F S32768x128 .f32) (x1 : Vec F S32768x1 .i32) (x2 : Vec F S1x128 .f32) (xo3 xo4 xo5 : Vec F S1x1x128 .f32) :
    out0_B_3 c i arg2 harg2 arg3 harg3 arg4 harg4 arg5 harg5 arg6 harg6 arg7 harg7 hc0 x0 x1 x2 xo3 xo4 xo5 = k0_pay16 (k0_pay14 x0 x1) xo3 := by
  unfold out0_B_3
  rw [View.read_writes_eq_canon _ _ _ (cover0_B_3 c i arg2 harg2 arg3 harg3 arg4 harg4 arg5 harg5 arg6 harg6 arg7 harg7 hc0 x0 x1 x2 xo3 xo4 xo5)]
  unfold kernelRun0_B
  dsimp only
  sl_unfold_words
  rw [View.canon_unit_zero hz3]
  simp only [View.readAt_eq_ld, harg2.read_unread, harg3.read_unread, harg4.read_unread, harg5.read_unread, harg6.read_unread, harg7.read_unread,
    View.ld_unit_zero (S := S1x1x128) hz3, View.ld_unit_zero (S := S32768x128) hz2, View.ld_unit_zero (S := S32768x1) hz2, View.ld_unit_zero (S := S1x128) hz2]

/-- A later point: one covering store per accumulator, of the old contents and the tile. -/
theorem out_B_4 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : ¬cond0_0 i)
    (x0 : Vec F S32768x128 .f32) (x1 : Vec F S32768x1 .i32) (x2 : Vec F S1x128 .f32) (xo3 xo4 xo5 : Vec F S1x1x128 .f32) :
    out0_B_4 c i arg2 harg2 arg3 harg3 arg4 harg4 arg5 harg5 arg6 harg6 arg7 harg7 hc0 x0 x1 x2 xo3 xo4 xo5 = k0_pay17 (k0_pay15 x0 x1) xo4 := by
  unfold out0_B_4
  rw [View.read_writes_eq_canon _ _ _ (cover0_B_4 c i arg2 harg2 arg3 harg3 arg4 harg4 arg5 harg5 arg6 harg6 arg7 harg7 hc0 x0 x1 x2 xo3 xo4 xo5)]
  unfold kernelRun0_B
  dsimp only
  sl_unfold_words
  rw [View.canon_unit_zero hz3]
  simp only [View.readAt_eq_ld, harg2.read_unread, harg3.read_unread, harg4.read_unread, harg5.read_unread, harg6.read_unread, harg7.read_unread,
    View.ld_unit_zero (S := S1x1x128) hz3, View.ld_unit_zero (S := S32768x128) hz2, View.ld_unit_zero (S := S32768x1) hz2, View.ld_unit_zero (S := S1x128) hz2]

/-- A later point: one covering store per accumulator, of the old contents and the tile. -/
theorem out_B_5 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : ¬cond0_0 i)
    (x0 : Vec F S32768x128 .f32) (x1 : Vec F S32768x1 .i32) (x2 : Vec F S1x128 .f32) (xo3 xo4 xo5 : Vec F S1x1x128 .f32) :
    out0_B_5 c i arg2 harg2 arg3 harg3 arg4 harg4 arg5 harg5 arg6 harg6 arg7 harg7 hc0 x0 x1 x2 xo3 xo4 xo5 = k0_pay1 (k0_pay10 x0) (k0_pay12 x1) (k0_pay18 (k0_pay12 x1)) (k0_pay19 (k0_pay13 x1)) (k0_pay20 (F := F) (k0_pay5 x1)) (k0_pay21 (k0_pay5 x1) (k0_pay6 x2) (k0_pay11 x0)) xo5 := by
  unfold out0_B_5
  rw [View.read_writes_eq_canon _ _ _ (cover0_B_5 c i arg2 harg2 arg3 harg3 arg4 harg4 arg5 harg5 arg6 harg6 arg7 harg7 hc0 x0 x1 x2 xo3 xo4 xo5)]
  unfold kernelRun0_B
  dsimp only
  sl_unfold_words
  rw [View.canon_unit_zero hz3]
  simp only [View.readAt_eq_ld, harg2.read_unread, harg3.read_unread, harg4.read_unread, harg5.read_unread, harg6.read_unread, harg7.read_unread,
    View.ld_unit_zero (S := S1x1x128) hz3, View.ld_unit_zero (S := S32768x128) hz2, View.ld_unit_zero (S := S32768x1) hz2, View.ld_unit_zero (S := S1x128) hz2]

/-- The first point: the reset's zero block, read back, then the same covering store. -/
theorem out_A_3 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : cond0_0 i)
    (x0 : Vec F S32768x128 .f32) (x1 : Vec F S32768x1 .i32) (x2 : Vec F S1x128 .f32) :
    out0_A_3 c i arg2 harg2 arg3 harg3 arg4 harg4 arg5 harg5 arg6 harg6 arg7 harg7 hc0 x0 x1 x2 = k0_pay16 (k0_pay14 x0 x1) (k0_pay2 (F := F)) := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread, harg4.read_unread,
    View.ld_unit_zero (S := S1x1x128) hz3, View.ld_unit_zero (S := S32768x128) hz2, View.ld_unit_zero (S := S32768x1) hz2, View.ld_unit_zero (S := S1x128) hz2]

/-- The first point: the reset's zero block, read back, then the same covering store. -/
theorem out_A_4 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : cond0_0 i)
    (x0 : Vec F S32768x128 .f32) (x1 : Vec F S32768x1 .i32) (x2 : Vec F S1x128 .f32) :
    out0_A_4 c i arg2 harg2 arg3 harg3 arg4 harg4 arg5 harg5 arg6 harg6 arg7 harg7 hc0 x0 x1 x2 = k0_pay17 (k0_pay15 x0 x1) (k0_pay3 (F := F)) := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread, harg4.read_unread,
    View.ld_unit_zero (S := S1x1x128) hz3, View.ld_unit_zero (S := S32768x128) hz2, View.ld_unit_zero (S := S32768x1) hz2, View.ld_unit_zero (S := S1x128) hz2]

/-- The first point: the reset's zero block, read back, then the same covering store. -/
theorem out_A_5 (c : Dev nD) (i : grid0.Coords) (arg2 : Memref sig .tc .vmem S32768x128 .f32) (harg2 : arg2.IsWhole) (arg3 : Memref sig .tc .vmem S32768x1 .i32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : cond0_0 i)
    (x0 : Vec F S32768x128 .f32) (x1 : Vec F S32768x1 .i32) (x2 : Vec F S1x128 .f32) :
    out0_A_5 c i arg2 harg2 arg3 harg3 arg4 harg4 arg5 harg5 arg6 harg6 arg7 harg7 hc0 x0 x1 x2 = k0_pay1 (k0_pay10 x0) (k0_pay12 x1) (k0_pay18 (k0_pay12 x1)) (k0_pay19 (k0_pay13 x1)) (k0_pay20 (F := F) (k0_pay5 x1)) (k0_pay21 (k0_pay5 x1) (k0_pay6 x2) (k0_pay11 x0)) (k0_pay4 (F := F)) := by
  unfold out0_A_5
  rw [View.read_writes_eq_canon _ _ _ (cover0_A_5 c i arg2 harg2 arg3 harg3 arg4 harg4 arg5 harg5 arg6 harg6 arg7 harg7 hc0 x0 x1 x2)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread, harg4.read_unread,
    View.ld_unit_zero (S := S1x1x128) hz3, View.ld_unit_zero (S := S32768x128) hz2, View.ld_unit_zero (S := S32768x1) hz2, View.ld_unit_zero (S := S1x128) hz2]

end Cert.KernelIdeal.Fr

end
-- ==== Proof.KI.Blocks.lean ====
/- The three input windows' blocks at a grid point, read at an index of the argument arrays: point t stages rows
   32768 t ... 32768 t + 32767 of the logits and of the labels (the labels through the reshape to a column before the
   region), and the whole prior vector (through its reshape to a row). -/
import proofs.«430741_j180388627001_2_alg».proof.Proof.KI.Frame
import Idealize.ShloMosaic.Lib.Pipeline.Value
import Idealize.ShloMosaic.Lib.ValueIdx
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The first two windows' block index at point t is (t, 0); the third window's is (0, 0). -/
private theorem index0 : ∀ t : Fin grid0.N, win0_0.index t 0 = t.val ∧ win0_0.index t 1 = 0 := by
  intro t
  rcases fin_N0 t with rfl | rfl | rfl | rfl | rfl | rfl | rfl | rfl <;> decide
private theorem index1 : ∀ t : Fin grid0.N, win0_1.index t 0 = t.val ∧ win0_1.index t 1 = 0 := by
  intro t
  rcases fin_N0 t with rfl | rfl | rfl | rfl | rfl | rfl | rfl | rfl <;> decide
private theorem index2 : ∀ t : Fin grid0.N, win0_2.index t 0 = 0 ∧ win0_2.index t 1 = 0 := by
  intro t
  rcases fin_N0 t with rfl | rfl | rfl | rfl | rfl | rfl | rfl | rfl <;> decide

/-- The labels' column as the region finds it: the label vector viewed as a (262144, 1) array. -/
private theorem V_main_v0 (c : Dev nD) :
    V m c main_v0 = shapeCast S262144x1 (m ((c : Thread nD τ).loc main_arg1) : S262144.Idx → Elt F .i32) shapeCasts_S262144_S262144x1 := by
  show StableHlo.after (List.flatten [hostOps0]) (fun b => m (c, b)) (Proc.devRef .tc main_v0) = _
  simp only [List.flatten_cons, List.flatten_nil, List.append_nil]
  after_results
  rfl

/-- The priors' row as the region finds it: the prior vector viewed as a (1, 128) array. -/
private theorem V_main_v1 (c : Dev nD) :
    V m c main_v1 = shapeCast S1x128 (m ((c : Thread nD τ).loc main_arg2) : S128.Idx → Elt F .f32) shapeCasts_S128_S1x128 := by
  show StableHlo.after (List.flatten [hostOps0]) (fun b => m (c, b)) (Proc.devRef .tc main_v1) = _
  simp only [List.flatten_cons, List.flatten_nil, List.append_nil]
  after_results
  rfl

theorem iblk0_apply (c : Dev nD) (t : Fin cfg0.N) (r : Fin 32768) (k : Fin 128) (h : 32768 * t.val + r.val < 262144) :
    (iblk m c 0 t : Vec F S32768x128 .f32) (ix2 r k)
      = m ((c : Thread nD τ).loc main_arg0) (ix2 (⟨32768 * t.val + r.val, h⟩ : Fin 262144) k) := by
  have hi := index0 t
  unfold iblk
  rw [View.read_apply]
  show V m c main_arg0 _ = m (c.tc.loc main_arg0) _
  rw [V_main_arg0]
  congr 1
  funext a
  apply Fin.ext
  match a with
  | ⟨0, _⟩ => show win0_0.index t 0 * 32768 + 1 * r.val = 32768 * t.val + r.val; rw [hi.1]; omega
  | ⟨1, _⟩ => show win0_0.index t 1 * 128 + 1 * k.val = k.val; rw [hi.2]; omega

theorem iblk1_apply (c : Dev nD) (t : Fin cfg0.N) (r : Fin 32768) (h : 32768 * t.val + r.val < 262144) :
    (iblk m c 1 t : Vec F S32768x1 .i32) (ix2 r (0 : Fin 1))
      = m ((c : Thread nD τ).loc main_arg1) (ix1 (⟨32768 * t.val + r.val, h⟩ : Fin 262144)) := by
  have hi := index1 t
  unfold iblk
  rw [View.read_apply]
  show V m c main_v0 _ = _
  rw [V_main_v0]
  refine shapeCast_apply _ _ _ (ix1 (⟨32768 * t.val + r.val, h⟩ : Fin 262144)) ?_
  rw [Shape.rowMajor_val_one, Shape.rowMajor_val_two]
  show 32768 * t.val + r.val = (win0_1.index t 0 * 32768 + 1 * r.val) * 1 + (win0_1.index t 1 * 1 + 1 * 0)
  rw [hi.1, hi.2]; omega

theorem iblk2_apply (c : Dev nD) (t : Fin cfg0.N) (k : Fin 128) :
    (iblk m c 2 t : Vec F S1x128 .f32) (ix2 (0 : Fin 1) k) = m ((c : Thread nD τ).loc main_arg2) (ix1 k) := by
  have hi := index2 t
  unfold iblk
  rw [View.read_apply]
  show V m c main_v1 _ = _
  rw [V_main_v1]
  refine shapeCast_apply _ _ _ (ix1 k) ?_
  rw [Shape.rowMajor_val_one, Shape.rowMajor_val_two]
  show k.val = (win0_2.index t 0 * 1 + 1 * 0) * 128 + (win0_2.index t 1 * 128 + 1 * k.val)
  rw [hi.1, hi.2]; omega

end Cert.KernelIdeal.Fr

end
-- ==== Proof.Spec.lean ====
/- The loss the two programs compute, stated once over the extended reals, index by index.
   For a row x of 128 logits: m = max_k x_k, e_k = exp (x_k - m), s = Σ_k e_k, the softmax e_k / s, the
   clamped negative log  neglog_k = -log (1 - e_k / s + ε)  and the log-softmax  logp_k = (x_k - m) - log s.
   A row is "labeled" when its label is at most 127 (signed); its label clipped into [0, 127] picks a class.
   Six statistics are plain sums over the 262144 rows: per class the neglogs of the unlabeled rows (SU) and of the
   labeled rows (SP), the numbers of labeled and unlabeled rows (NP, NU), the labeled rows' neglog at their own
   class weighted by that class's prior (PU2), and the labeled rows' negated log-softmax at their own class (CE).
   The two results are quotients of these by max(1, NP) and max(1, NU) and by the literals 32 and 96. -/
import Idealize.ShloMosaic.PureOps.Ideal
import Idealize.ShloMosaic.PureOps.Ideal.Laws

noncomputable section

namespace Cert.Spec

open Idealize.ShloMosaic

/-- The float literals the two programs share, as the extended reals their words denote. -/
abbrev negInf : EReal := Ideal.ofBits .f32 0xFF800000#32
abbrev f0 : EReal := Ideal.ofBits .f32 0x00000000#32
abbrev f1 : EReal := Ideal.ofBits .f32 0x3F800000#32
abbrev feps : EReal := Ideal.ofBits .f32 0x3C23D70A#32
abbrev f32c : EReal := Ideal.ofBits .f32 0x42000000#32
abbrev f96c : EReal := Ideal.ofBits .f32 0x42C00000#32

/-- A row's maximum: the fold of `max` from -∞ over its 128 entries. -/
def rmax (x : Fin 128 → EReal) : EReal := (Finset.univ : Finset (Fin 128)).fold max negInf x
/-- exp (x_k - max). -/
def ex (x : Fin 128 → EReal) (k : Fin 128) : EReal := Ideal.exp (x k - rmax x)
/-- Σ_k exp (x_k - max). -/
def sumex (x : Fin 128 → EReal) : EReal := ∑ k : Fin 128, ex x k
/-- The softmax. -/
def soft (x : Fin 128 → EReal) (k : Fin 128) : EReal := Ideal.div (ex x k) (sumex x)
/-- -log (1 - softmax + ε). -/
def neglog (x : Fin 128 → EReal) (k : Fin 128) : EReal := -Ideal.log (f1 - soft x k + feps)
/-- The log-softmax. -/
def logp (x : Fin 128 → EReal) (k : Fin 128) : EReal := (x k - rmax x) - Ideal.log (sumex x)

/-- 1 on a labeled row (label ≤ 127, signed), 0 on an unlabeled one; and the complement. -/
def fP (l : BitVec 32) : EReal := if l.sle 127#32 then 1 else 0
def fU (l : BitVec 32) : EReal := if l.sle 127#32 then 0 else 1

/-- The label clipped into [0, 127] (signed), as a class. -/
def clab (l : BitVec 32) : Fin 128 :=
  ⟨(min 127 (max 0 l.toInt)).toNat, by omega⟩

variable (X : Fin 262144 → Fin 128 → EReal) (L : Fin 262144 → BitVec 32) (P : Fin 128 → EReal)

def SU (k : Fin 128) : EReal := ∑ n : Fin 262144, neglog (X n) k * fU (L n)
def SP (k : Fin 128) : EReal := ∑ n : Fin 262144, neglog (X n) k * fP (L n)
def NP : EReal := ∑ n : Fin 262144, fP (L n)
def NU : EReal := ∑ n : Fin 262144, fU (L n)
def PU2 : EReal := ∑ n : Fin 262144, neglog (X n) (clab (L n)) * P (clab (L n)) * fP (L n)
def CE : EReal := ∑ n : Fin 262144, -logp (X n) (clab (L n)) * fP (L n)

/-- The first and third results: the cross-entropy numerator over max(1, NP). -/
def crossloss (np ce : EReal) : EReal := Ideal.div ce (max f1 np)

/-- The second result, from the statistics, the mask of listed classes and the prior of the first listed class. -/
def puloss (su sp : Fin 128 → EReal) (np nu pu2 : EReal) (mask : Fin 128 → BitVec 1) (p0 : EReal) : EReal :=
  (Ideal.div (Ideal.div (f0 + ∑ k : Fin 128, (if mask k = 1#1 then su k else f0)) (max f1 nu)) f32c
    + Ideal.div (Ideal.div ((f0 + ∑ k : Fin 128, (if mask k = 1#1 then f0 else sp k)) * p0) (max f1 np)) f96c
    - Ideal.div pu2 (max f1 np)) * f1

end Cert.Spec

end
-- ==== Proof.KI.PayRows.lean ====
/- The kernel body's per-row quantities at the ideal instance, read at an index of the (32768, 128) row tile:
   each is the specification's row function of that row of the tile. -/
import proofs.«430741_j180388627001_2_alg».proof.Proof.Gen.KernelIdeal.Skeleton
import proofs.«430741_j180388627001_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen
open Idealize.ShloMosaic Idealize.ShloMosaic.TcCoe Idealize.ShloMosaic.ValueIdx
open Cert.Spec

/-- Row `r` of a row tile of logits; the label of row `r` of a tile of labels; the prior of class `k`. -/
def brow (x0 : Vec Ideal S32768x128 .f32) (r : Fin 32768) : Fin 128 → EReal := fun k => x0 (ix2 r k)
def blab (x1 : Vec Ideal S32768x1 .i32) (r : Fin 32768) : BitVec 32 := x1 (ix2 r (0 : Fin 1))
def bpri (x2 : Vec Ideal S1x128 .f32) (k : Fin 128) : EReal := x2 (ix2 (0 : Fin 1) k)

/-! ## Layout readings: a vector as a column, a column spread over the lanes, a lane put back into a row -/

/-- A vector of `n` entries cast to a column `[n, 1]`, read at `(r, u)`, is entry `r`. -/
private theorem shapeCast_col_apply {α : Type} {n : Nat} (x : (⟨1, ![n]⟩ : Shape).Idx → α)
    (h : (⟨1, ![n]⟩ : Shape).ShapeCasts ⟨2, ![n, 1]⟩) (r : Fin n) (u : Fin 1) :
    shapeCast ⟨2, ![n, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(p, c)`, the column's entry `p`. -/
private theorem broadcastTo_col_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with lane `k` put back is `(r, k)`. -/
private theorem lift_row (h : S32768x128.Reduces [1] S32768) (r : Fin 32768) (k : Fin 128) :
    h.lift (ix1 r) k = ix2 r k := by
  funext c; apply Fin.ext
  fin_cases c <;> rfl

/-- The logarithm and the exponential of an array are taken entry by entry. -/
private theorem log_apply {s : Shape} {φ : FTy} (v : FVec Ideal s φ) (i : s.Idx) : log v i = Ideal.log (v i) := rfl
private theorem exp_apply {s : Shape} {φ : FTy} (v : FVec Ideal s φ) (i : s.Idx) : exp v i = Ideal.exp (v i) := rfl

/-- The row maximum (a lane reduction with `max` from -∞, kept as a column). -/
theorem pay7_apply (x0 : Vec Ideal S32768x128 .f32) (r : Fin 32768) :
    k0_pay7 (F := Ideal) x0 (ix2 r (0 : Fin 1)) = rmax (brow x0 r) := by
  unfold k0_pay7
  refine (shapeCast_col_apply _ shapeCasts_S32768_S32768x1 r 0).trans ?_
  refine (Ideal.multiReduction_maximumf_single x0 _ reduces_S32768x128_S32768 (.inl rfl) rfl (ix1 r)).trans ?_
  have hf : (x0 ∘ reduces_S32768x128_S32768.lift (ix1 r)) = brow x0 r :=
    funext fun k => congrArg x0 (lift_row reduces_S32768x128_S32768 r k)
  unfold rmax
  exact congrArg (fun f => Finset.fold max (Ideal.ofBits .f32 0xFF800000#32) f (Finset.univ : Finset (Fin 128))) hf

/-- exp (x - max). -/
theorem pay8_apply (x0 : Vec Ideal S32768x128 .f32) (r : Fin 32768) (k : Fin 128) :
    k0_pay8 (F := Ideal) x0 (ix2 r k) = ex (brow x0 r) k := by
  unfold k0_pay8
  have e7 : broadcastTo S32768x128 (k0_pay7 (F := Ideal) x0) broadcasts_S32768x1_S32768x128 (ix2 r k) = rmax (brow x0 r) :=
    (broadcastTo_col_apply _ _ r k).trans (pay7_apply x0 r)
  show Ideal.exp (x0 (ix2 r k) - broadcastTo S32768x128 (k0_pay7 (F := Ideal) x0) broadcasts_S32768x1_S32768x128 (ix2 r k)) = _
  rw [e7]; rfl

/-- The row's sum of exponentials (a lane sum, kept as a column). -/
theorem pay9_apply (x0 : Vec Ideal S32768x128 .f32) (r : Fin 32768) :
    k0_pay9 (F := Ideal) x0 (ix2 r (0 : Fin 1)) = sumex (brow x0 r) := by
  unfold k0_pay9
  refine (shapeCast_col_apply _ shapeCasts_S32768_S32768x1 r 0).trans ?_
  refine (Ideal.multiReduction_add_single (k0_pay8 (F := Ideal) x0) _ reduces_S32768x128_S32768 (.inl rfl) rfl (ix1 r)).trans ?_
  unfold sumex
  show ∑ k : Fin 128, k0_pay8 (F := Ideal) x0 (reduces_S32768x128_S32768.lift (ix1 r) k) = ∑ k : Fin 128, ex (brow x0 r) k
  exact Finset.sum_congr rfl fun k _ =>
    (congrArg (k0_pay8 (F := Ideal) x0) (lift_row reduces_S32768x128_S32768 r k)).trans (pay8_apply x0 r k)

/-- The log-softmax. -/
theorem pay10_apply (x0 : Vec Ideal S32768x128 .f32) (r : Fin 32768) (k : Fin 128) :
    k0_pay10 (F := Ideal) x0 (ix2 r k) = logp (brow x0 r) k := by
  unfold k0_pay10
  rw [subf_apply, subf_apply, broadcastTo_col_apply, broadcastTo_col_apply, log_apply, pay7_apply, pay9_apply]
  rfl

/-- The clamped negative log: the kernel's `0 - log (1 - softmax + ε)` is the specification's `-log (…)`. -/
theorem pay11_apply (x0 : Vec Ideal S32768x128 .f32) (r : Fin 32768) (k : Fin 128) :
    k0_pay11 (F := Ideal) x0 (ix2 r k) = neglog (brow x0 r) k := by
  unfold k0_pay11
  rw [subf_apply, log_apply, addf_apply, subf_apply, divf_apply, broadcastTo_col_apply, pay8_apply, pay9_apply]
  simp only [broadcast_apply, Ideal.ofBits_def, Ideal.ofBits_zero_f32, zero_sub]
  rfl

/-! ## The integer side: a compare's bit as a number, the label clipped -/

/-- The tile of labels read as words is the tile itself. -/
private theorem pay5_eq (x1 : Vec Ideal S32768x1 .i32) : k0_pay5 (F := Ideal) x1 = x1 := shapeCast_self x1 _

/-- A truth value's bit, widened to a word and read as a signed integer, is 1 or 0. -/
private theorem sitofp_bit (b : Bool) :
    (FloatOps.sitofp (F := Ideal) .f32 ((BitVec.ofBool b).setWidth 32) : EReal) = if b then 1 else 0 := by
  cases b
  · have h : ((BitVec.ofBool false).setWidth 32 : BitVec 32).toInt = 0 := by decide
    show (((((BitVec.ofBool false).setWidth 32 : BitVec 32).toInt : ℝ)) : EReal) = 0
    rw [h]; simp
  · have h : ((BitVec.ofBool true).setWidth 32 : BitVec 32).toInt = 1 := by decide
    show (((((BitVec.ofBool true).setWidth 32 : BitVec 32).toInt : ℝ)) : EReal) = 1
    rw [h]; simp

/-- The word 0x3F800000 denotes 1. -/
private theorem f1_eq_one : Ideal.ofBits .f32 0x3F800000#32 = 1 := by
  simp [Ideal.ofBits, Ideal.ieee]
  rw [← EReal.coe_mul]; norm_num

/-- The signed maximum with 0 and the signed minimum with 127, as integers. -/
private theorem maxsi0_toInt (l : BitVec 32) : (IntOp.maxsi 0#32 l).toInt = max 0 l.toInt := by
  unfold IntOp.maxsi
  have h00 : (0#32 : BitVec 32).toInt = 0 := by decide
  split
  · next h =>
    have h' : l.toInt < 0 := by simpa [BitVec.slt] using h
    rw [h00]; omega
  · next h =>
    have h' : ¬ l.toInt < 0 := by simpa [BitVec.slt] using h
    omega

private theorem minsi127_toInt (m : BitVec 32) : (IntOp.minsi 127#32 m).toInt = min 127 m.toInt := by
  unfold IntOp.minsi
  have h127 : (127#32 : BitVec 32).toInt = 127 := by decide
  split
  · next h =>
    have h' : (127 : Int) < m.toInt := by simpa [BitVec.slt] using h
    rw [h127]; omega
  · next h =>
    have h' : ¬ (127 : Int) < m.toInt := by simpa [BitVec.slt] using h
    omega

/-- The clipped label as a word has the clipped class as its number. -/
private theorem clip_toNat (l : BitVec 32) :
    (IntOp.minsi 127#32 (IntOp.maxsi 0#32 l)).toNat = (clab l).val := by
  have h1 := minsi127_toInt (IntOp.maxsi 0#32 l)
  rw [maxsi0_toInt] at h1
  have hc := BitVec.toInt_eq_toNat_cond (IntOp.minsi 127#32 (IntOp.maxsi 0#32 l))
  have hlt := (IntOp.minsi 127#32 (IntOp.maxsi 0#32 l)).isLt
  show _ = (min 127 (max 0 l.toInt)).toNat
  rw [← h1]
  split at hc <;> omega

/-- Lane `k`'s number is a word `c` exactly when `k` is `c`'s number. -/
private theorem ofNat_beq (k : Fin 128) (c : BitVec 32) :
    (BitVec.ofNat 32 k.val == c) = decide (k.val = c.toNat) := by
  have hk := k.isLt
  rw [Bool.eq_iff_iff]
  simp only [beq_iff_eq, decide_eq_true_eq]
  constructor
  · intro h; rw [← h, BitVec.toNat_ofNat]; omega
  · intro h; apply BitVec.eq_of_toNat_eq; rw [BitVec.toNat_ofNat, ← h]; omega

/-- The label clipped into [0, 127] by the signed maximum with 0 and minimum with 127, as a word, is lane `k`'s
    number exactly when `k` is the clipped class. -/
private theorem clip_eq_iff (l : BitVec 32) (k : Fin 128) :
    (BitVec.ofNat 32 k.val == IntOp.minsi 127#32 (IntOp.maxsi 0#32 l)) = decide (k = clab l) := by
  rw [ofNat_beq, clip_toNat]
  exact decide_eq_decide.2 Fin.ext_iff.symm

/-- The labeled-row indicator: the signed compare's bit widened and converted is 1 or 0. -/
theorem pay12_apply (x1 : Vec Ideal S32768x1 .i32) (r : Fin 32768) :
    k0_pay12 (F := Ideal) x1 (ix2 r (0 : Fin 1)) = fP (blab x1 r) := by
  unfold k0_pay12
  rw [pay5_eq]
  exact sitofp_bit ((x1 (ix2 r (0 : Fin 1))).sle 127#32)

/-- Its complement, computed as 1 - indicator. -/
theorem pay13_apply (x1 : Vec Ideal S32768x1 .i32) (r : Fin 32768) :
    k0_pay13 (F := Ideal) x1 (ix2 r (0 : Fin 1)) = fU (blab x1 r) := by
  unfold k0_pay13
  rw [subf_apply, pay12_apply]
  simp only [broadcast_apply, Ideal.ofBits_def, f1_eq_one]
  unfold fP fU
  split
  · show ((1 : ℝ) : EReal) - ((1 : ℝ) : EReal) = 0
    rw [← EReal.coe_sub]; simp
  · exact sub_zero _

/-- The one-hot row of the clipped label: lane k compared with the label clipped into [0, 127]. -/
theorem pay20_apply (x1 : Vec Ideal S32768x1 .i32) (r : Fin 32768) (k : Fin 128) :
    k0_pay20 (F := Ideal) (k0_pay5 (F := Ideal) x1) (ix2 r k) = if k = clab (blab x1 r) then 1 else 0 := by
  unfold k0_pay20
  rw [pay5_eq]
  have hi : iota .tc S32768x128 32 [1] iota_S32768x128_d1_w32 (ix2 r k) = BitVec.ofNat 32 k.val :=
    iota_single_apply .tc S32768x128 32 1 iota_S32768x128_d1_w32 (ix2 r k)
  have hb : broadcastTo S32768x128 (minsi (broadcast S32768x1 127#32) (maxsi (broadcast S32768x1 0#32) x1))
        broadcasts_S32768x1_S32768x128 (ix2 r k)
      = IntOp.minsi 127#32 (IntOp.maxsi 0#32 (x1 (ix2 r (0 : Fin 1)))) :=
    broadcastTo_col_apply _ _ r k
  show FloatOps.sitofp (F := Ideal) .f32 ((BitVec.ofBool
      (iota .tc S32768x128 32 [1] iota_S32768x128_d1_w32 (ix2 r k)
        == broadcastTo S32768x128 (minsi (broadcast S32768x1 127#32) (maxsi (broadcast S32768x1 0#32) x1))
            broadcasts_S32768x1_S32768x128 (ix2 r k))).setWidth 32) = _
  rw [hi, hb, sitofp_bit, clip_eq_iff]
  simp only [decide_eq_true_eq]
  rfl

end Cert.KernelIdeal.Pay

end
-- ==== Proof.KI.PayMath34.lean ====
/- The first two accumulators' stores at the ideal instance, read at a lane: the old value plus the row tile's
   contribution, the sum over the tile's 32768 rows of the clamped negative log weighted by the row's indicator. -/
import proofs.«430741_j180388627001_2_alg».proof.Proof.KI.PayRows

noncomputable section

namespace Cert.KernelIdeal.Pay

open Cert.KernelIdeal Cert.KernelIdeal.Gen
open Idealize.ShloMosaic Idealize.ShloMosaic.TcCoe Idealize.ShloMosaic.ValueIdx
open Cert.Spec

/-- A row tile's contributions to the two per-class statistics. -/
def B3 (x0 : Vec Ideal S32768x128 .f32) (x1 : Vec Ideal S32768x1 .i32) (k : Fin 128) : EReal :=
  ∑ r : Fin 32768, neglog (brow x0 r) k * fU (blab x1 r)
def B4 (x0 : Vec Ideal S32768x128 .f32) (x1 : Vec Ideal S32768x1 .i32) (k : Fin 128) : EReal :=
  ∑ r : Fin 32768, neglog (brow x0 r) k * fP (blab x1 r)

/-- The two new accumulator values, as the body's stores compute them from the tile and the old value. -/
abbrev upd3 {F : FTy → Type} [FloatOps F] (x0 : Vec F S32768x128 .f32) (x1 : Vec F S32768x1 .i32) (xo : Vec F S1x1x128 .f32) : FVec F S1x1x128 .f32 :=
  k0_pay16 (k0_pay14 x0 x1) xo
abbrev upd4 {F : FTy → Type} [FloatOps F] (x0 : Vec F S32768x128 .f32) (x1 : Vec F S32768x1 .i32) (xo : Vec F S1x1x128 .f32) : FVec F S1x1x128 .f32 :=
  k0_pay17 (k0_pay15 x0 x1) xo

/-- The column sum of a row tile, kept as a one-row block: at lane k the sum over the 32768 rows of the tile's entries at (r, k). -/
private theorem colsum_apply (A : FVec Ideal S32768x128 .f32) (k : Fin 128) :
    shapeCast S1x128 (multiReduction (F := Ideal) .add [0] S128 A 0x00000000#32 reduces_S32768x128_S128 (.inl rfl) rfl)
        shapeCasts_S128_S1x128 (ix2 (0 : Fin 1) k)
      = ∑ r : Fin 32768, A (ix2 r k) := by
  refine (shapeCast_a_1a_apply _ _ 0 k).trans ?_
  refine (Ideal.multiReduction_add_single A _ _ _ _ (ix1 k)).trans ?_
  refine Finset.sum_congr rfl fun r _ => congrArg A ?_
  funext a
  match a with
  | ⟨0, _⟩ => rfl
  | ⟨1, _⟩ => rfl

/-- A column broadcast across the 128 lanes reads, at (r, k), the column's entry of row r. -/
private theorem colbcast_apply (c : FVec Ideal S32768x1 .f32) (r : Fin 32768) (k : Fin 128) :
    broadcastTo S32768x128 c broadcasts_S32768x1_S32768x128 (ix2 r k) = c (ix2 r (0 : Fin 1)) := by
  refine broadcastTo_apply c _ (ix2 r k) (ix2 r (0 : Fin 1)) fun ax => ?_
  match ax with
  | ⟨0, _⟩ => rfl
  | ⟨1, _⟩ => rfl

theorem upd3_apply (x0 : Vec Ideal S32768x128 .f32) (x1 : Vec Ideal S32768x1 .i32) (xo : Vec Ideal S1x1x128 .f32) (k : Fin 128) :
    upd3 (F := Ideal) x0 x1 xo (ix3 (0 : Fin 1) (0 : Fin 1) k) = xo (ix3 (0 : Fin 1) (0 : Fin 1) k) + B3 x0 x1 k := by
  show k0_pay16 (F := Ideal) (k0_pay14 (F := Ideal) x0 x1) xo (ix3 (0 : Fin 1) (0 : Fin 1) k) = _
  unfold k0_pay16
  refine (shapeCast_ab_1ab_apply _ _ 0 0 k).trans ?_
  refine (addf_apply _ _ _).trans ?_
  refine congrArg₂ (· + ·) (shapeCast_1ab_ab_apply xo _ 0 k) ?_
  unfold k0_pay14
  refine (colsum_apply _ k).trans ?_
  unfold B3
  refine Finset.sum_congr rfl fun r _ => ?_
  refine (mulf_apply _ _ _).trans ?_
  refine congrArg₂ (· * ·) (pay11_apply x0 r k) ?_
  exact (colbcast_apply _ r k).trans (pay13_apply x1 r)

theorem upd4_apply (x0 : Vec Ideal S32768x128 .f32) (x1 : Vec Ideal S32768x1 .i32) (xo : Vec Ideal S1x1x128 .f32) (k : Fin 128) :
    upd4 (F := Ideal) x0 x1 xo (ix3 (0 : Fin 1) (0 : Fin 1) k) = xo (ix3 (0 : Fin 1) (0 : Fin 1) k) + B4 x0 x1 k := by
  show k0_pay17 (F := Ideal) (k0_pay15 (F := Ideal) x0 x1) xo (ix3 (0 : Fin 1) (0 : Fin 1) k) = _
  unfold k0_pay17
  refine (shapeCast_ab_1ab_apply _ _ 0 0 k).trans ?_
  refine (addf_apply _ _ _).trans ?_
  refine congrArg₂ (· + ·) (shapeCast_1ab_ab_apply xo _ 0 k) ?_
  refine (colsum_apply _ k).trans ?_
  unfold B4
  refine Finset.sum_congr rfl fun r _ => ?_
  unfold k0_pay15
  refine (mulf_apply _ _ _).trans ?_
  refine congrArg₂ (· * ·) (pay11_apply x0 r k) ?_
  exact (colbcast_apply _ r k).trans (pay12_apply x1 r)

/-- The zero word broadcast over a one-row block and viewed as a (1, 1, 128) block is 0 at every index. -/
private theorem zeroblock_apply (j : S1x1x128.Idx) :
    shapeCast S1x1x128 (broadcast S1x128 (Scalar.ofBits (F := Ideal) .f32 0x00000000#32)) shapeCasts_S1x128_S1x1x128 j = 0 := by
  obtain ⟨a, b, c, rfl⟩ : ∃ a b c, j = ix3 a b c := ⟨_, _, _, eq_ix3 j⟩
  refine (shapeCast_ab_1ab_apply _ _ a b c).trans ?_
  exact Ideal.ofBits_zero_f32

/-- The reset stores the zero block. -/
theorem pay2_apply (j : S1x1x128.Idx) : k0_pay2 (F := Ideal) j = 0 := by
  unfold k0_pay2; exact zeroblock_apply j
theorem pay3_apply (j : S1x1x128.Idx) : k0_pay3 (F := Ideal) j = 0 := by
  unfold k0_pay3; exact zeroblock_apply j
theorem pay4_apply (j : S1x1x128.Idx) : k0_pay4 (F := Ideal) j = 0 := by
  unfold k0_pay4; exact zeroblock_apply j

end Cert.KernelIdeal.Pay

end
-- ==== Proof.KI.PayMath5.lean ====
/- The third accumulator's store at the ideal instance, read at a lane: the old value plus, in lanes 0 to 3, the row
   tile's two counts and two numerators (the one-hot row of the clipped label picks the label's class out of a row),
   and zero in the other lanes. -/
import proofs.«430741_j180388627001_2_alg».proof.Proof.KI.PayRows

noncomputable section

namespace Cert.KernelIdeal.Pay

open Cert.KernelIdeal Cert.KernelIdeal.Gen
open Idealize.ShloMosaic Idealize.ShloMosaic.TcCoe Idealize.ShloMosaic.ValueIdx
open Cert.Spec

/-- A row tile's contributions to the four scalar statistics. -/
def BNP (x1 : Vec Ideal S32768x1 .i32) : EReal := ∑ r : Fin 32768, fP (blab x1 r)
def BNU (x1 : Vec Ideal S32768x1 .i32) : EReal := ∑ r : Fin 32768, fU (blab x1 r)
def BPU2 (x0 : Vec Ideal S32768x128 .f32) (x1 : Vec Ideal S32768x1 .i32) (x2 : Vec Ideal S1x128 .f32) : EReal :=
  ∑ r : Fin 32768, neglog (brow x0 r) (clab (blab x1 r)) * bpri x2 (clab (blab x1 r)) * fP (blab x1 r)
def BCE (x0 : Vec Ideal S32768x128 .f32) (x1 : Vec Ideal S32768x1 .i32) : EReal :=
  ∑ r : Fin 32768, -logp (brow x0 r) (clab (blab x1 r)) * fP (blab x1 r)
/-- Lanes 0 to 3 carry the two counts and the two numerators; the other lanes carry zero. -/
def B5 (x0 : Vec Ideal S32768x128 .f32) (x1 : Vec Ideal S32768x1 .i32) (x2 : Vec Ideal S1x128 .f32) (k : Fin 128) : EReal :=
  if k.val = 0 then BNP x1 else if k.val = 1 then BNU x1 else if k.val = 2 then BPU2 x0 x1 x2 else if k.val = 3 then BCE x0 x1 else 0

/-- The third new accumulator value, as the body's last store computes it from the tile and the old value. -/
abbrev upd5 {F : FTy → Type} [FloatOps F] (x0 : Vec F S32768x128 .f32) (x1 : Vec F S32768x1 .i32) (x2 : Vec F S1x128 .f32) (xo : Vec F S1x1x128 .f32) : FVec F S1x1x128 .f32 :=
  k0_pay1 (k0_pay10 x0) (k0_pay12 x1) (k0_pay18 (k0_pay12 x1)) (k0_pay19 (k0_pay13 x1)) (k0_pay20 (F := F) (k0_pay5 x1))
    (k0_pay21 (k0_pay5 x1) (k0_pay6 x2) (k0_pay11 x0)) xo

/-- The rows of a column, as indices of the same column viewed as a (1, 32768, 1) block. -/
private def colEquiv : Fin 32768 ≃ S1x32768x1.Idx where
  toFun r := ix3 (0 : Fin 1) r (0 : Fin 1)
  invFun i := i 1
  left_inv r := rfl
  right_inv i := by
    funext a
    match a with
    | ⟨0, _⟩ => exact Subsingleton.elim (α := Fin 1) _ _
    | ⟨1, _⟩ => rfl
    | ⟨2, _⟩ => exact Subsingleton.elim (α := Fin 1) _ _

/-- The sum of a whole column, taken as the kernel takes it: the column viewed as a (1, 32768, 1) block, summed over its two
    last axes into one element, viewed as (1, 1, 1) and extracted. -/
private theorem colsum_apply (v : FVec Ideal S32768x1 .f32) :
    extractAt ![0, 0, 0] (shapeCast S1x1x1 (multiReduction (F := Ideal) .add [1, 2] S1 (shapeCast S1x32768x1 v shapeCasts_S32768x1_S1x32768x1) 0x00000000#32 reduces_S1x32768x1_S1 (.inl rfl) rfl) shapeCasts_S1_S1x1x1) inpos_S1x1x1_p0_0_0
      = ∑ r : Fin 32768, v (ix2 r (0 : Fin 1)) := by
  unfold extractAt shapeCast
  refine (Ideal.multiReduction_add_total _ _ reduces_S1x32768x1_S1 (by decide) (.inl rfl) rfl _).trans ?_
  refine (Equiv.sum_comp colEquiv _).symm.trans ?_
  refine Finset.sum_congr rfl fun r _ => ?_
  exact shapeCast_ab_1ab_apply v shapeCasts_S32768x1_S1x32768x1 (0 : Fin 1) r (0 : Fin 1)

/-- A row's lane sum, taken as the kernel takes it (a reduction along the lanes, kept as a column): the sum of the row. -/
private theorem rowsum_apply (u : FVec Ideal S32768x128 .f32) (r : Fin 32768) :
    shapeCast S32768x1 (multiReduction (F := Ideal) .add [1] S32768 u 0x00000000#32 reduces_S32768x128_S32768 (.inl rfl) rfl) shapeCasts_S32768_S32768x1 (ix2 r (0 : Fin 1))
      = ∑ k : Fin 128, u (ix2 r k) := by
  refine (shapeCast_apply _ shapeCasts_S32768_S32768x1 (ix2 r (0 : Fin 1)) (ix1 r) (by
    rw [Shape.rowMajor_val_one, Shape.rowMajor_val_two]
    show r.val = r.val * 1 + 0
    omega)).trans ?_
  refine (Ideal.multiReduction_add_single u _ reduces_S32768x128_S32768 (.inl rfl) rfl (ix1 r)).trans ?_
  refine Finset.sum_congr rfl fun k _ => congrArg u ?_
  funext a
  match a with
  | ⟨0, _⟩ => exact Fin.ext rfl
  | ⟨1, _⟩ => exact Fin.ext rfl

/-- Against the one-hot row of the clipped label, a row's lane sum of products picks the row's entry at the label's class. -/
private theorem onehot_pick (x1 : Vec Ideal S32768x1 .i32) (u : FVec Ideal S32768x128 .f32) (r : Fin 32768) :
    ∑ k : Fin 128, u (ix2 r k) * k0_pay20 (F := Ideal) (k0_pay5 (F := Ideal) x1) (ix2 r k) = u (ix2 r (clab (blab x1 r))) := by
  rw [Finset.sum_eq_single (clab (blab x1 r))]
  · rw [pay20_apply, if_pos rfl, mul_one]
  · intro b _ hb
    rw [pay20_apply, if_neg hb, mul_zero]
  · intro h
    exact absurd (Finset.mem_univ _) h

/-- The weighted entry of a row at its label's class: the row's clamped negative log at that class times the class's prior,
    each picked by a lane sum against the one-hot row. -/
private theorem pay21_apply (x0 : Vec Ideal S32768x128 .f32) (x1 : Vec Ideal S32768x1 .i32) (x2 : Vec Ideal S1x128 .f32) (r : Fin 32768) :
    k0_pay21 (F := Ideal) (k0_pay5 (F := Ideal) x1) (k0_pay6 (F := Ideal) x2) (k0_pay11 (F := Ideal) x0) (ix2 r (0 : Fin 1))
      = neglog (brow x0 r) (clab (blab x1 r)) * bpri x2 (clab (blab x1 r)) := by
  unfold k0_pay21
  refine congrArg₂ (· * ·) ?_ ?_
  · refine (rowsum_apply _ r).trans ?_
    refine (onehot_pick x1 (k0_pay11 (F := Ideal) x0) r).trans ?_
    exact pay11_apply x0 r _
  · refine (rowsum_apply _ r).trans ?_
    refine (onehot_pick x1 (broadcastTo S32768x128 (k0_pay6 (F := Ideal) x2) broadcasts_S1x128_S32768x128) r).trans ?_
    refine (broadcastTo_1b_ab_apply _ broadcasts_S1x128_S32768x128 r _).trans ?_
    unfold k0_pay6
    rw [shapeCast_self]
    rfl

/-- A lane number below 128, as a 32-bit word, equals a small literal exactly when the numbers are equal. -/
private theorem cmpi_lane (w : BitVec 32) (k : Fin 128) (hw : w = BitVec.ofNat 32 k.val) (n : Nat) (hn : n < 128) :
    IntOp.cmpi .eq w (BitVec.ofNat 32 n) = if k.val = n then 1#1 else 0#1 := by
  subst hw
  unfold IntOp.cmpi
  by_cases h : k.val = n
  · rw [if_pos h, h]; simp
  · rw [if_neg h]
    have hne : BitVec.ofNat 32 k.val ≠ BitVec.ofNat 32 n := fun e => h (by
      have e' := congrArg BitVec.toNat e
      simp only [BitVec.toNat_ofNat] at e'
      have := k.isLt
      omega)
    rw [beq_eq_false_iff_ne.mpr hne]
    rfl

/-- The four nested lane selects: lane 0, 1, 2, 3 take the four scalars in turn, every other lane the last value. -/
private theorem lane_select (w : BitVec 32) (k : Fin 128) (hw : w = BitVec.ofNat 32 k.val) (a b c d z : EReal) :
    Scalar.select (IntOp.cmpi .eq w 0#32) a (Scalar.select (IntOp.cmpi .eq w 1#32) b
        (Scalar.select (IntOp.cmpi .eq w 2#32) c (Scalar.select (IntOp.cmpi .eq w 3#32) d z)))
      = if k.val = 0 then a else if k.val = 1 then b else if k.val = 2 then c else if k.val = 3 then d else z := by
  have e0 := cmpi_lane w k hw 0 (by omega)
  have e1 := cmpi_lane w k hw 1 (by omega)
  have e2 := cmpi_lane w k hw 2 (by omega)
  have e3 := cmpi_lane w k hw 3 (by omega)
  rw [e0, e1, e2, e3]
  by_cases h0 : k.val = 0
  · rw [if_pos h0, if_pos h0, select_one]
  rw [if_neg h0, if_neg h0, select_zero]
  by_cases h1 : k.val = 1
  · rw [if_pos h1, if_pos h1, select_one]
  rw [if_neg h1, if_neg h1, select_zero]
  by_cases h2 : k.val = 2
  · rw [if_pos h2, if_pos h2, select_one]
  rw [if_neg h2, if_neg h2, select_zero]
  by_cases h3 : k.val = 3
  · rw [if_pos h3, if_pos h3, select_one]
  rw [if_neg h3, if_neg h3, select_zero]

/-- The four nested lane selects of the kernel over the lane numbers of a (1, 128) row, read at lane k. -/
private theorem lanes_apply (a b c d z : Ideal .f32) (k : Fin 128) :
    select (cmpi .eq (iota .tc S1x128 32 [1] iota_S1x128_d1_w32) (broadcast S1x128 0#32)) (broadcast S1x128 a)
      (select (cmpi .eq (iota .tc S1x128 32 [1] iota_S1x128_d1_w32) (broadcast S1x128 1#32)) (broadcast S1x128 b)
        (select (cmpi .eq (iota .tc S1x128 32 [1] iota_S1x128_d1_w32) (broadcast S1x128 2#32)) (broadcast S1x128 c)
          (select (cmpi .eq (iota .tc S1x128 32 [1] iota_S1x128_d1_w32) (broadcast S1x128 3#32)) (broadcast S1x128 d)
            (broadcast S1x128 z)))) (ix2 (0 : Fin 1) k)
      = if k.val = 0 then a else if k.val = 1 then b else if k.val = 2 then c else if k.val = 3 then d else z :=
  lane_select _ k (iota_single_apply .tc S1x128 32 1 iota_S1x128_d1_w32 (ix2 (0 : Fin 1) k)) a b c d z

/-- The column sum of the products of two columns. -/
private theorem colsum_mul_apply (u v : FVec Ideal S32768x1 .f32) :
    extractAt ![0, 0, 0] (shapeCast S1x1x1 (multiReduction (F := Ideal) .add [1, 2] S1 (shapeCast S1x32768x1 (mulf u v) shapeCasts_S32768x1_S1x32768x1) 0x00000000#32 reduces_S1x32768x1_S1 (.inl rfl) rfl) shapeCasts_S1_S1x1x1) inpos_S1x1x1_p0_0_0
      = ∑ r : Fin 32768, u (ix2 r (0 : Fin 1)) * v (ix2 r (0 : Fin 1)) :=
  (colsum_apply (mulf u v)).trans (Finset.sum_congr rfl fun r _ => mulf_apply u v _)

/-- Zero minus a row's lane sum of products, as a column entry. -/
private theorem negrowsum_apply (p q : FVec Ideal S32768x128 .f32) (r : Fin 32768) :
    subf (broadcast S32768x1 (Scalar.ofBits (F := Ideal) .f32 0x00000000#32))
        (shapeCast S32768x1 (multiReduction (F := Ideal) .add [1] S32768 (mulf p q) 0x00000000#32 reduces_S32768x128_S32768 (.inl rfl) rfl) shapeCasts_S32768_S32768x1) (ix2 r (0 : Fin 1))
      = 0 - ∑ c : Fin 128, p (ix2 r c) * q (ix2 r c) := by
  refine (subf_apply _ _ _).trans ?_
  refine congrArg₂ (· - ·) Ideal.ofBits_zero_f32 ?_
  exact (rowsum_apply (mulf p q) r).trans (Finset.sum_congr rfl fun c _ => mulf_apply p q _)

/-- The last store read at a lane, over any values of what it reads: the old value plus the lane's scalar; lanes 2 and 3 carry
    the column sums of the weighted entries and of the negated picked log-softmax, each times the labeled-row indicator. -/
private theorem pay1_apply (v21 : FVec Ideal S32768x128 .f32) (v32 : FVec Ideal S32768x1 .f32) (v58 v62 : Ideal .f32)
    (v71 : FVec Ideal S32768x128 .f32) (v79 : FVec Ideal S32768x1 .f32) (xo : Vec Ideal S1x1x128 .f32) (k : Fin 128) :
    k0_pay1 (F := Ideal) v21 v32 v58 v62 v71 v79 xo (ix3 (0 : Fin 1) (0 : Fin 1) k)
      = xo (ix3 (0 : Fin 1) (0 : Fin 1) k)
        + (if k.val = 0 then v58 else if k.val = 1 then v62
          else if k.val = 2 then ∑ r : Fin 32768, v79 (ix2 r (0 : Fin 1)) * v32 (ix2 r (0 : Fin 1))
          else if k.val = 3 then ∑ r : Fin 32768, (0 - ∑ c : Fin 128, v21 (ix2 r c) * v71 (ix2 r c)) * v32 (ix2 r (0 : Fin 1))
          else 0) := by
  unfold k0_pay1
  refine (shapeCast_ab_1ab_apply _ shapeCasts_S1x128_S1x1x128 (0 : Fin 1) (0 : Fin 1) k).trans ?_
  refine congrArg₂ (· + ·) (shapeCast_1ab_ab_apply xo shapeCasts_S1x1x128_S1x128 (0 : Fin 1) k) ?_
  refine (lanes_apply _ _ _ _ _ k).trans ?_
  refine if_congr Iff.rfl rfl (if_congr Iff.rfl rfl (if_congr Iff.rfl ?_ (if_congr Iff.rfl ?_ ?_)))
  · exact colsum_mul_apply v79 v32
  · refine (colsum_mul_apply _ v32).trans (Finset.sum_congr rfl fun r _ => ?_)
    exact congrArg (· * v32 (ix2 r (0 : Fin 1))) (negrowsum_apply v21 v71 r)
  · exact Ideal.ofBits_zero_f32

theorem upd5_apply (x0 : Vec Ideal S32768x128 .f32) (x1 : Vec Ideal S32768x1 .i32) (x2 : Vec Ideal S1x128 .f32) (xo : Vec Ideal S1x1x128 .f32) (k : Fin 128) :
    upd5 (F := Ideal) x0 x1 x2 xo (ix3 (0 : Fin 1) (0 : Fin 1) k) = xo (ix3 (0 : Fin 1) (0 : Fin 1) k) + B5 x0 x1 x2 k := by
  refine (pay1_apply _ _ _ _ _ _ xo k).trans ?_
  refine congrArg (xo (ix3 (0 : Fin 1) (0 : Fin 1) k) + ·) ?_
  unfold B5
  refine if_congr Iff.rfl ?_ (if_congr Iff.rfl ?_ (if_congr Iff.rfl ?_ (if_congr Iff.rfl ?_ rfl)))
  · unfold k0_pay18 BNP
    exact (colsum_apply _).trans (Finset.sum_congr rfl fun r _ => pay12_apply x1 r)
  · unfold k0_pay19 BNU
    exact (colsum_apply _).trans (Finset.sum_congr rfl fun r _ => pay13_apply x1 r)
  · unfold BPU2
    refine Finset.sum_congr rfl fun r _ => ?_
    rw [pay21_apply, pay12_apply]
  · unfold BCE
    refine Finset.sum_congr rfl fun r _ => ?_
    rw [onehot_pick x1 (k0_pay10 (F := Ideal) x0) r, pay10_apply, pay12_apply, zero_sub]

end Cert.KernelIdeal.Pay

end
-- ==== Proof.SumSplit.lean ====
/- Sums over the 262144 rows regrouped by the kernel's schedule: eight row tiles of 32768 rows, four per core; and the
   ordered chain a core's accumulator runs through, from zero, is the sum of its four tiles' contributions. -/
import Mathlib.Data.EReal.Basic
import Mathlib.Data.EReal.Operations
import Mathlib.Algebra.BigOperators.Fin

noncomputable section

namespace Cert.SumSplit

/-- Row `r` of tile `t`, as a row of the whole array. -/
def rowOf (t : Fin 8) (r : Fin 32768) : Fin 262144 := ⟨32768 * t.val + r.val, by omega⟩

/-- Rows correspond one to one to pairs (tile, row within the tile): n = 32768 * t + r with t = n / 32768, r = n % 32768. -/
private def rowEquiv : Fin 8 × Fin 32768 ≃ Fin 262144 where
  toFun p := rowOf p.1 p.2
  invFun n := (⟨n.val / 32768, by omega⟩, ⟨n.val % 32768, by omega⟩)
  left_inv p := by
    rcases p with ⟨⟨t, ht⟩, ⟨r, hr⟩⟩
    simp only [rowOf, Prod.mk.injEq, Fin.mk.injEq]
    constructor <;> omega
  right_inv n := by
    rcases n with ⟨n, hn⟩
    simp only [rowOf, Fin.mk.injEq]
    omega

/-- A sum over all rows is the sum over the eight tiles of the sums over each tile's rows. -/
theorem sum_rows {M : Type*} [AddCommMonoid M] (f : Fin 262144 → M) :
    ∑ n : Fin 262144, f n = ∑ t : Fin 8, ∑ r : Fin 32768, f (rowOf t r) := by
  rw [← Fintype.sum_prod_type (f := fun p : Fin 8 × Fin 32768 => f (rowOf p.1 p.2))]
  exact (Fintype.sum_equiv rowEquiv _ _ (fun _ => rfl)).symm

/-- Tile `i` of core `cc`. -/
def tileOf (cc : Fin 2) (i : Fin 4) : Fin 8 := ⟨4 * cc.val + i.val, by omega⟩

/-- A sum over the eight tiles, core by core in the order the accumulator runs: from zero, tile 0, 1, 2, 3. -/
theorem sum_tiles (g : Fin 8 → EReal) :
    ∑ t : Fin 8, g t = ∑ cc : Fin 2, ((((0 + g (tileOf cc 0)) + g (tileOf cc 1)) + g (tileOf cc 2)) + g (tileOf cc 3)) := by
  have h00 : tileOf 0 0 = 0 := rfl
  have h01 : tileOf 0 1 = 1 := rfl
  have h02 : tileOf 0 2 = 2 := rfl
  have h03 : tileOf 0 3 = 3 := rfl
  have h10 : tileOf 1 0 = 4 := rfl
  have h11 : tileOf 1 1 = 5 := rfl
  have h12 : tileOf 1 2 = 6 := rfl
  have h13 : tileOf 1 3 = 7 := rfl
  rw [Fin.sum_univ_eight, Fin.sum_univ_two, h00, h01, h02, h03, h10, h11, h12, h13]
  simp only [zero_add, add_assoc]

/-- Both regroupings at once: a sum over all rows, core by core, each core's four tile sums chained from zero. -/
theorem sum_rows_tiles (f : Fin 262144 → EReal) :
    ∑ n : Fin 262144, f n = ∑ cc : Fin 2, ((((0 + ∑ r : Fin 32768, f (rowOf (tileOf cc 0) r))
      + ∑ r : Fin 32768, f (rowOf (tileOf cc 1) r)) + ∑ r : Fin 32768, f (rowOf (tileOf cc 2) r))
      + ∑ r : Fin 32768, f (rowOf (tileOf cc 3) r)) :=
  (sum_rows f).trans (sum_tiles (fun t => ∑ r : Fin 32768, f (rowOf t r)))

/-- The chain a core's accumulator runs through, from zero, is the plain sum of its four terms. -/
theorem chain4 (a b c d : EReal) : (((0 + a) + b) + c) + d = a + b + c + d := by
  simp only [zero_add]

/-- Anything times zero is zero in the extended reals (infinities included). -/
theorem mul_zero' (x : EReal) : x * 0 = 0 := mul_zero x
/-- Zero times anything is zero in the extended reals (infinities included). -/
theorem zero_mul' (x : EReal) : 0 * x = 0 := zero_mul x
/-- Zero minus x is -x. -/
theorem zero_sub' (x : EReal) : 0 - x = -x := zero_sub x
/-- One is a left unit of the product. -/
theorem one_mul' (x : EReal) : 1 * x = x := one_mul x
/-- One is a right unit of the product. -/
theorem mul_one' (x : EReal) : x * 1 = x := mul_one x

end Cert.SumSplit

end
-- ==== Proof.KI.Acc.lean ====
/- What the three result arrays of the pallas_call hold after the run, at the ideal instance: the accumulator of core cc
   runs through its four row tiles in order from the zero block, so entry (cc, 0, k) of each array is
   (((0 + T 0) + T 1) + T 2) + T 3 of the four tiles' contributions at lane k, each tile's contribution a sum over its
   32768 rows of the specification's row functions of the argument arrays. -/
import proofs.«430741_j180388627001_2_alg».proof.Proof.KI.Pieces
import proofs.«430741_j180388627001_2_alg».proof.Proof.KI.Blocks
import proofs.«430741_j180388627001_2_alg».proof.Proof.KI.PayMath34
import proofs.«430741_j180388627001_2_alg».proof.Proof.KI.PayMath5
import proofs.«430741_j180388627001_2_alg».proof.Proof.SumSplit

set_option maxRecDepth 16384

noncomputable section

namespace Cert.KernelIdeal.Acc

open Cert.KernelIdeal Cert.KernelIdeal.Gen Cert.KernelIdeal.Fr Cert.KernelIdeal.Pay
open Idealize.ShloMosaic Idealize.ShloMosaic.TcCoe Idealize.ShloMosaic.ValueIdx Idealize.SL.Sem
open Idealize.ShloMosaic.Pipeline (Dat)
open Cert.Spec Cert.SumSplit

variable (m : (ℓ : Loc nD τ sig) → Buf (Elt Ideal) ℓ)

/-- The argument arrays on core `c` as plain functions of a row and a class. -/
def Xk (c : Dev nD) (n : Fin 262144) : Fin 128 → EReal := fun k => m ((c : Thread nD τ).loc main_arg0) (ix2 n k)
def Lk (c : Dev nD) (n : Fin 262144) : BitVec 32 := m ((c : Thread nD τ).loc main_arg1) (ix1 n)
def Pk (c : Dev nD) (k : Fin 128) : EReal := m ((c : Thread nD τ).loc main_arg2) (ix1 k)

/-- Row tile `t`'s contributions to the three accumulators, at lane `k`. -/
def T3 (c : Dev nD) (t : Fin 8) (k : Fin 128) : EReal := ∑ r : Fin 32768, neglog (Xk m c (rowOf t r)) k * fU (Lk m c (rowOf t r))
def T4 (c : Dev nD) (t : Fin 8) (k : Fin 128) : EReal := ∑ r : Fin 32768, neglog (Xk m c (rowOf t r)) k * fP (Lk m c (rowOf t r))
def T5 (c : Dev nD) (t : Fin 8) (k : Fin 128) : EReal :=
  if k.val = 0 then ∑ r : Fin 32768, fP (Lk m c (rowOf t r))
  else if k.val = 1 then ∑ r : Fin 32768, fU (Lk m c (rowOf t r))
  else if k.val = 2 then ∑ r : Fin 32768, neglog (Xk m c (rowOf t r)) (clab (Lk m c (rowOf t r))) * Pk m c (clab (Lk m c (rowOf t r))) * fP (Lk m c (rowOf t r))
  else if k.val = 3 then ∑ r : Fin 32768, -logp (Xk m c (rowOf t r)) (clab (Lk m c (rowOf t r))) * fP (Lk m c (rowOf t r))
  else 0

/-- A point of the grid as a row tile. -/
private theorem lt8 {n : ℕ} (h : n < cfg0.N) : n < 8 := lt_of_lt_of_eq h (show cfg0.N = 8 from N_0)

/-- A tile's blocks read as rows of the argument arrays. -/
private theorem brow_iblk (c : Dev nD) (n : ℕ) (h : n < cfg0.N) (r : Fin 32768) :
    brow (iblk m c 0 ⟨n, h⟩) r = Xk m c (rowOf ⟨n, lt8 h⟩ r) := by
  funext k
  exact iblk0_apply m c ⟨n, h⟩ r k (rowOf ⟨n, lt8 h⟩ r).isLt
private theorem blab_iblk (c : Dev nD) (n : ℕ) (h : n < cfg0.N) (r : Fin 32768) :
    blab (iblk m c 1 ⟨n, h⟩) r = Lk m c (rowOf ⟨n, lt8 h⟩ r) :=
  iblk1_apply m c ⟨n, h⟩ r (rowOf ⟨n, lt8 h⟩ r).isLt
private theorem bpri_iblk (c : Dev nD) (n : ℕ) (h : n < cfg0.N) (k : Fin 128) :
    bpri (iblk m c 2 ⟨n, h⟩) k = Pk m c k :=
  iblk2_apply m c ⟨n, h⟩ k

/-- A tile's contributions, from its blocks, are the contributions of its rows of the argument arrays. -/
private theorem B3_iblk (c : Dev nD) (n : ℕ) (h : n < cfg0.N) (k : Fin 128) :
    B3 (iblk m c 0 ⟨n, h⟩) (iblk m c 1 ⟨n, h⟩) k = T3 m c ⟨n, lt8 h⟩ k := by
  unfold B3 T3
  refine Finset.sum_congr rfl fun r _ => ?_
  rw [brow_iblk, blab_iblk]
private theorem B4_iblk (c : Dev nD) (n : ℕ) (h : n < cfg0.N) (k : Fin 128) :
    B4 (iblk m c 0 ⟨n, h⟩) (iblk m c 1 ⟨n, h⟩) k = T4 m c ⟨n, lt8 h⟩ k := by
  unfold B4 T4
  refine Finset.sum_congr rfl fun r _ => ?_
  rw [brow_iblk, blab_iblk]
private theorem B5_iblk (c : Dev nD) (n : ℕ) (h : n < cfg0.N) (k : Fin 128) :
    B5 (iblk m c 0 ⟨n, h⟩) (iblk m c 1 ⟨n, h⟩) (iblk m c 2 ⟨n, h⟩) k = T5 m c ⟨n, lt8 h⟩ k := by
  unfold B5 T5 BNP BNU BPU2 BCE
  simp only [brow_iblk, blab_iblk, bpri_iblk]

/-- The accumulators after a point depend on the point only. -/
private theorem outsAt0_congr (c : Dev nD) {n n' : ℕ} (e : n = n') (h : n < cfg0.N) (h' : n' < cfg0.N) :
    outsAt0 m c n h = outsAt0 m c n' h' := by
  subst e; rfl

/-- Every index of a (1, 1, 128) block is (0, 0, k). -/
private theorem blockIdx (y : S1x1x128.Idx) : ∃ k : Fin 128, y = ix3 (0 : Fin 1) (0 : Fin 1) k :=
  ⟨y 2, funext fun a => match a with
    | ⟨0, _⟩ => Fin.ext (by have h : (y 0).val < 1 := (y 0).isLt; show (y 0).val = 0; omega)
    | ⟨1, _⟩ => Fin.ext (by have h : (y 1).val < 1 := (y 1).isLt; show (y 1).val = 0; omega)
    | ⟨2, _⟩ => rfl⟩

/-- The first of a core's four points leaves, at lane k, zero plus the tile's contribution. -/
private theorem acc3_A (c : Dev nD) (n : ℕ) (h : n < cfg0.N) (h0 : n % 4 = 0) (k : Fin 128) :
    (outsAt0 m c n h).1 (ix3 (0 : Fin 1) (0 : Fin 1) k) = 0 + T3 m c ⟨n, lt8 h⟩ k := by
  refine (congrFun (congrArg (fun p => p.1) (outsAt0_A m c ⟨n, h⟩ h0)) _).trans ?_
  dsimp only
  rw [out_A_3]
  refine (upd3_apply _ _ _ k).trans ?_
  rw [pay2_apply, B3_iblk]

/-- A later point adds the tile's contribution to what the point before left. -/
private theorem acc3_B (c : Dev nD) (n : ℕ) (h : n + 1 < cfg0.N) (h0 : ¬(n + 1) % 4 = 0) (k : Fin 128) :
    (outsAt0 m c (n + 1) h).1 (ix3 (0 : Fin 1) (0 : Fin 1) k)
      = (outsAt0 m c n (Nat.lt_of_succ_lt h)).1 (ix3 (0 : Fin 1) (0 : Fin 1) k) + T3 m c ⟨n + 1, lt8 h⟩ k := by
  refine (congrFun (congrArg (fun p => p.1) (outsAt0_B m c ⟨n + 1, h⟩ h0)) _).trans ?_
  dsimp only
  rw [out_B_3]
  refine (upd3_apply _ _ _ k).trans ?_
  rw [B3_iblk]
  rfl

/-- The ordered chain of a core's four tile contributions at lane k, from zero. -/
private def chain3 (c : Dev nD) (cc : Fin 2) (k : Fin 128) : EReal :=
  (((0 + T3 m c (tileOf cc 0) k) + T3 m c (tileOf cc 1) k) + T3 m c (tileOf cc 2) k) + T3 m c (tileOf cc 3) k

/-- After a core's fourth point its accumulator holds the chain. -/
private theorem acc3_last (c : Dev nD) (cc : Fin 2) (h : 4 * cc.val + 3 < cfg0.N) (k : Fin 128) :
    (outsAt0 m c (4 * cc.val + 3) h).1 (ix3 (0 : Fin 1) (0 : Fin 1) k) = chain3 m c cc k := by
  refine (acc3_B m c (4 * cc.val + 2) h (by omega) k).trans ?_
  rw [acc3_B m c (4 * cc.val + 1) _ (by omega) k, acc3_B m c (4 * cc.val) _ (by omega) k, acc3_A m c (4 * cc.val) _ (by omega) k]
  rfl

/-- The accumulator window's block index at point t is (t / 4, 0, 0): the core coordinate. -/
private theorem index3 : ∀ t : Fin grid0.N, win0_3.index t 0 = t.val / 4 ∧ win0_3.index t 1 = 0 ∧ win0_3.index t 2 = 0 := by
  decide +kernel

/-- The whole (2, 1, 128) array: entry (cc, 0, k) is core cc's chain at lane k. -/
private def G3 (c : Dev nD) : S2x1x128.Idx → EReal := fun i => chain3 m c (i 0) (i 2)

/-- Block t of a (2, 1, 128) array read at (0, 0, k) is the array at (t / 4, 0, k). -/
private theorem read_blk3 (G : S2x1x128.Idx → EReal) (t : Fin cfg0.N) (cc : Fin 2) (hcc : t.val / 4 = cc.val) (k : Fin 128) :
    ((cfg0.win 3).blk t).view.read (Elt Ideal) G (ix3 (0 : Fin 1) (0 : Fin 1) k) = G (ix3 cc (0 : Fin 1) k) := by
  have hi := index3 t
  rw [View.read_apply]
  show G _ = G _
  congr 1
  funext a
  apply Fin.ext
  match a with
  | ⟨0, _⟩ => show win0_3.index t 0 * 1 + 1 * 0 = cc.val; rw [hi.1, hcc]; omega
  | ⟨1, _⟩ => show win0_3.index t 1 * 1 + 1 * 0 = 0; rw [hi.2.1]
  | ⟨2, _⟩ => show win0_3.index t 2 * 128 + 1 * k.val = k.val; rw [hi.2.2]; omega

/-- What a write-back writes is its block of the whole array of chains. -/
private theorem flushed3 (c : Dev nD) (t : Fin cfg0.N) (hf : (cfg0.win 3).flush t = true) :
    (dats m 0 c).flushed 3 t = ((cfg0.win 3).blk t).view.read (Elt Ideal) (G3 m c) := by
  have h3 : t.val % 4 = 3 := (flush0_3 t).mp hf
  have h8 : t.val < 8 := lt8 t.isLt
  have hN : cfg0.N = 8 := N_0
  funext y
  obtain ⟨k, rfl⟩ := blockIdx y
  rw [read_blk3 (G3 m c) t ⟨t.val / 4, by omega⟩ rfl k]
  show (outsAt0 m c t.val t.isLt).1 (ix3 (0 : Fin 1) (0 : Fin 1) k) = chain3 m c ⟨t.val / 4, _⟩ k
  rw [outsAt0_congr m c (show t.val = 4 * (t.val / 4) + 3 by omega) t.isLt (by omega)]
  exact acc3_last m c ⟨t.val / 4, by omega⟩ _ k

/-- Every entry of the array is in the block written back after its core's fourth point. -/
private theorem cover3 (i : S2x1x128.Idx) :
    ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 128 := (i 2).isLt
  have hN : cfg0.N = 8 := N_0
  have ht : 4 * (i 0).val + 3 < cfg0.N := by omega
  refine ⟨⟨4 * (i 0).val + 3, ht⟩, (flush0_3 _).mpr (by show (4 * (i 0).val + 3) % 4 = 3; omega), ?_⟩
  have hi : win0_3.index ⟨4 * (i 0).val + 3, ht⟩ 0 = (4 * (i 0).val + 3) / 4 ∧ win0_3.index ⟨4 * (i 0).val + 3, ht⟩ 1 = 0
      ∧ win0_3.index ⟨4 * (i 0).val + 3, ht⟩ 2 = 0 := index3 ⟨4 * (i 0).val + 3, ht⟩
  show i ∈ ((View.whole main_v2_0).slice (win0_3.rect ⟨4 * (i 0).val + 3, ht⟩)).set
  rw [View.set_slice_whole, Rect.mem_set_unit]
  intro a
  match a with
  | ⟨0, _⟩ =>
    show win0_3.index ⟨4 * (i 0).val + 3, ht⟩ 0 * 1 ≤ (i 0).val ∧ (i 0).val < win0_3.index ⟨4 * (i 0).val + 3, ht⟩ 0 * 1 + 1
    rw [hi.1]; omega
  | ⟨1, _⟩ =>
    show win0_3.index ⟨4 * (i 0).val + 3, ht⟩ 1 * 1 ≤ (i 1).val ∧ (i 1).val < win0_3.index ⟨4 * (i 0).val + 3, ht⟩ 1 * 1 + 1
    rw [hi.2.1]; omega
  | ⟨2, _⟩ =>
    show win0_3.index ⟨4 * (i 0).val + 3, ht⟩ 2 * 128 ≤ (i 2).val ∧ (i 2).val < win0_3.index ⟨4 * (i 0).val + 3, ht⟩ 2 * 128 + 128
    rw [hi.2.2]; omega

/-- So the array ends holding the chains. -/
private theorem arr3 (c : Dev nD) : (dats m 0 c).arrAt 3 cfg0.N = G3 m c :=
  (dats m 0 c).arrAt_eq_of_cover 3 (G3 m c) (flushed3 m c) cover3

/-- The first of a core's four points leaves, at lane k, zero plus the tile's contribution. -/
private theorem acc4_A (c : Dev nD) (n : ℕ) (h : n < cfg0.N) (h0 : n % 4 = 0) (k : Fin 128) :
    (outsAt0 m c n h).2.1 (ix3 (0 : Fin 1) (0 : Fin 1) k) = 0 + T4 m c ⟨n, lt8 h⟩ k := by
  refine (congrFun (congrArg (fun p => p.2.1) (outsAt0_A m c ⟨n, h⟩ h0)) _).trans ?_
  dsimp only
  rw [out_A_4]
  refine (upd4_apply _ _ _ k).trans ?_
  rw [pay3_apply, B4_iblk]

/-- A later point adds the tile's contribution to what the point before left. -/
private theorem acc4_B (c : Dev nD) (n : ℕ) (h : n + 1 < cfg0.N) (h0 : ¬(n + 1) % 4 = 0) (k : Fin 128) :
    (outsAt0 m c (n + 1) h).2.1 (ix3 (0 : Fin 1) (0 : Fin 1) k)
      = (outsAt0 m c n (Nat.lt_of_succ_lt h)).2.1 (ix3 (0 : Fin 1) (0 : Fin 1) k) + T4 m c ⟨n + 1, lt8 h⟩ k := by
  refine (congrFun (congrArg (fun p => p.2.1) (outsAt0_B m c ⟨n + 1, h⟩ h0)) _).trans ?_
  dsimp only
  rw [out_B_4]
  refine (upd4_apply _ _ _ k).trans ?_
  rw [B4_iblk]
  rfl

/-- The ordered chain of a core's four tile contributions at lane k, from zero. -/
private def chain4 (c : Dev nD) (cc : Fin 2) (k : Fin 128) : EReal :=
  (((0 + T4 m c (tileOf cc 0) k) + T4 m c (tileOf cc 1) k) + T4 m c (tileOf cc 2) k) + T4 m c (tileOf cc 3) k

/-- After a core's fourth point its accumulator holds the chain. -/
private theorem acc4_last (c : Dev nD) (cc : Fin 2) (h : 4 * cc.val + 3 < cfg0.N) (k : Fin 128) :
    (outsAt0 m c (4 * cc.val + 3) h).2.1 (ix3 (0 : Fin 1) (0 : Fin 1) k) = chain4 m c cc k := by
  refine (acc4_B m c (4 * cc.val + 2) h (by omega) k).trans ?_
  rw [acc4_B m c (4 * cc.val + 1) _ (by omega) k, acc4_B m c (4 * cc.val) _ (by omega) k, acc4_A m c (4 * cc.val) _ (by omega) k]
  rfl

/-- The accumulator window's block index at point t is (t / 4, 0, 0): the core coordinate. -/
private theorem index4 : ∀ t : Fin grid0.N, win0_4.index t 0 = t.val / 4 ∧ win0_4.index t 1 = 0 ∧ win0_4.index t 2 = 0 := by
  decide +kernel

/-- The whole (2, 1, 128) array: entry (cc, 0, k) is core cc's chain at lane k. -/
private def G4 (c : Dev nD) : S2x1x128.Idx → EReal := fun i => chain4 m c (i 0) (i 2)

/-- Block t of a (2, 1, 128) array read at (0, 0, k) is the array at (t / 4, 0, k). -/
private theorem read_blk4 (G : S2x1x128.Idx → EReal) (t : Fin cfg0.N) (cc : Fin 2) (hcc : t.val / 4 = cc.val) (k : Fin 128) :
    ((cfg0.win 4).blk t).view.read (Elt Ideal) G (ix3 (0 : Fin 1) (0 : Fin 1) k) = G (ix3 cc (0 : Fin 1) k) := by
  have hi := index4 t
  rw [View.read_apply]
  show G _ = G _
  congr 1
  funext a
  apply Fin.ext
  match a with
  | ⟨0, _⟩ => show win0_4.index t 0 * 1 + 1 * 0 = cc.val; rw [hi.1, hcc]; omega
  | ⟨1, _⟩ => show win0_4.index t 1 * 1 + 1 * 0 = 0; rw [hi.2.1]
  | ⟨2, _⟩ => show win0_4.index t 2 * 128 + 1 * k.val = k.val; rw [hi.2.2]; omega

/-- What a write-back writes is its block of the whole array of chains. -/
private theorem flushed4 (c : Dev nD) (t : Fin cfg0.N) (hf : (cfg0.win 4).flush t = true) :
    (dats m 0 c).flushed 4 t = ((cfg0.win 4).blk t).view.read (Elt Ideal) (G4 m c) := by
  have h3 : t.val % 4 = 3 := (flush0_4 t).mp hf
  have h8 : t.val < 8 := lt8 t.isLt
  have hN : cfg0.N = 8 := N_0
  funext y
  obtain ⟨k, rfl⟩ := blockIdx y
  rw [read_blk4 (G4 m c) t ⟨t.val / 4, by omega⟩ rfl k]
  show (outsAt0 m c t.val t.isLt).2.1 (ix3 (0 : Fin 1) (0 : Fin 1) k) = chain4 m c ⟨t.val / 4, _⟩ k
  rw [outsAt0_congr m c (show t.val = 4 * (t.val / 4) + 3 by omega) t.isLt (by omega)]
  exact acc4_last m c ⟨t.val / 4, by omega⟩ _ k

/-- Every entry of the array is in the block written back after its core's fourth point. -/
private theorem cover4 (i : S2x1x128.Idx) :
    ∃ t : Fin cfg0.N, (cfg0.win 4).flush t = true ∧ i ∈ ((cfg0.win 4).blk t).view.set := by
  have h0 : (i 0).val < 2 := (i 0).isLt
  have h1 : (i 1).val < 1 := (i 1).isLt
  have h2 : (i 2).val < 128 := (i 2).isLt
  have hN : cfg0.N = 8 := N_0
  have ht : 4 * (i 0).val + 3 < cfg0.N := by omega
  refine ⟨⟨4 * (i 0).val + 3, ht⟩, (flush0_4 _).mpr (by show (4 * (i 0).val + 3) % 4 = 3; omega), ?_⟩
  have hi : win0_4.index ⟨4 * (i 0).val + 3, ht⟩ 0 = (4 * (i 0).val + 3) / 4 ∧ win0_4.index ⟨4 * (i 0).val + 3, ht⟩ 1 = 0
      ∧ win0_4.index ⟨4 * (i 0).val + 3, ht⟩ 2 = 0 := index4 ⟨4 * (i 0).val + 3, ht⟩
  show i ∈ ((View.whole main_v2_1).slice (win0_4.rect ⟨4 * (i 0).val + 3, ht⟩)).set
  rw [View.set_slice_whole, Rect.mem_set_unit]
  intro a
  match a with
  | ⟨0, _⟩ =>
    show win0_4.index ⟨4 * (i 0).val + 3, ht⟩ 0 * 1 ≤ (i 0).val ∧ (i 0).val < win0_4.index ⟨4 * (i 0).val + 3, ht⟩ 0 * 1 + 1
    rw [hi.1]; omega
  | ⟨1, _⟩ =>
    show win0_4.index ⟨4 * (i 0).val + 3, ht⟩ 1 * 1 ≤ (i 1).val ∧ (i 1).val < win0_4.index ⟨4 * (i 0).val + 3, ht⟩ 1 * 1 + 1
    rw [hi.2.1]; omega
  | ⟨2, _⟩ =>
    show win0_4.index ⟨4 * (i 0).val + 3, ht⟩ 2 * 128 ≤ (i 2).val ∧ (i 2).val < win0_4.index ⟨4 * (i 0).val + 3, ht⟩ 2 * 128 + 128
    rw [hi.2.2]; omega

/-- So the array ends holding the chains. -/
private theorem arr4 (c : Dev nD) : (dats m 0 c).arrAt 4 cfg0.N = G4 m c :=
  (dats m 0 c).arrAt_eq_of_cover 4 (G4 m c) (flushed4 m c) cover4

/-- The first of a core's four points leaves, at lane k, zero plus the tile's contribution. -/
private theorem acc5_A (c : Dev nD) (n : ℕ) (h : n < cfg0.N) (h0 : n % 4 = 0) (k : Fin 128) :
    (outsAt0 m c n h).2.2 (ix3 (0 : Fin 1) (0 : Fin 1) k) = 0 + T5 m c ⟨n, lt8 h⟩ k := by
  refine (congrFun (congrArg (fun p => p.2.2) (outsAt0_A m c ⟨n, h⟩ h0)) _).trans ?_
  dsimp only
  rw [out_A_5]
  refine (upd5_apply _ _ _ _ k).trans ?_
  rw [pay4_apply, B5_iblk]

/-- A later point adds the tile's contribution to what the point before left. -/
private theorem acc5_B (c : Dev nD) (n : ℕ) (h : n + 1 < cfg0.N) (h0 : ¬(n + 1) % 4 = 0) (k : Fin 128) :
    (outsAt0 m c (n + 1) h).2.2 (ix3 (0 : Fin 1) (0 : Fin 1) k)
      = (outsAt0 m c n (Nat.lt_of_succ_lt h)).2.2 (ix3 (0 : Fin 1) (0 : Fin 1) k) + T5 m c ⟨n + 1, lt8 h⟩ k := by
  refine (congrFun (congrArg (fun p => p.2.2) (outsAt0_B m c ⟨n + 1, h⟩ h0)) _).trans ?_
  dsimp only
  rw [out_B_5]
  refine (upd5_apply _ _ _ _ k).trans ?_
  rw [B5_iblk]
  rfl

/-- The ordered chain of a core's four tile contributions at lane k, from zero. -/
private def chain5 (c : Dev nD) (cc : Fin 2) (k : Fin 128) : EReal :=
  (((0 + T5 m c (tileOf cc 0) k) + T5 m c (tileOf cc 1) k) + T5 m c (tileOf cc 2) k) + T5 m c (tileOf cc 3) k

/-- After a core's fourth point its accumulator holds the chain. -/
private theorem acc5_last (c : Dev nD) (cc : Fin 2) (h : 4 * cc.val + 3 < cfg0.N) (k : Fin 128) :
    (outsAt0 m c (4 * cc.val + 3) h).2.2 (ix3 (0 : Fin 1) (0 : Fin 1) k) = chain5 m c cc k := by
  refine (acc5_B m c (4 * cc.val + 2) h (by omega) k).trans ?_
  rw [acc5_B m c (4 * cc.val + 1) _ (by omega) k, acc5_B m c (4 * cc.val) _ (by omega) k, acc5_A m c (4 * cc.val) _ (by omega) k]
  rfl

/-- The accumulator window's block index at point t is (t / 4, 0, 0): the core coordinate. -/
private theorem index5 : ∀ t : Fin grid0.N, win0_5.index t 0 = t.val / 4 ∧ win0_5.index t 1 = 0 ∧ win0_5.index t 2 = 0 := by
  decide +kernel

/-- The whole (2, 1, 128) array: entry (cc, 0, k) is core cc's chain at lane k. -/
private def G5 (c : Dev nD) : S2x1x128.Idx → EReal := fun i => chain5 m c (i 0) (i 2)

/-- Block t of a (2, 1, 128) array read at (0, 0, k) is the array at (t / 4, 0, k). -/
private theorem read_blk5 (G : S2x1x128.Idx → EReal) (t : Fin cfg0.N) (cc : Fin 2) (hcc : t.val / 4 = cc.val) (k : Fin 128) :
    ((cfg0.win 5).blk t).view.read (Elt Ideal) G (ix3 (0 : Fin 1) (0 : Fin 1) k) = G (ix3 cc (0 : Fin 1) k) := by
  have hi := index5 t
  rw [View.read_apply]
  show G _ = G _
  congr 1
  funext a
  apply Fin.ext
  match a with
  | ⟨0, _⟩ => show win0_5.index t 0 * 1 + 1 * 0 = cc.val; rw [hi.1, hcc]; omega
  | ⟨1, _⟩ => show win0_5.index t 1 * 1 + 1 * 0 = 0; rw [hi.2.1]
  | ⟨2, _⟩ => show win0_5.index t 2 * 128 + 1 * k.val = k.val; rw [hi.2.2]; omega

/-- What a write-back writes is its block of the whole array of chains. -/
private theorem flushed5 (c : Dev nD) (t : Fin cfg0.N) (hf : (cfg0.win 5).flush t = true) :
    (dats m 0 c).flushed 5 t = ((cfg0.win 5).blk t).view.read (Elt Ideal) (G5 m c) := by
  have h3 : t.val % 4 = 3 := (flush0_5 t).mp hf
  have h8 : t.val < 8 := lt8 t.isLt
  have hN : cfg0.N = 8 := N_0
  funext y
  obtain ⟨k, rfl⟩ := blockIdx y
  rw [read_blk5 (G5 m c) t ⟨t.val / 4, by omega⟩ rfl k]
  show (outsAt0 m c t.val t.isLt).2.2 (ix3 (0 : Fin 1) (0 : Fin 1) k) = chain5 m c ⟨t.val / 4, _⟩ k
  rw [outsAt0_congr m c (show t.val = 4 * (t.val / 4) + 3 by omega) t.isLt (by omega)]
  exact acc5_last m c ⟨t.val / 4, by omega⟩ _ k

/-- Every entry of the array is in the block written back after its core's fourth point. -/
private theorem cover5 (i : S2x1x128.Idx) :
    ∃ t : Fin cfg0.N, (cfg0.win 5).flush t = true ∧ i ∈ ((cfg0.win 5).blk t).view.set := by
  have h0 : (i 0).val < 2 := (i 0).isLt
  have h1 : (i 1).val < 1 := (i 1).isLt
  have h2 : (i 2).val < 128 := (i 2).isLt
  have hN : cfg0.N = 8 := N_0
  have ht : 4 * (i 0).val + 3 < cfg0.N := by omega
  refine ⟨⟨4 * (i 0).val + 3, ht⟩, (flush0_5 _).mpr (by show (4 * (i 0).val + 3) % 4 = 3; omega), ?_⟩
  have hi : win0_5.index ⟨4 * (i 0).val + 3, ht⟩ 0 = (4 * (i 0).val + 3) / 4 ∧ win0_5.index ⟨4 * (i 0).val + 3, ht⟩ 1 = 0
      ∧ win0_5.index ⟨4 * (i 0).val + 3, ht⟩ 2 = 0 := index5 ⟨4 * (i 0).val + 3, ht⟩
  show i ∈ ((View.whole main_v2_2).slice (win0_5.rect ⟨4 * (i 0).val + 3, ht⟩)).set
  rw [View.set_slice_whole, Rect.mem_set_unit]
  intro a
  match a with
  | ⟨0, _⟩ =>
    show win0_5.index ⟨4 * (i 0).val + 3, ht⟩ 0 * 1 ≤ (i 0).val ∧ (i 0).val < win0_5.index ⟨4 * (i 0).val + 3, ht⟩ 0 * 1 + 1
    rw [hi.1]; omega
  | ⟨1, _⟩ =>
    show win0_5.index ⟨4 * (i 0).val + 3, ht⟩ 1 * 1 ≤ (i 1).val ∧ (i 1).val < win0_5.index ⟨4 * (i 0).val + 3, ht⟩ 1 * 1 + 1
    rw [hi.2.1]; omega
  | ⟨2, _⟩ =>
    show win0_5.index ⟨4 * (i 0).val + 3, ht⟩ 2 * 128 ≤ (i 2).val ∧ (i 2).val < win0_5.index ⟨4 * (i 0).val + 3, ht⟩ 2 * 128 + 128
    rw [hi.2.2]; omega

/-- So the array ends holding the chains. -/
private theorem arr5 (c : Dev nD) : (dats m 0 c).arrAt 5 cfg0.N = G5 m c :=
  (dats m 0 c).arrAt_eq_of_cover 5 (G5 m c) (flushed5 m c) cover5

theorem final3 (c : Dev nD) (cc : Fin 2) (k : Fin 128) :
    (dats m 0 c).arrAt 3 cfg0.N (ix3 cc (0 : Fin 1) k)
      = (((0 + T3 m c (tileOf cc 0) k) + T3 m c (tileOf cc 1) k) + T3 m c (tileOf cc 2) k) + T3 m c (tileOf cc 3) k := by
  rw [arr3]; rfl

theorem final4 (c : Dev nD) (cc : Fin 2) (k : Fin 128) :
    (dats m 0 c).arrAt 4 cfg0.N (ix3 cc (0 : Fin 1) k)
      = (((0 + T4 m c (tileOf cc 0) k) + T4 m c (tileOf cc 1) k) + T4 m c (tileOf cc 2) k) + T4 m c (tileOf cc 3) k := by
  rw [arr4]; rfl

theorem final5 (c : Dev nD) (cc : Fin 2) (k : Fin 128) :
    (dats m 0 c).arrAt 5 cfg0.N (ix3 cc (0 : Fin 1) k)
      = (((0 + T5 m c (tileOf cc 0) k) + T5 m c (tileOf cc 1) k) + T5 m c (tileOf cc 2) k) + T5 m c (tileOf cc 3) k := by
  rw [arr5]; rfl

end Cert.KernelIdeal.Acc

end
-- ==== Proof.KI.Tail.lean ====
/- The host lines after the pallas_call, at the ideal instance, read off the three result arrays: each array's two core
   rows are added (from the literal zero), lanes 0 to 3 of the third give the two counts and the two numerators, and the
   closing scalar operations are the specification's quotients; the mask of listed classes and the prior of the first
   listed class are computed from the index list and the priors alone. -/
import proofs.«430741_j180388627001_2_alg».proof.Proof.KI.Frame
import proofs.«430741_j180388627001_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Tail

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open Cert.Spec

variable (m : (ℓ : Loc nD τ sig) → Buf (Elt Ideal) ℓ)

/-- The mask of listed classes: a scatter of `true` at the listed indices (a negative index wrapped by 128) into a
    vector of `false`. -/
def maskK (x3 : (⟨S32, .i32⟩ : BufTy).Contents (Elt Ideal)) : Fin 128 → BitVec 1 := fun k =>
  (Host.scatter scatter_S128_S32x1_S32_n_0_0_1 (fun _ b => b) (broadcastInDim S128 ![] bcast_S_S128 (constantI S_ 1 0#1))
    (broadcastInDim S32x1 ![0] bcast_S32_S32x1_0 (select (cmpi .slt x3 (broadcastInDim S32 ![] bcast_S_S32 (constantI S_ 32 0#32)))
      (addi x3 (broadcastInDim S32 ![] bcast_S_S32 (constantI S_ 32 128#32))) x3))
    (broadcastInDim S32 ![] bcast_S_S32 (constantI S_ 1 1#1)) : (⟨S128, .i1⟩ : BufTy).Contents (Elt Ideal)) (ix1 k)

/-- The first listed index, wrapped by 128 when negative. -/
def firstIdx (x3 : (⟨S32, .i32⟩ : BufTy).Contents (Elt Ideal)) : (⟨S_, .i32⟩ : BufTy).Contents (Elt Ideal) :=
  select (cmpi .slt (shapeCast S_ (extractStridedSlice S1 ![0] x3 slices_S32_S1_0) shapeCasts_S1_S_) (constantI S_ 32 0#32))
    (addi (shapeCast S_ (extractStridedSlice S1 ![0] x3 slices_S32_S1_0) shapeCasts_S1_S_) (constantI S_ 32 128#32))
    (shapeCast S_ (extractStridedSlice S1 ![0] x3 slices_S32_S1_0) shapeCasts_S1_S_)

/-- The prior of the first listed class: a one-element dynamic slice of the priors at that index. -/
def p0K (x2 : (⟨S128, .f32⟩ : BufTy).Contents (Elt Ideal)) (x3 : (⟨S32, .i32⟩ : BufTy).Contents (Elt Ideal)) : EReal :=
  (shapeCast S_ (Host.dynamicSlice S1 x2 (fun k => ((![firstIdx x3] : Fin 1 → (⟨S_, .i32⟩ : BufTy).Contents (Elt Ideal)) k (Shape.Idx.first h_S_)).toInt) sliceFits_S128_S1) shapeCasts_S1_S_
    : (⟨S_, .f32⟩ : BufTy).Contents (Elt Ideal)) ix0

/-- Entry (cc, 0, k) of result array `w` after the run. -/
def A3 (c : Dev nD) (cc : Fin 2) (k : Fin 128) : EReal := (dats m 0 c).arrAt 3 cfg0.N (ix3 cc (0 : Fin 1) k)
def A4 (c : Dev nD) (cc : Fin 2) (k : Fin 128) : EReal := (dats m 0 c).arrAt 4 cfg0.N (ix3 cc (0 : Fin 1) k)
def A5 (c : Dev nD) (cc : Fin 2) (k : Fin 128) : EReal := (dats m 0 c).arrAt 5 cfg0.N (ix3 cc (0 : Fin 1) k)

/-- The sum over the two core rows: the (2,1,128) array read as (2,128) and added along the first axis from the
    literal zero is, at class k, zero plus the two entries (cc, 0, k). -/
private theorem rowSum (X : (⟨S2x1x128, .f32⟩ : BufTy).Contents (Elt Ideal)) (k : Fin 128) :
    (Host.reduceAdd (F := Ideal) (fun i => shapeCast S2x128 X shapeCasts_S2x1x128_S2x128 i) (constant S_ .f32 0x00000000#32)
      reducesTo_S2x128_S128_d0 h_S_ : (⟨S128, .f32⟩ : BufTy).Contents (Elt Ideal)) (ix1 k)
      = f0 + ∑ cc : Fin 2, X (ix3 cc (0 : Fin 1) k) := by
  have hR : S2x128.Reduces [0] S128 := by decide
  refine (Ideal.hostReduceAdd_single reducesTo_S2x128_S128_d0 hR _ _ (ix1 k)).trans ?_
  refine congrArg (f0 + ·) ?_
  show ∑ cc : Fin 2, _ = _
  refine Finset.sum_congr rfl fun cc _ => ?_
  refine shapeCast_apply X shapeCasts_S2x1x128_S2x128 _ (ix3 cc (0 : Fin 1) k) ?_
  show ((S2x1x128 : Shape).rowMajor (ix3 cc (0 : Fin 1) k)).val = (S2x128.rowMajor (hR.lift (ix1 k) cc)).val
  rw [Shape.rowMajor_val_three, Shape.rowMajor_val_two]
  show (cc.val * 1 + 0) * 128 + k.val = cc.val * 128 + k.val
  omega

/-- The scalar shape has one position. -/
private theorem rowMajor_scalar (i : S_.Idx) : (S_.rowMajor i).val = 0 := by
  have h := (S_.rowMajor i).isLt
  have h1 : S_.numel = 1 := by decide
  omega

/-- Lane j of a 128-vector: the one-element slice at offset j, reshaped to a scalar. -/
private theorem sliceLane {α : Type} (j : Nat) (hj : j < 128) (Y : S128.Idx → α) (h : S128.Slices ![j] S1) (i : S_.Idx) :
    shapeCast S_ (extractStridedSlice S1 ![j] Y h) shapeCasts_S1_S_ i = Y (ix1 ⟨j, hj⟩) := by
  refine (shapeCast_apply _ shapeCasts_S1_S_ i (ix1 (0 : Fin 1)) ?_).trans ?_
  · rw [rowMajor_scalar, Shape.rowMajor_val_one]; rfl
  · exact extractStridedSlice_apply ![j] Y h (ix1 (0 : Fin 1)) (ix1 ⟨j, hj⟩) (fun a => by
      match a with | ⟨0, _⟩ => rfl)

/-- The third result array as the host lines find it. -/
private theorem arr5 (c : Dev nD) :
    Pipeline.withArrays (cfgs 0).spec c (V0 m c) (fun w => (dats m 0 c).arrAt w (cfgs 0).N) (Proc.devRef .tc main_v2_2)
      = (dats m 0 c).arrAt 5 cfg0.N :=
  Pipeline.withArrays_arr spec0 launch0.win.arr_inj c _ _ 5
private theorem arr4 (c : Dev nD) :
    Pipeline.withArrays (cfgs 0).spec c (V0 m c) (fun w => (dats m 0 c).arrAt w (cfgs 0).N) (Proc.devRef .tc main_v2_1)
      = (dats m 0 c).arrAt 4 cfg0.N :=
  Pipeline.withArrays_arr spec0 launch0.win.arr_inj c _ _ 4
private theorem arr3 (c : Dev nD) :
    Pipeline.withArrays (cfgs 0).spec c (V0 m c) (fun w => (dats m 0 c).arrAt w (cfgs 0).N) (Proc.devRef .tc main_v2_0)
      = (dats m 0 c).arrAt 3 cfg0.N :=
  Pipeline.withArrays_arr spec0 launch0.win.arr_inj c _ _ 3

/-- A one-start dynamic slice's result: the function of the operand's contents and the one index operand's. -/
private theorem unaryIndexed1_result' {a r y : Ref sig .tc} (T : BufTy)
    (f : a.ty.Contents (Elt Ideal) → (Fin 1 → T.Contents (Elt Ideal)) → y.ty.Contents (Elt Ideal)) (hT ha hix hy)
    (F : Valuation τ sig (Elt Ideal)) :
    (StableHlo.unaryIndexed (τ := τ) a ![r] T y f hT ha hix hy).result F (no_index (Proc.devRef .tc y))
      = f (F (Proc.devRef .tc a)) (fun _ => cast (congrArg (fun U : BufTy => U.Contents (Elt Ideal)) (hT 0)) (F (Proc.devRef .tc r))) := by
  rw [StableHlo.unaryIndexed_result]; congr 1; funext k; fin_cases k; rfl

private theorem arrArg2 (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans (V_main_arg2 m c)
private theorem arrArg3 (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne _ c (V0 m c) _ main_arg3 (by exact (by decide : ∀ w, Pipeline.arrRef spec0 w ≠ main_arg3))).trans (V_main_arg3 m c)

/-- A class index is its one coordinate. -/
private def idxEquiv1 : S128.Idx ≃ Fin 128 where
  toFun i := i 0
  invFun k := ix1 k
  left_inv i := (eq_ix1 i).symm
  right_inv _ := rfl

/-- The sum over the 128 classes from the literal zero. -/
private theorem sumAll (W : (⟨S128, .f32⟩ : BufTy).Contents (Elt Ideal)) (i : S_.Idx) :
    (Host.reduceAdd (F := Ideal) W (constant S_ .f32 0x00000000#32) reducesTo_S128_S_d0 h_S_
      : (⟨S_, .f32⟩ : BufTy).Contents (Elt Ideal)) i = f0 + ∑ k : Fin 128, W (ix1 k) := by
  refine (Ideal.hostReduceAdd_total reducesTo_S128_S_d0 (fun b => b.elim0) _ _ i).trans ?_
  refine congrArg (f0 + ·) ?_
  exact (Equiv.sum_comp idxEquiv1.symm W).symm

/-- A select read at class k, from its three operands there. -/
private theorem sel_eq {M : (⟨S128, .i1⟩ : BufTy).Contents (Elt Ideal)} {U V : (⟨S128, .f32⟩ : BufTy).Contents (Elt Ideal)}
    {k : Fin 128} {b : BitVec 1} {u v : EReal} (hM : M (ix1 k) = b) (hU : U (ix1 k) = u) (hV : V (ix1 k) = v) :
    (select M U V : (⟨S128, .f32⟩ : BufTy).Contents (Elt Ideal)) (ix1 k) = if b = 1#1 then u else v := by
  rw [← hM, ← hU, ← hV]; rfl

/-- The scalar operations read at the one index, from their operands there. -/
private theorem divf_at {a b : FVec Ideal S_ .f32} {i : S_.Idx} {x y : EReal} (ha : a i = x) (hb : b i = y) :
    (Host.divf a b : FVec Ideal S_ .f32) i = Ideal.div x y := by rw [← ha, ← hb]; rfl
private theorem mulf_at {a b : FVec Ideal S_ .f32} {i : S_.Idx} {x y : EReal} (ha : a i = x) (hb : b i = y) :
    (mulf a b : FVec Ideal S_ .f32) i = x * y := by rw [← ha, ← hb]; rfl
private theorem addf_at {a b : FVec Ideal S_ .f32} {i : S_.Idx} {x y : EReal} (ha : a i = x) (hb : b i = y) :
    (addf a b : FVec Ideal S_ .f32) i = x + y := by rw [← ha, ← hb]; rfl
private theorem subf_at {a b : FVec Ideal S_ .f32} {i : S_.Idx} {x y : EReal} (ha : a i = x) (hb : b i = y) :
    (subf a b : FVec Ideal S_ .f32) i = x - y := by rw [← ha, ← hb]; rfl
private theorem maxf_at {a b : FVec Ideal S_ .f32} {i : S_.Idx} {x y : EReal} (ha : a i = x) (hb : b i = y) :
    (maximumf a b : FVec Ideal S_ .f32) i = max x y := by rw [← ha, ← hb]; rfl

/-- The one start index of the dynamic slice is the first listed index. -/
private theorem p0K_eq (x2 : (⟨S128, .f32⟩ : BufTy).Contents (Elt Ideal)) (x3 : (⟨S32, .i32⟩ : BufTy).Contents (Elt Ideal)) :
    p0K x2 x3 = (shapeCast S_ (Host.dynamicSlice S1 x2 (fun _ => (firstIdx x3 (Shape.Idx.first h_S_)).toInt) sliceFits_S128_S1) shapeCasts_S1_S_
      : (⟨S_, .f32⟩ : BufTy).Contents (Elt Ideal)) ix0 := by
  have h : (fun k : Fin 1 => ((![firstIdx x3] : Fin 1 → (⟨S_, .i32⟩ : BufTy).Contents (Elt Ideal)) k (Shape.Idx.first h_S_)).toInt)
      = fun _ => (firstIdx x3 (Shape.Idx.first h_S_)).toInt := by
    funext k; fin_cases k; rfl
  unfold p0K
  rw [h]

theorem tail_v47 (c : Dev nD) :
    Pipeline.afterTail₀ cfgs (dats m) 0 (V0 m) tailOps c main_v47
      = fun _ => crossloss (f0 + ∑ cc : Fin 2, A5 m c cc ⟨0, by omega⟩) (f0 + ∑ cc : Fin 2, A5 m c cc ⟨3, by omega⟩) := by
  unfold Pipeline.afterTail₀
  show StableHlo.after _ _ (Proc.devRef .tc main_v47) = _
  simp only [tailOps, hostOps1, hostOps1_1, hostOps1_2, hostOps1_3, hostOps1_4, List.flatten_cons, List.flatten_nil, List.append_nil, List.cons_append, List.nil_append, StableHlo.TRef.unary, StableHlo.TRef.ternary]
  after_results_simp
  rw [arr5 m c]
  funext i
  unfold crossloss A5
  refine congrArg₂ Ideal.div ?_ (congrArg₂ max rfl ?_)
  · exact (sliceLane 3 (by omega) _ slices_S128_S1_3 i).trans (rowSum _ _)
  · exact (sliceLane 0 (by omega) _ slices_S128_S1_0 i).trans (rowSum _ _)

set_option maxHeartbeats 8000000 in
theorem tail_v48 (c : Dev nD) :
    Pipeline.afterTail₀ cfgs (dats m) 0 (V0 m) tailOps c main_v48
      = fun _ => puloss (fun k => f0 + ∑ cc : Fin 2, A3 m c cc k) (fun k => f0 + ∑ cc : Fin 2, A4 m c cc k)
          (f0 + ∑ cc : Fin 2, A5 m c cc ⟨0, by omega⟩) (f0 + ∑ cc : Fin 2, A5 m c cc ⟨1, by omega⟩) (f0 + ∑ cc : Fin 2, A5 m c cc ⟨2, by omega⟩)
          (maskK (m ((c : Thread nD τ).loc main_arg3))) (p0K (m ((c : Thread nD τ).loc main_arg2)) (m ((c : Thread nD τ).loc main_arg3))) := by
  unfold Pipeline.afterTail₀
  show StableHlo.after _ _ (Proc.devRef .tc main_v48) = _
  simp only [tailOps, hostOps1, hostOps1_1, hostOps1_2, hostOps1_3, hostOps1_4, List.flatten_cons, List.flatten_nil, List.append_nil, List.cons_append, List.nil_append, StableHlo.TRef.unary, StableHlo.TRef.ternary]
  simp (disch := decide) only [StableHlo.after_cons, StableHlo.after_nil,
      StableHlo.nullary_result', StableHlo.unary_result', StableHlo.binary_result', StableHlo.ternary_result', StableHlo.reshape_result',
      unaryIndexed1_result',
      StableHlo.nullary_result_ne', StableHlo.unary_result_ne', StableHlo.binary_result_ne', StableHlo.ternary_result_ne', StableHlo.reshape_result_ne',
      StableHlo.unaryIndexed_result_ne']
  rw [arr3 m c, arr4 m c, arr5 m c, arrArg2 m c, arrArg3 m c]
  simp only [StableHlo.TRef.toBuf, StableHlo.TRef.ofBuf, cast_eq]
  funext i
  have hi := eq_ix0 i
  subst hi
  unfold puloss A3 A4 A5 maskK
  refine mulf_at (subf_at (addf_at ?_ ?_) ?_) rfl
  · refine divf_at (divf_at ?_ (maxf_at rfl ?_)) rfl
    · refine (sumAll _ _).trans (congrArg (f0 + ·) (Finset.sum_congr rfl fun k _ => ?_))
      refine sel_eq ?_ ?_ ?_
      · rfl
      · exact rowSum _ k
      · rfl
    · exact (sliceLane 1 (by omega) _ slices_S128_S1_1 _).trans (rowSum _ _)
  · refine divf_at (divf_at (mulf_at ?_ ?_) (maxf_at rfl ?_)) rfl
    · refine (sumAll _ _).trans (congrArg (f0 + ·) (Finset.sum_congr rfl fun k _ => ?_))
      refine sel_eq ?_ ?_ ?_
      · rfl
      · rfl
      · exact rowSum _ k
    · refine Eq.trans ?_ (p0K_eq _ _).symm
      rfl
    · exact (sliceLane 0 (by omega) _ slices_S128_S1_0 _).trans (rowSum _ _)
  · refine divf_at ?_ (maxf_at rfl ?_)
    · exact (sliceLane 2 (by omega) _ slices_S128_S1_2 _).trans (rowSum _ _)
    · exact (sliceLane 0 (by omega) _ slices_S128_S1_0 _).trans (rowSum _ _)

end Cert.KernelIdeal.Tail

end
-- ==== Proof.KI.KValue.lean ====
/- The idealized kernel's run, read: its two results are the specification's quotients of the six statistics of the
   argument arrays. Each result array of the pallas_call holds per core the ordered sum of four row tiles'
   contributions; the host lines add the two cores; regrouping the 262144 rows into eight tiles of 32768 turns these
   into the plain sums over all rows. -/
import proofs.«430741_j180388627001_2_alg».proof.Proof.KI.Acc
import proofs.«430741_j180388627001_2_alg».proof.Proof.KI.Tail

set_option maxRecDepth 16384

noncomputable section

namespace Cert.KernelIdeal.KValue

open Cert.KernelIdeal Cert.KernelIdeal.Gen Cert.KernelIdeal.Fr Cert.KernelIdeal.Acc Cert.KernelIdeal.Tail
open Idealize.ShloMosaic Idealize.ShloMosaic.TcCoe Idealize.ShloMosaic.ValueIdx Idealize.SL.Sem
open Idealize.ShloMosaic.Pipeline (Dat)
open Cert.Spec Cert.SumSplit

variable (m : (ℓ : Loc nD τ sig) → Buf (Elt Ideal) ℓ) (ρ : Dev nD → PrngReg)

theorem f0_add (x : EReal) : f0 + x = x := by
  show Ideal.ofBits .f32 0x00000000#32 + x = x
  rw [Ideal.ofBits_zero_f32, zero_add]

/-- Per class, the two cores' accumulators of the unlabeled rows add up to the sum over all rows. -/
theorem su_eq (c : Dev nD) (k : Fin 128) : f0 + ∑ cc : Fin 2, A3 m c cc k = SU (Xk m c) (Lk m c) k := by
  rw [f0_add]
  unfold SU
  rw [sum_rows_tiles]
  refine Finset.sum_congr rfl fun cc _ => ?_
  unfold A3
  rw [final3]
  rfl

theorem sp_eq (c : Dev nD) (k : Fin 128) : f0 + ∑ cc : Fin 2, A4 m c cc k = SP (Xk m c) (Lk m c) k := by
  rw [f0_add]
  unfold SP
  rw [sum_rows_tiles]
  refine Finset.sum_congr rfl fun cc _ => ?_
  unfold A4
  rw [final4]
  rfl

theorem np_eq (c : Dev nD) : f0 + ∑ cc : Fin 2, A5 m c cc ⟨0, by omega⟩ = NP (Lk m c) := by
  rw [f0_add]
  unfold NP
  rw [sum_rows_tiles]
  refine Finset.sum_congr rfl fun cc _ => ?_
  unfold A5
  rw [final5]
  rfl

theorem nu_eq (c : Dev nD) : f0 + ∑ cc : Fin 2, A5 m c cc ⟨1, by omega⟩ = NU (Lk m c) := by
  rw [f0_add]
  unfold NU
  rw [sum_rows_tiles]
  refine Finset.sum_congr rfl fun cc _ => ?_
  unfold A5
  rw [final5]
  rfl

theorem pu2_eq (c : Dev nD) : f0 + ∑ cc : Fin 2, A5 m c cc ⟨2, by omega⟩ = PU2 (Xk m c) (Lk m c) (Pk m c) := by
  rw [f0_add]
  unfold PU2
  rw [sum_rows_tiles]
  refine Finset.sum_congr rfl fun cc _ => ?_
  unfold A5
  rw [final5]
  rfl

theorem ce_eq (c : Dev nD) : f0 + ∑ cc : Fin 2, A5 m c cc ⟨3, by omega⟩ = CE (Xk m c) (Lk m c) := by
  rw [f0_add]
  unfold CE
  rw [sum_rows_tiles]
  refine Finset.sum_congr rfl fun cc _ => ?_
  unfold A5
  rw [final5]
  rfl

/-- The first and third results on core `c`. -/
def res47 (c : Dev nD) : Buf (Elt Ideal) ((c.tc : Thread nD τ).loc main_v47) :=
  fun _ => crossloss (NP (Lk m c)) (CE (Xk m c) (Lk m c))
/-- The second result on core `c`. -/
def res48 (c : Dev nD) : Buf (Elt Ideal) ((c.tc : Thread nD τ).loc main_v48) :=
  fun _ => puloss (SU (Xk m c) (Lk m c)) (SP (Xk m c) (Lk m c)) (NP (Lk m c)) (NU (Lk m c)) (PU2 (Xk m c) (Lk m c) (Pk m c))
    (maskK (m ((c : Thread nD τ).loc main_arg3))) (p0K (m ((c : Thread nD τ).loc main_arg2)) (m ((c : Thread nD τ).loc main_arg3)))

/-- Every weakly fair execution of the idealized kernel's @main terminates with the two results at the specification's
    values of the argument arrays, and the arguments unchanged. -/
theorem run : θ_run defs (onTc (τ := τ) (main (F := Ideal))) ⟨m, fun _ => 0, ρ⟩ fun r => ∀ c : Dev nD,
      r.2.mem ((c.tc : Thread nD τ).loc main_v47) = res47 m c
      ∧ r.2.mem ((c.tc : Thread nD τ).loc main_v48) = res48 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run_main (F := Ideal) m ρ)
  refine ⟨?_, ?_, ?_, ?_, ?_, ?_⟩
  · refine ((h c).2 main_v47 (Pipeline.mem_restRefs_of main_v47 (by decide) (by decide))).trans ?_
    rw [tail_v47, np_eq, ce_eq]
    rfl
  · refine ((h c).2 main_v48 (Pipeline.mem_restRefs_of main_v48 (by decide) (by decide))).trans ?_
    rw [tail_v48]
    simp only [su_eq, sp_eq, np_eq, nu_eq, pu2_eq]
    rfl
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).2 main_arg3 (Pipeline.mem_restRefs_of main_arg3 (by decide) (by decide))).trans (W_main_arg3 m (dats m) c)

end Cert.KernelIdeal.KValue

end
-- ==== Proof.Ref.Rows.lean ====
/- The reference's per-element stages at the ideal instance, read at an index: the clamped negative log and the
   log-softmax of a row are the specification's row functions; the two row indicators; the clipped label's range. -/
import proofs.«430741_j180388627001_2_alg».proof.Proof.Ref.ReadP
import proofs.«430741_j180388627001_2_alg».proof.Proof.Spec
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx
open Cert.Spec

/-- The argument arrays as plain functions of a row and a class. -/
def Xf (x0 : (⟨S262144x128, .f32⟩ : BufTy).Contents (Elt Ideal)) (n : Fin 262144) : Fin 128 → EReal := fun k => x0 (ix2 n k)
def Lf (x1 : (⟨S262144, .i32⟩ : BufTy).Contents (Elt Ideal)) (n : Fin 262144) : BitVec 32 := x1 (ix1 n)
def Pf (x2 : (⟨S128, .f32⟩ : BufTy).Contents (Elt Ideal)) (k : Fin 128) : EReal := x2 (ix1 k)

/-- Reducing the class axis of the 262144 x 128 array leaves the row axis. -/
private theorem redRows : (S262144x128 : Shape).Reduces [1] S262144 := by decide

/-- Row n with class k inserted is the index (n, k). -/
private theorem lift_row (n : Fin 262144) (k : Fin 128) : redRows.lift (ix1 n) k = ix2 n k := by
  funext c; apply Fin.ext
  fin_cases c <;> rfl

/-- -∞ is neutral for max. -/
private theorem negInf_max (y : EReal) : max (Ideal.ofBits .f32 0xFF800000#32) y = y := by
  simp [Ideal.ofBits, Ideal.ieee]

/-- The max-reduce over the class axis from -∞, at row n, is the row's maximum. -/
private theorem reduceMax_row (x0 : (⟨S262144x128, .f32⟩ : BufTy).Contents (Elt Ideal))
    (init : (⟨S_, .f32⟩ : BufTy).Contents (Elt Ideal)) (hinit : init (Shape.Idx.first h_S_) = negInf) (n : Fin 262144) :
    Host.reduce (α := Ideal .f32) FloatOps.maximumf x0 init reducesTo_S262144x128_S262144_d1 h_S_ (ix1 n)
      = rmax (Xf x0 n) := by
  refine (Host.reduce_eq_fold_single (α := Ideal .f32) FloatOps.maximumf x0 init reducesTo_S262144x128_S262144_d1 redRows h_S_ (ix1 n)).trans ?_
  rw [hinit]
  have hf : (x0 ∘ redRows.lift (ix1 n)) = Xf x0 n := funext fun k => congrArg x0 (lift_row n k)
  rw [hf]
  rfl

/-- A row index broadcast to a column and then across the classes reads the row. -/
private theorem row_of_ix2 (n : Fin 262144) (k : Fin 128) : idx_main_v3 (idx_main_v4 (ix2 n k)) = ix1 n := by
  funext a; match a with | ⟨0, _⟩ => rfl

/-- The summation index at row n and class k is (n, k). -/
private theorem sumIdx_row (n : Fin 262144) (k : Fin 128) : idx_main_v7 (ix1 n) k = ix2 n k := by
  funext a; match a with | ⟨0, _⟩ => rfl | ⟨1, _⟩ => rfl

/-! ### The softmax stages of the main body -/

private theorem v2_row (x0 : (⟨S262144x128, .f32⟩ : BufTy).Contents (Elt Ideal)) (n : Fin 262144) :
    val_main_v2 (F := Ideal) x0 (ix1 n) = rmax (Xf x0 n) := by
  rw [val_main_v2_apply, val_main_v1_apply, val_main_cst_0_apply]
  unfold val_main_v0
  rw [reduceMax_row x0 _ rfl n]
  exact negInf_max _

private theorem v5_row (x0 : (⟨S262144x128, .f32⟩ : BufTy).Contents (Elt Ideal)) (n : Fin 262144) (k : Fin 128) :
    val_main_v5 (F := Ideal) x0 (ix2 n k) = Xf x0 n k - rmax (Xf x0 n) := by
  rw [val_main_v5_apply, val_main_v4_apply, val_main_v3_apply, row_of_ix2, v2_row]
  rfl

private theorem v6_row (x0 : (⟨S262144x128, .f32⟩ : BufTy).Contents (Elt Ideal)) (n : Fin 262144) (k : Fin 128) :
    val_main_v6 (F := Ideal) x0 (ix2 n k) = ex (Xf x0 n) k := by
  rw [val_main_v6_apply, v5_row]
  rfl

private theorem v7_row (x0 : (⟨S262144x128, .f32⟩ : BufTy).Contents (Elt Ideal)) (n : Fin 262144) :
    val_main_v7 (F := Ideal) x0 (ix1 n) = sumex (Xf x0 n) := by
  rw [val_main_v7_apply, val_main_cst_1_apply]
  unfold sumex
  rw [Ideal.ofBits_def, Ideal.ofBits_zero_f32, zero_add]
  exact Finset.sum_congr rfl fun k _ => by rw [sumIdx_row, v6_row]

private theorem v10_row (x0 : (⟨S262144x128, .f32⟩ : BufTy).Contents (Elt Ideal)) (n : Fin 262144) (k : Fin 128) :
    val_main_v10 (F := Ideal) x0 (ix2 n k) = soft (Xf x0 n) k := by
  rw [val_main_v10_apply, val_main_v9_apply, val_main_v8_apply, v6_row]
  rw [show idx_main_v8 (idx_main_v9 (ix2 n k)) = ix1 n from row_of_ix2 n k, v7_row]
  rfl

/-- -log (1 - softmax + ε): the reference's softmax takes one more `max` with -∞ than the fold, which changes nothing. -/
theorem v25_apply (x0 : (⟨S262144x128, .f32⟩ : BufTy).Contents (Elt Ideal)) (n : Fin 262144) (k : Fin 128) :
    val_main_v25 (F := Ideal) x0 (ix2 n k) = neglog (Xf x0 n) k := by
  rw [val_main_v25_apply, val_main_v24_apply, val_main_v23_apply, val_main_v22_apply, val_main_cst_7_apply,
    val_main_v21_apply, val_main_v20_apply, val_main_cst_6_apply, v10_row]
  rfl

/-! ### The same stages inside the log-softmax -/

private theorem c4v2_row (x0 : (⟨S262144x128, .f32⟩ : BufTy).Contents (Elt Ideal)) (n : Fin 262144) :
    val_main_call4_v2 (F := Ideal) x0 (ix1 n) = rmax (Xf x0 n) := by
  rw [val_main_call4_v2_apply, val_main_call4_v1_apply, val_main_call4_cst_0_apply]
  unfold val_main_call4_v0
  rw [reduceMax_row x0 _ rfl n]
  exact negInf_max _

private theorem c4v5_row (x0 : (⟨S262144x128, .f32⟩ : BufTy).Contents (Elt Ideal)) (n : Fin 262144) (k : Fin 128) :
    val_main_call4_v5 (F := Ideal) x0 (ix2 n k) = Xf x0 n k - rmax (Xf x0 n) := by
  rw [val_main_call4_v5_apply, val_main_call4_v4_apply, val_main_call4_v3_apply]
  rw [show idx_main_call4_v3 (idx_main_call4_v4 (ix2 n k)) = ix1 n from row_of_ix2 n k, c4v2_row]
  rfl

private theorem c4v6_row (x0 : (⟨S262144x128, .f32⟩ : BufTy).Contents (Elt Ideal)) (n : Fin 262144) (k : Fin 128) :
    val_main_call4_v6 (F := Ideal) x0 (ix2 n k) = ex (Xf x0 n) k := by
  rw [val_main_call4_v6_apply, c4v5_row]
  rfl

private theorem c4v7_row (x0 : (⟨S262144x128, .f32⟩ : BufTy).Contents (Elt Ideal)) (n : Fin 262144) :
    val_main_call4_v7 (F := Ideal) x0 (ix1 n) = sumex (Xf x0 n) := by
  rw [val_main_call4_v7_apply, val_main_call4_cst_1_apply]
  unfold sumex
  rw [Ideal.ofBits_def, Ideal.ofBits_zero_f32, zero_add]
  exact Finset.sum_congr rfl fun k _ => by
    rw [show idx_main_call4_v7 (ix1 n) k = ix2 n k from sumIdx_row n k, c4v6_row]

/-- The log-softmax. -/
theorem v76_apply (x0 : (⟨S262144x128, .f32⟩ : BufTy).Contents (Elt Ideal)) (n : Fin 262144) (k : Fin 128) :
    val_main_v76 (F := Ideal) x0 (ix2 n k) = logp (Xf x0 n) k := by
  rw [val_main_v76_apply, val_main_call4_v10_apply, val_main_call4_v9_apply, val_main_call4_v8_apply, c4v5_row]
  rw [show idx_main_call4_v8 (idx_main_call4_v10 (ix2 n k)) = ix1 n from row_of_ix2 n k, c4v7_row]
  rfl

/-! ### The row indicators and the clipped label -/

/-- The labeled-row indicator and its complement (the compare's bit and its negation, converted). -/
theorem v14_apply (x1 : (⟨S262144, .i32⟩ : BufTy).Contents (Elt Ideal)) (n : Fin 262144) :
    val_main_v14 (F := Ideal) x1 (ix1 n) = fP (Lf x1 n) := by
  rw [val_main_v14_apply, val_main_v12_apply, val_main_v11_apply, val_main_c_apply]
  show (((BitVec.ofBool ((x1 (ix1 n)).sle 127#32)).toNat : ℝ) : EReal) = fP (x1 (ix1 n))
  unfold fP
  cases (x1 (ix1 n)).sle 127#32 <;> simp
theorem v15_apply (x1 : (⟨S262144, .i32⟩ : BufTy).Contents (Elt Ideal)) (n : Fin 262144) :
    val_main_v15 (F := Ideal) x1 (ix1 n) = fU (Lf x1 n) := by
  rw [val_main_v15_apply, val_main_v13_apply, val_main_v12_apply, val_main_v11_apply, val_main_c_apply]
  show (((~~~(BitVec.ofBool ((x1 (ix1 n)).sle 127#32))).toNat : ℝ) : EReal) = fU (x1 (ix1 n))
  unfold fU
  cases (x1 (ix1 n)).sle 127#32 <;> simp

/-- The clipped label, as a signed integer: min 127 (max 0 label). -/
theorem v59_toInt (x1 : (⟨S262144, .i32⟩ : BufTy).Contents (Elt Ideal)) (n : Fin 262144) :
    (val_main_v59 (F := Ideal) x1 (ix1 n)).toInt = min 127 (max 0 (Lf x1 n).toInt) := by
  rw [val_main_v59_apply, val_main_call2_v4_apply, val_main_call2_v3_apply, val_main_c_23_apply,
    val_main_call2_v2_apply, val_main_call2_v1_apply, val_main_call2_v0_apply, val_main_c_22_apply]
  show (IntOp.minsi 127#32 (IntOp.maxsi 0#32 (x1 (ix1 n)))).toInt = min 127 (max 0 (x1 (ix1 n)).toInt)
  generalize x1 (ix1 n) = l
  unfold IntOp.minsi IntOp.maxsi
  have h0 : (0#32 : BitVec 32).toInt = 0 := by decide
  have h127 : (127#32 : BitVec 32).toInt = 127 := by decide
  simp only [BitVec.slt, decide_eq_true_eq]
  split_ifs <;> (try simp only [h0, h127] at *) <;> omega

end Cert.ReferenceIdeal.RefValue

end
-- ==== Proof.Ref.Gather.lean ====
/- The reference's three gathers at the ideal instance, read at a row: with the label clipped into [0, 127] the index is
   never negative and never out of range, so the wrap-around branch and the out-of-range fill are never taken, and each
   gather reads the row's entry at the clipped label's class. -/
import proofs.«430741_j180388627001_2_alg».proof.Proof.Ref.Rows
import Idealize.ShloMosaic.PureOps.Reduce

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx
open Cert.Spec

/-! ## The two gathers read at a row, for any operand and any start indices -/

/-- The batched row gather (row n of the operand paired with row n of the start indices, the class axis collapsed) read at
    row n: the row's entry at the start index, read signed and clamped into [0, 127]. Axis 0 of the operand index is the
    batch coordinate n; axis 1 is the clamped start index. -/
private theorem gatherRow_apply {α : Type} {w : Nat} (y : S262144x128.Idx → α) (idx : IVec S262144x1x1 w) (n : Fin 262144) :
    Host.gather gather_S262144x128_S262144x1x1_S262144x1_n_1_0_0_1_2_11 y idx (ix2 n (0 : Fin 1))
      = y (ix2 n ⟨min (idx (ix3 n (0 : Fin 1) (0 : Fin 1))).toInt.toNat 127, by omega⟩) := by
  unfold Host.gather
  congr 1
  funext a
  refine Fin.ext ?_
  match a with
  | ⟨0, _⟩ =>
    show gather_S262144x128_S262144x1x1_S262144x1_n_1_0_0_1_2_11.start (ix2 n (0 : Fin 1)) idx 0
      + gather_S262144x128_S262144x1x1_S262144x1_n_1_0_0_1_2_11.batchCoord (ix2 n (0 : Fin 1)) 0
      + gather_S262144x128_S262144x1x1_S262144x1_n_1_0_0_1_2_11.offCoord (ix2 n (0 : Fin 1)) 0 = n.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    rfl
  | ⟨1, _⟩ =>
    show gather_S262144x128_S262144x1x1_S262144x1_n_1_0_0_1_2_11.start (ix2 n (0 : Fin 1)) idx 1
      + gather_S262144x128_S262144x1x1_S262144x1_n_1_0_0_1_2_11.batchCoord (ix2 n (0 : Fin 1)) 1
      + gather_S262144x128_S262144x1x1_S262144x1_n_1_0_0_1_2_11.offCoord (ix2 n (0 : Fin 1)) 1
      = min (idx (ix3 n (0 : Fin 1) (0 : Fin 1))).toInt.toNat 127
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S262144x128_S262144x1x1_S262144x1_n_1_0_0_1_2_11.startIndexMap from List.mem_singleton.mpr rfl)]
    have hsi : gather_S262144x128_S262144x1x1_S262144x1_n_1_0_0_1_2_11.siIdx (ix2 n (0 : Fin 1))
        ⟨List.idxOf (1 : Fin 2) gather_S262144x128_S262144x1x1_S262144x1_n_1_0_0_1_2_11.startIndexMap,
          List.idxOf_lt_length_iff.2 (List.mem_singleton.mpr rfl)⟩ = ix3 n (0 : Fin 1) (0 : Fin 1) := by
      funext b; refine Fin.ext ?_
      match b with
      | ⟨0, _⟩ => rfl
      | ⟨1, _⟩ => rfl
      | ⟨2, _⟩ => rfl
    rw [hsi]
    rfl

/-- The flat gather (a table of 128 entries at a column of start indices) read at row n: the table at the start index,
    read signed and clamped into [0, 127]. -/
private theorem gatherFlat_apply {α : Type} {w : Nat} (x : S128.Idx → α) (idx : IVec S262144x1 w) (n : Fin 262144) :
    Host.gather gather_S128_S262144x1_S262144_n_0_n_n_0_1_1 x idx (ix1 n)
      = x (ix1 ⟨min (idx (ix2 n (0 : Fin 1))).toInt.toNat 127, by omega⟩) := by
  unfold Host.gather
  congr 1
  funext a
  obtain rfl : a = 0 := Subsingleton.elim _ _
  refine Fin.ext ?_
  show gather_S128_S262144x1_S262144_n_0_n_n_0_1_1.start (ix1 n) idx 0
      + gather_S128_S262144x1_S262144_n_0_n_n_0_1_1.batchCoord (ix1 n) 0
      + gather_S128_S262144x1_S262144_n_0_n_n_0_1_1.offCoord (ix1 n) 0
      = min (idx (ix2 n (0 : Fin 1))).toInt.toNat 127
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S128_S262144x1_S262144_n_0_n_n_0_1_1.startIndexMap from List.mem_singleton.mpr rfl)]
  have hsi : gather_S128_S262144x1_S262144_n_0_n_n_0_1_1.siIdx (ix1 n)
      ⟨List.idxOf (0 : Fin 1) gather_S128_S262144x1_S262144_n_0_n_n_0_1_1.startIndexMap,
        List.idxOf_lt_length_iff.2 (List.mem_singleton.mpr rfl)⟩ = ix2 n (0 : Fin 1) := by
    funext b; refine Fin.ext ?_
    match b with
    | ⟨0, _⟩ => rfl
    | ⟨1, _⟩ => rfl
  rw [hsi]
  rfl

/-- The row gather at row n reads class k once the clamped start index is k. -/
private theorem gatherRow_at {α : Type} {w : Nat} (y : S262144x128.Idx → α) (idx : IVec S262144x1x1 w) (n : Fin 262144)
    (k : Fin 128) (hk : min (idx (ix3 n (0 : Fin 1) (0 : Fin 1))).toInt.toNat 127 = k.val) :
    Host.gather gather_S262144x128_S262144x1x1_S262144x1_n_1_0_0_1_2_11 y idx (ix2 n (0 : Fin 1)) = y (ix2 n k) := by
  rw [gatherRow_apply]
  exact congrArg (fun c => y (ix2 n c)) (Fin.ext hk)

/-- The flat gather at row n reads entry k once the clamped start index is k. -/
private theorem gatherFlat_at {α : Type} {w : Nat} (x : S128.Idx → α) (idx : IVec S262144x1 w) (n : Fin 262144)
    (k : Fin 128) (hk : min (idx (ix2 n (0 : Fin 1))).toInt.toNat 127 = k.val) :
    Host.gather gather_S128_S262144x1_S262144_n_0_n_n_0_1_1 x idx (ix1 n) = x (ix1 k) := by
  rw [gatherFlat_apply]
  exact congrArg (fun c => x (ix1 c)) (Fin.ext hk)

/-! ## Words in [0, 127] -/

/-- A word in [0, 127] (signed) is not negative, so the wrap-around select (c < 0 ? c + 128 : c) keeps it. -/
private theorem wrap_keep (c : BitVec 32) (h0 : 0 ≤ c.toInt) (h1 : c.toInt ≤ 127) :
    Scalar.select (IntOp.cmpi .slt c 0#32) (IntOp.addi c 128#32) c = c := by
  have hs : c.slt 0#32 = false := by
    rw [Bool.eq_false_iff]; intro h
    rw [BitVec.slt_iff_toInt_lt] at h
    have hz : (0#32 : BitVec 32).toInt = 0 := by decide
    omega
  show Scalar.select (BitVec.ofBool (c.slt 0#32)) _ _ = c
  rw [hs]
  exact select_zero _ _

/-- A word in [0, 127] (signed) passes the range test 0 ≤ c ∧ c ≤ 127. -/
private theorem range_pass (c : BitVec 32) (h0 : 0 ≤ c.toInt) (h1 : c.toInt ≤ 127) :
    IntOp.andi (IntOp.cmpi .sge c 0#32) (IntOp.cmpi .sle c 127#32) = 1#1 := by
  have ha : (0#32 : BitVec 32).sle c = true := by
    rw [BitVec.sle_iff_toInt_le]
    have hz : (0#32 : BitVec 32).toInt = 0 := by decide
    omega
  have hb : c.sle 127#32 = true := by
    rw [BitVec.sle_iff_toInt_le]
    have hz : (127#32 : BitVec 32).toInt = 127 := by decide
    omega
  show IntOp.andi (BitVec.ofBool ((0#32 : BitVec 32).sle c)) (BitVec.ofBool (c.sle 127#32)) = 1#1
  rw [ha, hb]
  decide

/-- A left fold by and over one-bit words that are all 1, from 1, is 1. -/
private theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l (fun n hn => h n (List.mem_cons_of_mem _ hn))

/-- A reduce by and, from 1, of an array that is 1 everywhere is 1 everywhere. -/
private theorem reduce_andi_one {s t u : Shape} {axes : List (Fin s.rank)} (x : s.Idx → BitVec 1) (init : u.Idx → BitVec 1)
    (h : s.ReducesTo axes t) (hu : 0 < u.numel) (j : t.Idx)
    (hinit : init (Shape.Idx.first hu) = 1#1) (hx : ∀ i, x i = 1#1) : Host.reduce IntOp.andi x init h hu j = 1#1 := by
  rw [Host.reduce_eq_foldl, hinit]
  exact foldl_andi_one x _ (fun i _ => hx i)

/-- The clipped label of every row lies in [0, 127] (signed). -/
private theorem v59_range (x1 : (⟨S262144, .i32⟩ : BufTy).Contents (Elt Ideal)) (i : S262144.Idx) :
    0 ≤ (val_main_v59 (F := Ideal) x1 i).toInt ∧ (val_main_v59 (F := Ideal) x1 i).toInt ≤ 127 := by
  obtain ⟨k, rfl⟩ : ∃ k, i = ix1 k := ⟨i 0, eq_ix1 i⟩
  rw [v59_toInt]
  omega

/-- The clamped start index of row n is the clipped label's class. -/
private theorem clamp_clab (x1 : (⟨S262144, .i32⟩ : BufTy).Contents (Elt Ideal)) (n : Fin 262144) :
    min (val_main_v59 (F := Ideal) x1 (ix1 n)).toInt.toNat 127 = (clab (Lf x1 n)).val := by
  show min (val_main_v59 (F := Ideal) x1 (ix1 n)).toInt.toNat 127 = (min 127 (max 0 (Lf x1 n).toInt)).toNat
  rw [v59_toInt]
  omega

/-! ## The take-along-axis stages (wrap-around select, range test, its conjunction), once per call -/

/-- The start index the first take-along-axis call's gather reads: the wrap-around select keeps the clipped label. -/
private theorem c3_v5 (x1 : (⟨S262144, .i32⟩ : BufTy).Contents (Elt Ideal)) (i : S262144x1x1.Idx) :
    val_main_call3_v5 (F := Ideal) x1 i = val_main_v59 (F := Ideal) x1 (idx_main_v60 (idx_main_call3_v5 i)) := by
  rw [val_main_call3_v5_apply, val_main_call3_v4_apply, val_main_call3_v1_apply, val_main_call3_v3_apply,
    val_main_call3_v0_apply, val_main_call3_c_apply, val_main_call3_v2_apply, val_main_call3_c_0_apply, val_main_v60_apply]
  exact wrap_keep _ (v59_range x1 _).1 (v59_range x1 _).2

/-- The range test 0 ≤ index ≤ 127 holds at every index. -/
private theorem c3_v11 (x1 : (⟨S262144, .i32⟩ : BufTy).Contents (Elt Ideal)) (i : S262144x1x1.Idx) : val_main_call3_v11 (F := Ideal) x1 i = 1#1 := by
  rw [val_main_call3_v11_apply, val_main_call3_v7_apply, val_main_call3_v10_apply, val_main_call3_v6_apply,
    val_main_call3_c_2_apply, val_main_call3_v9_apply, val_main_call3_v8_apply, val_main_call3_c_1_apply, c3_v5]
  exact range_pass _ (v59_range x1 _).1 (v59_range x1 _).2

/-- So its conjunction over the unit axis is 1 at every row: the out-of-range fill is never taken. -/
private theorem c3_v12 (x1 : (⟨S262144, .i32⟩ : BufTy).Contents (Elt Ideal)) (j : S262144x1.Idx) : val_main_call3_v12 (F := Ideal) x1 j = 1#1 := by
  unfold val_main_call3_v12
  exact reduce_andi_one _ _ _ _ _ (val_main_call3_c_3_apply _) (c3_v11 x1)

/-- Row n's start index sits at (n, 0, 0), which reads the clipped label of row n. -/
private theorem c3_idx5 (n : Fin 262144) :
    idx_main_v60 (idx_main_call3_v5 (ix3 n (0 : Fin 1) (0 : Fin 1))) = ix1 n := by
  funext a
  match a with
  | ⟨0, _⟩ => exact Fin.ext (by show ((n.val * 1 + 0) * 1 + 0) / 1 = n.val; omega)

/-- The start index the second take-along-axis call's gather reads: the wrap-around select keeps the clipped label. -/
private theorem c5_v5 (x1 : (⟨S262144, .i32⟩ : BufTy).Contents (Elt Ideal)) (i : S262144x1x1.Idx) :
    val_main_call5_v5 (F := Ideal) x1 i = val_main_v59 (F := Ideal) x1 (idx_main_v77 (idx_main_call5_v5 i)) := by
  rw [val_main_call5_v5_apply, val_main_call5_v4_apply, val_main_call5_v1_apply, val_main_call5_v3_apply,
    val_main_call5_v0_apply, val_main_call5_c_apply, val_main_call5_v2_apply, val_main_call5_c_0_apply, val_main_v77_apply]
  exact wrap_keep _ (v59_range x1 _).1 (v59_range x1 _).2

/-- The range test 0 ≤ index ≤ 127 holds at every index. -/
private theorem c5_v11 (x1 : (⟨S262144, .i32⟩ : BufTy).Contents (Elt Ideal)) (i : S262144x1x1.Idx) : val_main_call5_v11 (F := Ideal) x1 i = 1#1 := by
  rw [val_main_call5_v11_apply, val_main_call5_v7_apply, val_main_call5_v10_apply, val_main_call5_v6_apply,
    val_main_call5_c_2_apply, val_main_call5_v9_apply, val_main_call5_v8_apply, val_main_call5_c_1_apply, c5_v5]
  exact range_pass _ (v59_range x1 _).1 (v59_range x1 _).2

/-- So its conjunction over the unit axis is 1 at every row: the out-of-range fill is never taken. -/
private theorem c5_v12 (x1 : (⟨S262144, .i32⟩ : BufTy).Contents (Elt Ideal)) (j : S262144x1.Idx) : val_main_call5_v12 (F := Ideal) x1 j = 1#1 := by
  unfold val_main_call5_v12
  exact reduce_andi_one _ _ _ _ _ (val_main_call5_c_3_apply _) (c5_v11 x1)

/-- Row n's start index sits at (n, 0, 0), which reads the clipped label of row n. -/
private theorem c5_idx5 (n : Fin 262144) :
    idx_main_v77 (idx_main_call5_v5 (ix3 n (0 : Fin 1) (0 : Fin 1))) = ix1 n := by
  funext a
  match a with
  | ⟨0, _⟩ => exact Fin.ext (by show ((n.val * 1 + 0) * 1 + 0) / 1 = n.val; omega)

/-- A column's row n as a flat index. -/
private theorem idx62 (n : Fin 262144) : idx_main_v62 (ix1 n) = ix2 n (0 : Fin 1) := by
  funext a
  match a with
  | ⟨0, _⟩ => exact Fin.ext (Nat.div_one _)
  | ⟨1, _⟩ => rfl
private theorem idx79 (n : Fin 262144) : idx_main_v79 (ix1 n) = ix2 n (0 : Fin 1) := by
  funext a
  match a with
  | ⟨0, _⟩ => exact Fin.ext (Nat.div_one _)
  | ⟨1, _⟩ => rfl

/-! ## The three gathers -/

/-- The clamped negative log of row n at its clipped label's class. -/
theorem v62_apply (x0 : (⟨S262144x128, .f32⟩ : BufTy).Contents (Elt Ideal)) (x1 : (⟨S262144, .i32⟩ : BufTy).Contents (Elt Ideal)) (n : Fin 262144) :
    val_main_v62 (F := Ideal) x0 x1 (ix1 n) = neglog (Xf x0 n) (clab (Lf x1 n)) := by
  rw [val_main_v62_apply, idx62, val_main_v61_apply, c3_v12, select_one]
  unfold val_main_call3_v13
  refine (gatherRow_at (w := 32) (val_main_v25 (F := Ideal) x0) (val_main_call3_v5 (F := Ideal) x1) n (clab (Lf x1 n)) ?_).trans
    (v25_apply x0 n (clab (Lf x1 n)))
  rw [c3_v5, c3_idx5]
  exact clamp_clab x1 n

/-- The prior of row n's clipped label's class: the start index is the clipped label itself. -/
theorem v69_apply (x1 : (⟨S262144, .i32⟩ : BufTy).Contents (Elt Ideal)) (x2 : (⟨S128, .f32⟩ : BufTy).Contents (Elt Ideal)) (n : Fin 262144) :
    val_main_v69 (F := Ideal) x1 x2 (ix1 n) = Pf x2 (clab (Lf x1 n)) := by
  have e : val_main_v68 (F := Ideal) x1 (ix2 n (0 : Fin 1)) = val_main_v59 (F := Ideal) x1 (ix1 n) := by
    rw [val_main_v68_apply, val_main_v67_apply, val_main_v64_apply, val_main_v66_apply, val_main_v63_apply,
      val_main_c_24_apply, val_main_v65_apply, val_main_c_25_apply]
    have ei : idx_main_v68 (ix2 n (0 : Fin 1)) = ix1 n := by
      funext a
      match a with
      | ⟨0, _⟩ => rfl
    rw [ei]
    exact wrap_keep _ (v59_range x1 _).1 (v59_range x1 _).2
  unfold val_main_v69
  refine gatherFlat_at (w := 32) x2 (val_main_v68 (F := Ideal) x1) n (clab (Lf x1 n)) ?_
  rw [e]
  exact clamp_clab x1 n

/-- The log-softmax of row n at its clipped label's class. -/
theorem v79_apply (x0 : (⟨S262144x128, .f32⟩ : BufTy).Contents (Elt Ideal)) (x1 : (⟨S262144, .i32⟩ : BufTy).Contents (Elt Ideal)) (n : Fin 262144) :
    val_main_v79 (F := Ideal) x0 x1 (ix1 n) = logp (Xf x0 n) (clab (Lf x1 n)) := by
  rw [val_main_v79_apply, idx79, val_main_v78_apply, c5_v12, select_one]
  unfold val_main_call5_v13
  refine (gatherRow_at (w := 32) (val_main_v76 (F := Ideal) x0) (val_main_call5_v5 (F := Ideal) x1) n (clab (Lf x1 n)) ?_).trans
    (v76_apply x0 n (clab (Lf x1 n)))
  rw [c5_v5, c5_idx5]
  exact clamp_clab x1 n

end Cert.ReferenceIdeal.RefValue

end
-- ==== Proof.Ref.Result.lean ====
/- The reference's two results at the ideal instance: its six reductions over the 262144 rows are the specification's
   statistics (each host sum starts from the literal zero, which adds nothing), and the closing scalar operations are
   the specification's quotients. -/
import proofs.«430741_j180388627001_2_alg».proof.Proof.Ref.Gather

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx
open Cert.Spec

/-- The mask of listed classes and the prior of the first listed class, as the reference computes them. -/
def maskR (x3 : (⟨S32, .i32⟩ : BufTy).Contents (Elt Ideal)) : Fin 128 → BitVec 1 := fun k => val_main_v42 (F := Ideal) x3 (ix1 k)
def p0R (x2 : (⟨S128, .f32⟩ : BufTy).Contents (Elt Ideal)) (x3 : (⟨S32, .i32⟩ : BufTy).Contents (Elt Ideal)) : EReal :=
  val_main_v55 (F := Ideal) x2 x3 ix0

/-- A sum over a rank-1 index set is the sum over its one coordinate. -/
private theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ _ _ (fun i => congrArg f (eq_ix1 i))

/-- The number of labeled rows: the host sum of the labeled-row indicator, from the literal zero. -/
private theorem v16_eq (x1 : (⟨S262144, .i32⟩ : BufTy).Contents (Elt Ideal)) (i : S_.Idx) :
    val_main_v16 (F := Ideal) x1 i = NP (Lf x1) := by
  rw [val_main_v16_apply, val_main_cst_2_apply, Ideal.ofBits_def, Ideal.ofBits_zero_f32, zero_add, sum_idx1]
  unfold NP
  exact Finset.sum_congr rfl fun n _ => v14_apply x1 n

/-- The number of unlabeled rows. -/
private theorem v18_eq (x1 : (⟨S262144, .i32⟩ : BufTy).Contents (Elt Ideal)) (i : S_.Idx) :
    val_main_v18 (F := Ideal) x1 i = NU (Lf x1) := by
  rw [val_main_v18_apply, val_main_cst_4_apply, Ideal.ofBits_def, Ideal.ofBits_zero_f32, zero_add, sum_idx1]
  unfold NU
  exact Finset.sum_congr rfl fun n _ => v15_apply x1 n

/-- max(1, NP) and max(1, NU). -/
private theorem v17_eq (x1 : (⟨S262144, .i32⟩ : BufTy).Contents (Elt Ideal)) (i : S_.Idx) :
    val_main_v17 (F := Ideal) x1 i = max f1 (NP (Lf x1)) := by
  rw [val_main_v17_apply, val_main_cst_3_apply, v16_eq]; rfl
private theorem v19_eq (x1 : (⟨S262144, .i32⟩ : BufTy).Contents (Elt Ideal)) (i : S_.Idx) :
    val_main_v19 (F := Ideal) x1 i = max f1 (NU (Lf x1)) := by
  rw [val_main_v19_apply, val_main_cst_5_apply, v18_eq]; rfl

/-- The cross-entropy numerator: the labeled rows' negated log-softmax at their own class, summed. -/
private theorem v82_eq (x0 : (⟨S262144x128, .f32⟩ : BufTy).Contents (Elt Ideal)) (x1 : (⟨S262144, .i32⟩ : BufTy).Contents (Elt Ideal)) (i : S_.Idx) :
    val_main_v82 (F := Ideal) x0 x1 i = CE (Xf x0) (Lf x1) := by
  rw [val_main_v82_apply, val_main_cst_27_apply, Ideal.ofBits_def, Ideal.ofBits_zero_f32, zero_add, sum_idx1]
  unfold CE
  refine Finset.sum_congr rfl fun n _ => ?_
  rw [val_main_v81_apply, val_main_v80_apply, v79_apply, v14_apply]
  rfl

/-- The labeled rows' clamped negative log at their own class, weighted by that class's prior, summed. -/
private theorem v72_eq (x0 : (⟨S262144x128, .f32⟩ : BufTy).Contents (Elt Ideal)) (x1 : (⟨S262144, .i32⟩ : BufTy).Contents (Elt Ideal))
    (x2 : (⟨S128, .f32⟩ : BufTy).Contents (Elt Ideal)) (i : S_.Idx) :
    val_main_v72 (F := Ideal) x0 x1 x2 i = PU2 (Xf x0) (Lf x1) (Pf x2) := by
  rw [val_main_v72_apply, val_main_cst_26_apply, Ideal.ofBits_def, Ideal.ofBits_zero_f32, zero_add, sum_idx1]
  unfold PU2
  refine Finset.sum_congr rfl fun n _ => ?_
  rw [val_main_v71_apply, val_main_v70_apply, v62_apply, v69_apply, v14_apply]
  rfl

/-- Per class, the clamped negative logs of the unlabeled rows, summed down the rows: the indicator is broadcast
    along the classes, so at (row n, class k) it is the row's indicator. -/
private theorem v29_eq (x0 : (⟨S262144x128, .f32⟩ : BufTy).Contents (Elt Ideal)) (x1 : (⟨S262144, .i32⟩ : BufTy).Contents (Elt Ideal)) (k : Fin 128) :
    val_main_v29 (F := Ideal) x0 x1 (ix1 k) = SU (Xf x0) (Lf x1) k := by
  rw [val_main_v29_apply, val_main_cst_8_apply, Ideal.ofBits_def, Ideal.ofBits_zero_f32, zero_add]
  unfold SU
  refine Finset.sum_congr rfl fun n _ => ?_
  have hi : idx_main_v29 (ix1 k) n = ix2 n k :=
    funext fun a => Fin.ext (by match a with | ⟨0, _⟩ => rfl | ⟨1, _⟩ => rfl)
  have hj : idx_main_v26 (idx_main_v27 (ix2 n k)) = ix1 n :=
    funext fun a => Fin.ext (by match a with | ⟨0, _⟩ => rfl)
  rw [hi, val_main_v28_apply, val_main_v27_apply, val_main_v26_apply, hj, v25_apply, v15_apply]
  rfl

/-- The same over the labeled rows. -/
private theorem v33_eq (x0 : (⟨S262144x128, .f32⟩ : BufTy).Contents (Elt Ideal)) (x1 : (⟨S262144, .i32⟩ : BufTy).Contents (Elt Ideal)) (k : Fin 128) :
    val_main_v33 (F := Ideal) x0 x1 (ix1 k) = SP (Xf x0) (Lf x1) k := by
  rw [val_main_v33_apply, val_main_cst_9_apply, Ideal.ofBits_def, Ideal.ofBits_zero_f32, zero_add]
  unfold SP
  refine Finset.sum_congr rfl fun n _ => ?_
  have hi : idx_main_v33 (ix1 k) n = ix2 n k :=
    funext fun a => Fin.ext (by match a with | ⟨0, _⟩ => rfl | ⟨1, _⟩ => rfl)
  have hj : idx_main_v30 (idx_main_v31 (ix2 n k)) = ix1 n :=
    funext fun a => Fin.ext (by match a with | ⟨0, _⟩ => rfl)
  rw [hi, val_main_v32_apply, val_main_v31_apply, val_main_v30_apply, hj, v25_apply, v14_apply]
  rfl

/-- The unlabeled sums of the listed classes, added up from the literal zero. -/
private theorem v44_eq (x0 : (⟨S262144x128, .f32⟩ : BufTy).Contents (Elt Ideal)) (x1 : (⟨S262144, .i32⟩ : BufTy).Contents (Elt Ideal))
    (x3 : (⟨S32, .i32⟩ : BufTy).Contents (Elt Ideal)) (i : S_.Idx) :
    val_main_v44 (F := Ideal) x0 x1 x3 i = f0 + ∑ k : Fin 128, (if maskR x3 k = 1#1 then SU (Xf x0) (Lf x1) k else f0) := by
  rw [val_main_v44_apply, val_main_cst_15_apply, sum_idx1]
  refine congrArg (_ + ·) (Finset.sum_congr rfl fun k _ => ?_)
  rw [val_main_v43_apply, v29_eq, val_main_call0_v1_apply, val_main_call0_v0_apply, val_main_cst_14_apply]
  rfl

/-- The labeled sums of the classes not listed, added up from the literal zero. -/
private theorem v48_eq (x0 : (⟨S262144x128, .f32⟩ : BufTy).Contents (Elt Ideal)) (x1 : (⟨S262144, .i32⟩ : BufTy).Contents (Elt Ideal))
    (x3 : (⟨S32, .i32⟩ : BufTy).Contents (Elt Ideal)) (i : S_.Idx) :
    val_main_v48 (F := Ideal) x0 x1 x3 i = f0 + ∑ k : Fin 128, (if maskR x3 k = 1#1 then f0 else SP (Xf x0) (Lf x1) k) := by
  rw [val_main_v48_apply, val_main_cst_18_apply, sum_idx1]
  refine congrArg (_ + ·) (Finset.sum_congr rfl fun k _ => ?_)
  rw [val_main_v47_apply, v33_eq, val_main_call1_v1_apply, val_main_call1_v0_apply, val_main_cst_17_apply]
  rfl

theorem ref_v83 (x0 : (⟨S262144x128, .f32⟩ : BufTy).Contents (Elt Ideal)) (x1 : (⟨S262144, .i32⟩ : BufTy).Contents (Elt Ideal)) :
    val_main_v83 (F := Ideal) x0 x1 = fun _ => crossloss (NP (Lf x1)) (CE (Xf x0) (Lf x1)) := by
  funext i
  rw [val_main_v83_apply, v82_eq, v17_eq]
  rfl

theorem ref_v84 (x0 : (⟨S262144x128, .f32⟩ : BufTy).Contents (Elt Ideal)) (x1 : (⟨S262144, .i32⟩ : BufTy).Contents (Elt Ideal))
    (x2 : (⟨S128, .f32⟩ : BufTy).Contents (Elt Ideal)) (x3 : (⟨S32, .i32⟩ : BufTy).Contents (Elt Ideal)) :
    val_main_v84 (F := Ideal) x0 x1 x2 x3 = fun _ => puloss (SU (Xf x0) (Lf x1)) (SP (Xf x0) (Lf x1)) (NP (Lf x1)) (NU (Lf x1))
      (PU2 (Xf x0) (Lf x1) (Pf x2)) (maskR x3) (p0R x2 x3) := by
  funext i
  have hp : val_main_v55 (F := Ideal) x2 x3 i = p0R x2 x3 := by rw [eq_ix0 i]; rfl
  rw [val_main_v84_apply, val_main_v75_apply, val_main_v74_apply, val_main_v73_apply, val_main_v46_apply, val_main_v45_apply,
    val_main_v58_apply, val_main_v57_apply, val_main_v56_apply, v44_eq, v48_eq, v72_eq, v17_eq, v19_eq, hp,
    val_main_cst_16_apply, val_main_cst_21_apply, val_main_cst_28_apply]
  rfl

end Cert.ReferenceIdeal.RefValue

end
-- ==== Proof.LibAfterAt.lean ====
/- A straight line of host operations in which every operation writes a buffer of its own, read one operation at a time.
   `StableHlo.after ops V` is the fold of the operations' results over the contents `V`. When the operation at each place writes
   exactly the buffer listed at that place (`WritesOwn`), a buffer that no operation from place `j` on writes holds at the end
   what it held after the first `j` operations (`after_stable`), and the buffer written at place `j` and nowhere later holds at
   the end the result of that operation over the contents after the first `j` (`after_at`). -/
import Idealize.ShloMosaic.Lib.StableHlo.Run

namespace Cert.LibAfterAt

open Idealize.ShloMosaic Idealize.ShloMosaic.TcCoe Idealize.SL.Sem Idealize.ShloMosaic.StableHlo

variable {τ : Topo} {sig : RefSig} {Val : EltTy → Type}

/-- The fold over two lines in a row is the fold over the second from the fold over the first. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- Two lists related entry by entry: every member of the first has a related member of the second. -/
theorem forall₂_mem_left {α β : Type} {R : α → β → Prop} {l₁ : List α} {l₂ : List β}
    (h : List.Forall₂ R l₁ l₂) {a : α} (ha : a ∈ l₁) : ∃ b ∈ l₂, R a b := by
  induction h with
  | nil => cases ha
  | cons hr _ ih =>
    rcases List.mem_cons.1 ha with rfl | ha'
    · exact ⟨_, List.mem_cons_self, hr⟩
    · obtain ⟨b, hb, hR⟩ := ih ha'
      exact ⟨b, List.mem_cons_of_mem _ hb, hR⟩

/-- Each operation of the line `L` writes exactly the buffer listed at its place in `wr`. -/
def WritesOwn (L : List (HloOp τ sig Val)) (wr : List (Ref sig .tc)) : Prop :=
  List.Forall₂ (fun op y => op.writes = {Proc.devRef (τ := τ) .tc y}) L wr

/-- A buffer `r` that is not among the buffers written from place `j` on holds, after the whole line, what it held after
    the first `j` operations: the remaining operations leave it. -/
theorem after_stable (L : List (HloOp τ sig Val)) (wr : List (Ref sig .tc)) (H : WritesOwn L wr)
    (V : Valuation τ sig Val) (j : Nat) (r : Ref sig .tc) (hr : r ∉ wr.drop j) :
    after L V (Proc.devRef .tc r) = after (L.take j) V (Proc.devRef .tc r) := by
  have e : after L V = after (L.drop j) (after (L.take j) V) := by
    rw [← after_app, List.take_append_drop]
  rw [e]
  refine after_of_forall_not_mem _ _ fun op hop hb => hr ?_
  obtain ⟨y, hy, hw⟩ := forall₂_mem_left (List.forall₂_drop j H) hop
  rw [hw, Finset.mem_singleton] at hb
  exact (Proc.devRef_injective _ hb) ▸ hy

/-- The buffer `y`, written by the operation `op` at place `j` and by none after it, holds after the whole line the result
    of `op` over the contents after the first `j` operations. -/
theorem after_at (L : List (HloOp τ sig Val)) (wr : List (Ref sig .tc)) (H : WritesOwn L wr)
    (V : Valuation τ sig Val) (j : Nat) (op : HloOp τ sig Val) (hop : L[j]? = some op)
    (y : Ref sig .tc) (hy : y ∉ wr.drop (j + 1)) :
    after L V (Proc.devRef .tc y) = op.result (after (L.take j) V) (Proc.devRef .tc y) := by
  rw [after_stable L wr H V (j + 1) y hy]
  have e : L.take (j + 1) = L.take j ++ [op] := by rw [List.take_add_one, hop]; rfl
  rw [e, after_app]; rfl

end Cert.LibAfterAt
-- ==== Proof.Ref.RunStages.lean ====
/- The reference's run, one operation at a time. The script above writes one lemma per operation of `ops`, in order:
   the buffer the operation writes holds, after the whole list, its stage value `ReadP.val_<buffer>` of the arguments' contents,
   from `after_at` (the buffer is written there and nowhere later), the result lemma of the operation's kind, `after_stable` and the
   earlier lemmas for the operands (no later operation writes them), and the definition of the stage value; an operation of an
   inlined function reads and writes through its buffers' types, the transports being identities. Before them: the list `wr` of
   the buffers written, in order, the fact `ops_writes` that each operation writes exactly its own, and the four arguments,
   which no operation writes. Hand text carried by the script: the proof of `at_main_v54` (the dynamic slice: its start index is a
   one-entry family of buffers, read entry by entry). -/
import proofs.«430741_j180388627001_2_alg».proof.Proof.Ref.RunOps
import proofs.«430741_j180388627001_2_alg».proof.Proof.Ref.ReadP
import proofs.«430741_j180388627001_2_alg».proof.Proof.LibAfterAt

noncomputable section

namespace Cert.ReferenceIdeal.ValueP

open Cert.ReferenceIdeal Cert.ReferenceIdeal.Gen Idealize.ShloMosaic Idealize.ShloMosaic.TcCoe Idealize.SL.Sem Idealize.ShloMosaic.StableHlo
open Cert.LibAfterAt

variable {F : FTy → Type} [FloatOps F]

/-- The buffers the operations write, in order: each operation its own. -/
abbrev wr : List (Ref sig .tc) :=
  [main_cst, main_v0, main_cst_0, main_v1, main_v2, main_v3, main_v4, main_v5, main_v6, main_cst_1, main_v7, main_v8, main_v9, main_v10, main_c, main_v11, main_v12, main_v13, main_v14, main_v15, main_cst_2, main_v16, main_cst_3, main_v17, main_cst_4, main_v18, main_cst_5, main_v19, main_cst_6, main_v20, main_v21, main_cst_7, main_v22, main_v23, main_v24, main_v25, main_v26, main_v27, main_v28, main_cst_8, main_v29, main_v30, main_v31, main_v32, main_cst_9, main_v33, main_c_10, main_v34, main_c_11, main_v35, main_v36, main_c_12, main_v37, main_v38, main_v39, main_v40, main_c_13, main_v41, main_v42, main_cst_14, main_call0_v0, main_call0_v1, main_v43, main_cst_15, main_v44, main_v45, main_cst_16, main_v46, main_cst_17, main_call1_v0, main_call1_v1, main_v47, main_cst_18, main_v48, main_v49, main_v50, main_c_19, main_v51, main_c_20, main_v52, main_v53, main_v54, main_v55, main_v56, main_v57, main_cst_21, main_v58, main_c_22, main_c_23, main_call2_v0, main_call2_v1, main_call2_v2, main_call2_v3, main_call2_v4, main_v59, main_v60, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v61, main_v62, main_c_24, main_v63, main_v64, main_c_25, main_v65, main_v66, main_v67, main_v68, main_v69, main_v70, main_v71, main_cst_26, main_v72, main_v73, main_v74, main_v75, main_call4_cst, main_call4_v0, main_call4_cst_0, main_call4_v1, main_call4_v2, main_call4_v3, main_call4_v4, main_call4_v5, main_call4_v6, main_call4_cst_1, main_call4_v7, main_call4_v8, main_call4_v9, main_call4_v10, main_v76, main_v77, main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_cst, main_call5_v14, main_v78, main_v79, main_v80, main_v81, main_cst_27, main_v82, main_v83, main_cst_28, main_v84]

set_option maxRecDepth 8192 in
/-- Each operation of `ops` writes exactly the buffer at its place in `wr`. -/
theorem ops_writes : WritesOwn (τ := τ) (ops (F := F)) wr := by
  unfold WritesOwn
  repeat (first | exact List.Forall₂.nil | refine List.Forall₂.cons rfl ?_)

/-! ## The arguments: no operation writes them -/

theorem at_main_arg0 (V : Valuation τ sig (Elt F)) :
    after (ops (F := F)) V (Proc.devRef .tc main_arg0) = V (Proc.devRef .tc main_arg0) :=
  after_stable ops wr ops_writes V 0 main_arg0 (by decide)

theorem at_main_arg1 (V : Valuation τ sig (Elt F)) :
    after (ops (F := F)) V (Proc.devRef .tc main_arg1) = V (Proc.devRef .tc main_arg1) :=
  after_stable ops wr ops_writes V 0 main_arg1 (by decide)

theorem at_main_arg2 (V : Valuation τ sig (Elt F)) :
    after (ops (F := F)) V (Proc.devRef .tc main_arg2) = V (Proc.devRef .tc main_arg2) :=
  after_stable ops wr ops_writes V 0 main_arg2 (by decide)

theorem at_main_arg3 (V : Valuation τ sig (Elt F)) :
    after (ops (F := F)) V (Proc.devRef .tc main_arg3) = V (Proc.devRef .tc main_arg3) :=
  after_stable ops wr ops_writes V 0 main_arg3 (by decide)

/-! ## The operations, in order: the buffer each writes holds its stage value of the arguments -/

set_option maxRecDepth 8192 in
theorem at_main_cst (V : Valuation τ sig (Elt F)) :
    after (ops (F := F)) V (Proc.devRef .tc main_cst) = ReadP.val_main_cst (F := F) := by
  refine (after_at ops wr ops_writes V 0 _ rfl main_cst (by decide)).trans ?_
  refine (nullary_result _ _ _ _).trans ?_
  rfl

set_option maxRecDepth 8192 in
theorem at_main_v0 (V : Valuation τ sig (Elt F)) :
    after (ops (F := F)) V (Proc.devRef .tc main_v0) = ReadP.val_main_v0 (F := F) (V (Proc.devRef .tc main_arg0)) := by
  refine (after_at ops wr ops_writes V 1 _ rfl main_v0 (by decide)).trans ?_
  refine (binary_result _ _ _ _ _ _ _ _).trans ?_
  rw [← after_stable ops wr ops_writes V 1 main_arg0 (by decide), at_main_arg0 V,
    ← after_stable ops wr ops_writes V 1 main_cst (by decide), at_main_cst V]
  rfl

set_option maxRecDepth 8192 in
theorem at_main_cst_0 (V : Valuation τ sig (Elt F)) :
    after (ops (F := F)) V (Proc.devRef .tc main_cst_0) = ReadP.val_main_cst_0 (F := F) := by
  refine (after_at ops wr ops_writes V 2 _ rfl main_cst_0 (by decide)).trans ?_
  refine (nullary_result _ _ _ _).trans ?_
  rfl

set_option maxRecDepth 8192 in
theorem at_main_v1 (V : Valuation τ sig (Elt F)) :
    after (ops (F := F)) V (Proc.devRef .tc main_v1) = ReadP.val_main_v1 (F := F) := by
  refine (after_at ops wr ops_writes V 3 _ rfl main_v1 (by decide)).trans ?_
  refine (unary_result _ _ _ _ _ _).trans ?_
  rw [← after_stable ops wr ops_writes V 3 main_cst_0 (by decide), at_main_cst_0 V]
  rfl

set_option maxRecDepth 8192 in
theorem at_main_v2 (V : Valuation τ sig (Elt F)) :
    after (ops (F := F)) V (Proc.devRef .tc main_v2) = ReadP.val_main_v2 (F := F) (V (Proc.devRef .tc main_arg0)) := by
  refine (after_at ops wr ops_writes V 4 _ rfl main_v2 (by decide)).trans ?_
  refine (binary_result _ _ _ _ _ _ _ _).trans ?_
  rw [← after_stable ops wr ops_writes V 4 main_v1 (by decide), at_main_v1 V,
    ← after_stable ops wr ops_writes V 4 main_v0 (by decide), at_main_v0 V]
  rfl

set_option maxRecDepth 8192 in
theorem at_main_v3 (V : Valuation τ sig (Elt F)) :
    after (ops (F := F)) V (Proc.devRef .tc main_v3) = ReadP.val_main_v3 (F := F) (V (Proc.devRef .tc main_arg0)) := by
  refine (after_at ops wr ops_writes V 5 _ rfl main_v3 (by decide)).trans ?_
  refine (unary_result _ _ _ _ _ _).trans ?_
  rw [← after_stable ops wr ops_writes V 5 main_v2 (by decide), at_main_v2 V]
  rfl

set_option maxRecDepth 8192 in
theorem at_main_v4 (V : Valuation τ sig (Elt F)) :
    after (ops (F := F)) V (Proc.devRef .tc main_v4) = ReadP.val_main_v4 (F := F) (V (Proc.devRef .tc main_arg0)) := by
  refine (after_at ops wr ops_writes V 6 _ rfl main_v4 (by decide)).trans ?_
  refine (unary_result _ _ _ _ _ _).trans ?_
  rw [← after_stable ops wr ops_writes V 6 main_v3 (by decide), at_main_v3 V]
  rfl

set_option maxRecDepth 8192 in
theorem at_main_v5 (V : Valuation τ sig (Elt F)) :
    after (ops (F := F)) V (Proc.devRef .tc main_v5) = ReadP.val_main_v5 (F := F) (V (Proc.devRef .tc main_arg0)) := by
  refine (after_at ops wr ops_writes V 7 _ rfl main_v5 (by decide)).trans ?_
  refine (binary_result _ _ _ _ _ _ _ _).trans ?_
  rw [← after_stable ops wr ops_writes V 7 main_arg0 (by decide), at_main_arg0 V,
    ← after_stable ops wr ops_writes V 7 main_v4 (by decide), at_main_v4 V]
  rfl

set_option maxRecDepth 8192 in
theorem at_main_v6 (V : Valuation τ sig (Elt F)) :
    after (ops (F := F)) V (Proc.devRef .tc main_v6) = ReadP.val_main_v6 (F := F) (V (Proc.devRef .tc main_arg0)) := by
  refine (after_at ops wr ops_writes V 8 _ rfl main_v6 (by decide)).trans ?_
  refine (unary_result _ _ _ _ _ _).trans ?_
  rw [← after_stable ops wr ops_writes V 8 main_v5 (by decide), at_main_v5 V]
  rfl

set_option maxRecDepth 8192 in
theorem at_main_cst_1 (V : Valuation τ sig (Elt F)) :
    after (ops (F := F)) V (Proc.devRef .tc main_cst_1) = ReadP.val_main_cst_1 (F := F) := by
  refine (after_at ops wr ops_writes V 9 _ rfl main_cst_1 (by decide)).trans ?_
  refine (nullary_result _ _ _ _).trans ?_
  rfl

set_option maxRecDepth 8192 in
theorem at_main_v7 (V : Valuation τ sig (Elt F)) :
    after (ops (F := F)) V (Proc.devRef .tc main_v7) = ReadP.val_main_v7 (F := F) (V (Proc.devRef .tc main_arg0)) := by
  refine (after_at ops wr ops_writes V 10 _ rfl main_v7 (by decide)).trans ?_
  refine (binary_result _ _ _ _ _ _ _ _).trans ?_
  rw [← after_stable ops wr ops_writes V 10 main_v6 (by decide), at_main_v6 V,
    ← after_stable ops wr ops_writes V 10 main_cst_1 (by decide), at_main_cst_1 V]
  rfl

set_option maxRecDepth 8192 in
theorem at_main_v8 (V : Valuation τ sig (Elt F)) :
    after (ops (F := F)) V (Proc.devRef .tc main_v8) = ReadP.val_main_v8 (F := F) (V (Proc.devRef .tc main_arg0)) := by
  refine (after_at ops wr ops_writes V 11 _ rfl main_v8 (by decide)).trans ?_
  refine (unary_result _ _ _ _ _ _).trans ?_
  rw [← after_stable ops wr ops_writes V 11 main_v7 (by decide), at_main_v7 V]
  rfl

set_option maxRecDepth 8192 in
theorem at_main_v9 (V : Valuation τ sig (Elt F)) :
    after (ops (F := F)) V (Proc.devRef .tc main_v9) = ReadP.val_main_v9 (F := F) (V (Proc.devRef .tc main_arg0)) := by
  refine (after_at ops wr ops_writes V 12 _ rfl main_v9 (by decide)).trans ?_
  refine (unary_result _ _ _ _ _ _).trans ?_
  rw [← after_stable ops wr ops_writes V 12 main_v8 (by decide), at_main_v8 V]
  rfl

set_option maxRecDepth 8192 in
theorem at_main_v10 (V : Valuation τ sig (Elt F)) :
    after (ops (F := F)) V (Proc.devRef .tc main_v10) = ReadP.val_main_v10 (F := F) (V (Proc.devRef .tc main_arg0)) := by
  refine (after_at ops wr ops_writes V 13 _ rfl main_v10 (by decide)).trans ?_
  refine (binary_result _ _ _ _ _ _ _ _).trans ?_
  rw [← after_stable ops wr ops_writes V 13 main_v6 (by decide), at_main_v6 V,
    ← after_stable ops wr ops_writes V 13 main_v9 (by decide), at_main_v9 V]
  rfl

set_option maxRecDepth 8192 in
theorem at_main_c (V : Valuation τ sig (Elt F)) :
    after (ops (F := F)) V (Proc.devRef .tc main_c) = ReadP.val_main_c (F := F) := by
  refine (after_at ops wr ops_writes V 14 _ rfl main_c (by decide)).trans ?_
  refine (nullary_result _ _ _ _).trans ?_
  rfl

set_option maxRecDepth 8192 in
theorem at_main_v11 (V : Valuation τ sig (Elt F)) :
    after (ops (F := F)) V (Proc.devRef .tc main_v11) = ReadP.val_main_v11 (F := F) := by
  refine (after_at ops wr ops_writes V 15 _ rfl main_v11 (by decide)).trans ?_
  refine (unary_result _ _ _ _ _ _).trans ?_
  rw [← after_stable ops wr ops_writes V 15 main_c (by decide), at_main_c V]
  rfl

set_option maxRecDepth 8192 in
theorem at_main_v12 (V : Valuation τ sig (Elt F)) :
    after (ops (F := F)) V (Proc.devRef .tc main_v12) = ReadP.val_main_v12 (F := F) (V (Proc.devRef .tc main_arg1)) := by
  refine (after_at ops wr ops_writes V 16 _ rfl main_v12 (by decide)).trans ?_
  refine (binary_result _ _ _ _ _ _ _ _).trans ?_
  rw [← after_stable ops wr ops_writes V 16 main_arg1 (by decide), at_main_arg1 V,
    ← after_stable ops wr ops_writes V 16 main_v11 (by decide), at_main_v11 V]
  rfl

set_option maxRecDepth 8192 in
theorem at_main_v13 (V : Valuation τ sig (Elt F)) :
    after (ops (F := F)) V (Proc.devRef .tc main_v13) = ReadP.val_main_v13 (F := F) (V (Proc.devRef .tc main_arg1)) := by
  refine (after_at ops wr ops_writes V 17 _ rfl main_v13 (by decide)).trans ?_
  refine (unary_result _ _ _ _ _ _).trans ?_
  rw [← after_stable ops wr ops_writes V 17 main_v12 (by decide), at_main_v12 V]
  rfl

set_option maxRecDepth 8192 in
theorem at_main_v14 (V : Valuation τ sig (Elt F)) :
    after (ops (F := F)) V (Proc.devRef .tc main_v14) = ReadP.val_main_v14 (F := F) (V (Proc.devRef .tc main_arg1)) := by
  refine (after_at ops wr ops_writes V 18 _ rfl main_v14 (by decide)).trans ?_
  refine (unary_result _ _ _ _ _ _).trans ?_
  rw [← after_stable ops wr ops_writes V 18 main_v12 (by decide), at_main_v12 V]
  rfl

set_option maxRecDepth 8192 in
theorem at_main_v15 (V : Valuation τ sig (Elt F)) :
    after (ops (F := F)) V (Proc.devRef .tc main_v15) = ReadP.val_main_v15 (F := F) (V (Proc.devRef .tc main_arg1)) := by
  refine (after_at ops wr ops_writes V 19 _ rfl main_v15 (by decide)).trans ?_
  refine (unary_result _ _ _ _ _ _).trans ?_
  rw [← after_stable ops wr ops_writes V 19 main_v13 (by decide), at_main_v13 V]
  rfl

set_option maxRecDepth 8192 in
theorem at_main_cst_2 (V : Valuation τ sig (Elt F)) :
    after (ops (F := F)) V (Proc.devRef .tc main_cst_2) = ReadP.val_main_cst_2 (F := F) := by
  refine (after_at ops wr ops_writes V 20 _ rfl main_cst_2 (by decide)).trans ?_
  refine (nullary_result _ _ _ _).trans ?_
  rfl

set_option maxRecDepth 8192 in
theorem at_main_v16 (V : Valuation τ sig (Elt F)) :
    after (ops (F := F)) V (Proc.devRef .tc main_v16) = ReadP.val_main_v16 (F := F) (V (Proc.devRef .tc main_arg1)) := by
  refine (after_at ops wr ops_writes V 21 _ rfl main_v16 (by decide)).trans ?_
  refine (binary_result _ _ _ _ _ _ _ _).trans ?_
  rw [← after_stable ops wr ops_writes V 21 main_v14 (by decide), at_main_v14 V,
    ← after_stable ops wr ops_writes V 21 main_cst_2 (by decide), at_main_cst_2 V]
  rfl

set_option maxRecDepth 8192 in
theorem at_main_cst_3 (V : Valuation τ sig (Elt F)) :
    after (ops (F := F)) V (Proc.devRef .tc main_cst_3) = ReadP.val_main_cst_3 (F := F) := by
  refine (after_at ops wr ops_writes V 22 _ rfl main_cst_3 (by decide)).trans ?_
  refine (nullary_result _ _ _ _).trans ?_
  rfl

set_option maxRecDepth 8192 in
theorem at_main_v17 (V : Valuation τ sig (Elt F)) :
    after (ops (F := F)) V (Proc.devRef .tc main_v17) = ReadP.val_main_v17 (F := F) (V (Proc.devRef .tc main_arg1)) := by
  refine (after_at ops wr ops_writes V 23 _ rfl main_v17 (by decide)).trans ?_
  refine (binary_result _ _ _ _ _ _ _ _).trans ?_
  rw [← after_stable ops wr ops_writes V 23 main_cst_3 (by decide), at_main_cst_3 V,
    ← after_stable ops wr ops_writes V 23 main_v16 (by decide), at_main_v16 V]
  rfl

set_option maxRecDepth 8192 in
theorem at_main_cst_4 (V : Valuation τ sig (Elt F)) :
    after (ops (F := F)) V (Proc.devRef .tc main_cst_4) = ReadP.val_main_cst_4 (F := F) := by
  refine (after_at ops wr ops_writes V 24 _ rfl main_cst_4 (by decide)).trans ?_
  refine (nullary_result _ _ _ _).trans ?_
  rfl

set_option maxRecDepth 8192 in
theorem at_main_v18 (V : Valuation τ sig (Elt F)) :
    after (ops (F := F)) V (Proc.devRef .tc main_v18) = ReadP.val_main_v18 (F := F) (V (Proc.devRef .tc main_arg1)) := by
  refine (after_at ops wr ops_writes V 25 _ rfl main_v18 (by decide)).trans ?_
  refine (binary_result _ _ _ _ _ _ _ _).trans ?_
  rw [← after_stable ops wr ops_writes V 25 main_v15 (by decide), at_main_v15 V,
    ← after_stable ops wr ops_writes V 25 main_cst_4 (by decide), at_main_cst_4 V]
  rfl

set_option maxRecDepth 8192 in
theorem at_main_cst_5 (V : Valuation τ sig (Elt F)) :
    after (ops (F := F)) V (Proc.devRef .tc main_cst_5) = ReadP.val_main_cst_5 (F := F) := by
  refine (after_at ops wr ops_writes V 26 _ rfl main_cst_5 (by decide)).trans ?_
  refine (nullary_result _ _ _ _).trans ?_
  rfl

set_option maxRecDepth 8192 in
theorem at_main_v19 (V : Valuation τ sig (Elt F)) :
    after (ops (F := F)) V (Proc.devRef .tc main_v19) = ReadP.val_main_v19 (F := F) (V (Proc.devRef .tc main_arg1)) := by
  refine (after_at ops wr ops_writes V 27 _ rfl main_v19 (by decide)).trans ?_
  refine (binary_result _ _ _ _ _ _ _ _).trans ?_
  rw [← after_stable ops wr ops_writes V 27 main_cst_5 (by decide), at_main_cst_5 V,
    ← after_stable ops wr ops_writes V 27 main_v18 (by decide), at_main_v18 V]
  rfl

set_option maxRecDepth 8192 in
theorem at_main_cst_6 (V : Valuation τ sig (Elt F)) :
    after (ops (F := F)) V (Proc.devRef .tc main_cst_6) = ReadP.val_main_cst_6 (F := F) := by
  refine (after_at ops wr ops_writes V 28 _ rfl main_cst_6 (by decide)).trans ?_
  refine (nullary_result _ _ _ _).trans ?_
  rfl

set_option maxRecDepth 8192 in
theorem at_main_v20 (V : Valuation τ sig (Elt F)) :
    after (ops (F := F)) V (Proc.devRef .tc main_v20) = ReadP.val_main_v20 (F := F) := by
  refine (after_at ops wr ops_writes V 29 _ rfl main_v20 (by decide)).trans ?_
  refine (unary_result _ _ _ _ _ _).trans ?_
  rw [← after_stable ops wr ops_writes V 29 main_cst_6 (by decide), at_main_cst_6 V]
  rfl

set_option maxRecDepth 8192 in
theorem at_main_v21 (V : Valuation τ sig (Elt F)) :
    after (ops (F := F)) V (Proc.devRef .tc main_v21) = ReadP.val_main_v21 (F := F) (V (Proc.devRef .tc main_arg0)) := by
  refine (after_at ops wr ops_writes V 30 _ rfl main_v21 (by decide)).trans ?_
  refine (binary_result _ _ _ _ _ _ _ _).trans ?_
  rw [← after_stable ops wr ops_writes V 30 main_v20 (by decide), at_main_v20 V,
    ← after_stable ops wr ops_writes V 30 main_v10 (by decide), at_main_v10 V]
  rfl

set_option maxRecDepth 8192 in
theorem at_main_cst_7 (V : Valuation τ sig (Elt F)) :
    after (ops (F := F)) V (Proc.devRef .tc main_cst_7) = ReadP.val_main_cst_7 (F := F) := by
  refine (after_at ops wr ops_writes V 31 _ rfl main_cst_7 (by decide)).trans ?_
  refine (nullary_result _ _ _ _).trans ?_
  rfl

set_option maxRecDepth 8192 in
theorem at_main_v22 (V : Valuation τ sig (Elt F)) :
    after (ops (F := F)) V (Proc.devRef .tc main_v22) = ReadP.val_main_v22 (F := F) := by
  refine (after_at ops wr ops_writes V 32 _ rfl main_v22 (by decide)).trans ?_
  refine (unary_result _ _ _ _ _ _).trans ?_
  rw [← after_stable ops wr ops_writes V 32 main_cst_7 (by decide), at_main_cst_7 V]
  rfl

set_option maxRecDepth 8192 in
theorem at_main_v23 (V : Valuation τ sig (Elt F)) :
    after (ops (F := F)) V (Proc.devRef .tc main_v23) = ReadP.val_main_v23 (F := F) (V (Proc.devRef .tc main_arg0)) := by
  refine (after_at ops wr ops_writes V 33 _ rfl main_v23 (by decide)).trans ?_
  refine (binary_result _ _ _ _ _ _ _ _).trans ?_
  rw [← after_stable ops wr ops_writes V 33 main_v21 (by decide), at_main_v21 V,
    ← after_stable ops wr ops_writes V 33 main_v22 (by decide), at_main_v22 V]
  rfl

set_option maxRecDepth 8192 in
theorem at_main_v24 (V : Valuation τ sig (Elt F)) :
    after (ops (F := F)) V (Proc.devRef .tc main_v24) = ReadP.val_main_v24 (F := F) (V (Proc.devRef .tc main_arg0)) := by
  refine (after_at ops wr ops_writes V 34 _ rfl main_v24 (by decide)).trans ?_
  refine (unary_result _ _ _ _ _ _).trans ?_
  rw [← after_stable ops wr ops_writes V 34 main_v23 (by decide), at_main_v23 V]
  rfl

set_option maxRecDepth 8192 in
theorem at_main_v25 (V : Valuation τ sig (Elt F)) :
    after (ops (F := F)) V (Proc.devRef .tc main_v25) = ReadP.val_main_v25 (F := F) (V (Proc.devRef .tc main_arg0)) := by
  refine (after_at ops wr ops_writes V 35 _ rfl main_v25 (by decide)).trans ?_
  refine (unary_result _ _ _ _ _ _).trans ?_
  rw [← after_stable ops wr ops_writes V 35 main_v24 (by decide), at_main_v24 V]
  rfl

set_option maxRecDepth 8192 in
theorem at_main_v26 (V : Valuation τ sig (Elt F)) :
    after (ops (F := F)) V (Proc.devRef .tc main_v26) = ReadP.val_main_v26 (F := F) (V (Proc.devRef .tc main_arg1)) := by
  refine (after_at ops wr ops_writes V 36 _ rfl main_v26 (by decide)).trans ?_
  refine (unary_result _ _ _ _ _ _).trans ?_
  rw [← after_stable ops wr ops_writes V 36 main_v15 (by decide), at_main_v15 V]
  rfl

set_option maxRecDepth 8192 in
theorem at_main_v27 (V : Valuation τ sig (Elt F)) :
    after (ops (F := F)) V (Proc.devRef .tc main_v27) = ReadP.val_main_v27 (F := F) (V (Proc.devRef .tc main_arg1)) := by
  refine (after_at ops wr ops_writes V 37 _ rfl main_v27 (by decide)).trans ?_
  refine (unary_result _ _ _ _ _ _).trans ?_
  rw [← after_stable ops wr ops_writes V 37 main_v26 (by decide), at_main_v26 V]
  rfl

set_option maxRecDepth 8192 in
theorem at_main_v28 (V : Valuation τ sig (Elt F)) :
    after (ops (F := F)) V (Proc.devRef .tc main_v28) = ReadP.val_main_v28 (F := F) (V (Proc.devRef .tc main_arg0)) (V (Proc.devRef .tc main_arg1)) := by
  refine (after_at ops wr ops_writes V 38 _ rfl main_v28 (by decide)).trans ?_
  refine (binary_result _ _ _ _ _ _ _ _).trans ?_
  rw [← after_stable ops wr ops_writes V 38 main_v25 (by decide), at_main_v25 V,
    ← after_stable ops wr ops_writes V 38 main_v27 (by decide), at_main_v27 V]
  rfl

set_option maxRecDepth 8192 in
theorem at_main_cst_8 (V : Valuation τ sig (Elt F)) :
    after (ops (F := F)) V (Proc.devRef .tc main_cst_8) = ReadP.val_main_cst_8 (F := F) := by
  refine (after_at ops wr ops_writes V 39 _ rfl main_cst_8 (by decide)).trans ?_
  refine (nullary_result _ _ _ _).trans ?_
  rfl

set_option maxRecDepth 8192 in
theorem at_main_v29 (V : Valuation τ sig (Elt F)) :
    after (ops (F := F)) V (Proc.devRef .tc main_v29) = ReadP.val_main_v29 (F := F) (V (Proc.devRef .tc main_arg0)) (V (Proc.devRef .tc main_arg1)) := by
  refine (after_at ops wr ops_writes V 40 _ rfl main_v29 (by decide)).trans ?_
  refine (binary_result _ _ _ _ _ _ _ _).trans ?_
  rw [← after_stable ops wr ops_writes V 40 main_v28 (by decide), at_main_v28 V,
    ← after_stable ops wr ops_writes V 40 main_cst_8 (by decide), at_main_cst_8 V]
  rfl

set_option maxRecDepth 8192 in
theorem at_main_v30 (V : Valuation τ sig (Elt F)) :
    after (ops (F := F)) V (Proc.devRef .tc main_v30) = ReadP.val_main_v30 (F := F) (V (Proc.devRef .tc main_arg1)) := by
  refine (after_at ops wr ops_writes V 41 _ rfl main_v30 (by decide)).trans ?_
  refine (unary_result _ _ _ _ _ _).trans ?_
  rw [← after_stable ops wr ops_writes V 41 main_v14 (by decide), at_main_v14 V]
  rfl

set_option maxRecDepth 8192 in
theorem at_main_v31 (V : Valuation τ sig (Elt F)) :
    after (ops (F := F)) V (Proc.devRef .tc main_v31) = ReadP.val_main_v31 (F := F) (V (Proc.devRef .tc main_arg1)) := by
  refine (after_at ops wr ops_writes V 42 _ rfl main_v31 (by decide)).trans ?_
  refine (unary_result _ _ _ _ _ _).trans ?_
  rw [← after_stable ops wr ops_writes V 42 main_v30 (by decide), at_main_v30 V]
  rfl

set_option maxRecDepth 8192 in
theorem at_main_v32 (V : Valuation τ sig (Elt F)) :
    after (ops (F := F)) V (Proc.devRef .tc main_v32) = ReadP.val_main_v32 (F := F) (V (Proc.devRef .tc main_arg0)) (V (Proc.devRef .tc main_arg1)) := by
  refine (after_at ops wr ops_writes V 43 _ rfl main_v32 (by decide)).trans ?_
  refine (binary_result _ _ _ _ _ _ _ _).trans ?_
  rw [← after_stable ops wr ops_writes V 43 main_v25 (by decide), at_main_v25 V,
    ← after_stable ops wr ops_writes V 43 main_v31 (by decide), at_main_v31 V]
  rfl

set_option maxRecDepth 8192 in
theorem at_main_cst_9 (V : Valuation τ sig (Elt F)) :
    after (ops (F := F)) V (Proc.devRef .tc main_cst_9) = ReadP.val_main_cst_9 (F := F) := by
  refine (after_at ops wr ops_writes V 44 _ rfl main_cst_9 (by decide)).trans ?_
  refine (nullary_result _ _ _ _).trans ?_
  rfl

set_option maxRecDepth 8192 in
theorem at_main_v33 (V : Valuation τ sig (Elt F)) :
    after (ops (F := F)) V (Proc.devRef .tc main_v33) = ReadP.val_main_v33 (F := F) (V (Proc.devRef .tc main_arg0)) (V (Proc.devRef .tc main_arg1)) := by
  refine (after_at ops wr ops_writes V 45 _ rfl main_v33 (by decide)).trans ?_
  refine (binary_result _ _ _ _ _ _ _ _).trans ?_
  rw [← after_stable ops wr ops_writes V 45 main_v32 (by decide), at_main_v32 V,
    ← after_stable ops wr ops_writes V 45 main_cst_9 (by decide), at_main_cst_9 V]
  rfl

set_option maxRecDepth 8192 in
theorem at_main_c_10 (V : Valuation τ sig (Elt F)) :
    after (ops (F := F)) V (Proc.devRef .tc main_c_10) = ReadP.val_main_c_10 (F := F) := by
  refine (after_at ops wr ops_writes V 46 _ rfl main_c_10 (by decide)).trans ?_
  refine (nullary_result _ _ _ _).trans ?_
  rfl

set_option maxRecDepth 8192 in
theorem at_main_v34 (V : Valuation τ sig (Elt F)) :
    after (ops (F := F)) V (Proc.devRef .tc main_v34) = ReadP.val_main_v34 (F := F) := by
  refine (after_at ops wr ops_writes V 47 _ rfl main_v34 (by decide)).trans ?_
  refine (unary_result _ _ _ _ _ _).trans ?_
  rw [← after_stable ops wr ops_writes V 47 main_c_10 (by decide), at_main_c_10 V]
  rfl

set_option maxRecDepth 8192 in
theorem at_main_c_11 (V : Valuation τ sig (Elt F)) :
    after (ops (F := F)) V (Proc.devRef .tc main_c_11) = ReadP.val_main_c_11 (F := F) := by
  refine (after_at ops wr ops_writes V 48 _ rfl main_c_11 (by decide)).trans ?_
  refine (nullary_result _ _ _ _).trans ?_
  rfl

set_option maxRecDepth 8192 in
theorem at_main_v35 (V : Valuation τ sig (Elt F)) :
    after (ops (F := F)) V (Proc.devRef .tc main_v35) = ReadP.val_main_v35 (F := F) := by
  refine (after_at ops wr ops_writes V 49 _ rfl main_v35 (by decide)).trans ?_
  refine (unary_result _ _ _ _ _ _).trans ?_
  rw [← after_stable ops wr ops_writes V 49 main_c_11 (by decide), at_main_c_11 V]
  rfl

set_option maxRecDepth 8192 in
theorem at_main_v36 (V : Valuation τ sig (Elt F)) :
    after (ops (F := F)) V (Proc.devRef .tc main_v36) = ReadP.val_main_v36 (F := F) (V (Proc.devRef .tc main_arg3)) := by
  refine (after_at ops wr ops_writes V 50 _ rfl main_v36 (by decide)).trans ?_
  refine (binary_result _ _ _ _ _ _ _ _).trans ?_
  rw [← after_stable ops wr ops_writes V 50 main_arg3 (by decide), at_main_arg3 V,
    ← after_stable ops wr ops_writes V 50 main_v35 (by decide), at_main_v35 V]
  rfl

set_option maxRecDepth 8192 in
theorem at_main_c_12 (V : Valuation τ sig (Elt F)) :
    after (ops (F := F)) V (Proc.devRef .tc main_c_12) = ReadP.val_main_c_12 (F := F) := by
  refine (after_at ops wr ops_writes V 51 _ rfl main_c_12 (by decide)).trans ?_
  refine (nullary_result _ _ _ _).trans ?_
  rfl

set_option maxRecDepth 8192 in
theorem at_main_v37 (V : Valuation τ sig (Elt F)) :
    after (ops (F := F)) V (Proc.devRef .tc main_v37) = ReadP.val_main_v37 (F := F) := by
  refine (after_at ops wr ops_writes V 52 _ rfl main_v37 (by decide)).trans ?_
  refine (unary_result _ _ _ _ _ _).trans ?_
  rw [← after_stable ops wr ops_writes V 52 main_c_12 (by decide), at_main_c_12 V]
  rfl

set_option maxRecDepth 8192 in
theorem at_main_v38 (V : Valuation τ sig (Elt F)) :
    after (ops (F := F)) V (Proc.devRef .tc main_v38) = ReadP.val_main_v38 (F := F) (V (Proc.devRef .tc main_arg3)) := by
  refine (after_at ops wr ops_writes V 53 _ rfl main_v38 (by decide)).trans ?_
  refine (binary_result _ _ _ _ _ _ _ _).trans ?_
  rw [← after_stable ops wr ops_writes V 53 main_arg3 (by decide), at_main_arg3 V,
    ← after_stable ops wr ops_writes V 53 main_v37 (by decide), at_main_v37 V]
  rfl

set_option maxRecDepth 8192 in
theorem at_main_v39 (V : Valuation τ sig (Elt F)) :
    after (ops (F := F)) V (Proc.devRef .tc main_v39) = ReadP.val_main_v39 (F := F) (V (Proc.devRef .tc main_arg3)) := by
  refine (after_at ops wr ops_writes V 54 _ rfl main_v39 (by decide)).trans ?_
  refine (ternary_result _ _ _ _ _ _ _ _ _ _).trans ?_
  rw [← after_stable ops wr ops_writes V 54 main_v36 (by decide), at_main_v36 V,
    ← after_stable ops wr ops_writes V 54 main_v38 (by decide), at_main_v38 V,
    ← after_stable ops wr ops_writes V 54 main_arg3 (by decide), at_main_arg3 V]
  rfl

set_option maxRecDepth 8192 in
theorem at_main_v40 (V : Valuation τ sig (Elt F)) :
    after (ops (F := F)) V (Proc.devRef .tc main_v40) = ReadP.val_main_v40 (F := F) (V (Proc.devRef .tc main_arg3)) := by
  refine (after_at ops wr ops_writes V 55 _ rfl main_v40 (by decide)).trans ?_
  refine (unary_result _ _ _ _ _ _).trans ?_
  rw [← after_stable ops wr ops_writes V 55 main_v39 (by decide), at_main_v39 V]
  rfl

set_option maxRecDepth 8192 in
theorem at_main_c_13 (V : Valuation τ sig (Elt F)) :
    after (ops (F := F)) V (Proc.devRef .tc main_c_13) = ReadP.val_main_c_13 (F := F) := by
  refine (after_at ops wr ops_writes V 56 _ rfl main_c_13 (by decide)).trans ?_
  refine (nullary_result _ _ _ _).trans ?_
  rfl

set_option maxRecDepth 8192 in
theorem at_main_v41 (V : Valuation τ sig (Elt F)) :
    after (ops (F := F)) V (Proc.devRef .tc main_v41) = ReadP.val_main_v41 (F := F) := by
  refine (after_at ops wr ops_writes V 57 _ rfl main_v41 (by decide)).trans ?_
  refine (unary_result _ _ _ _ _ _).trans ?_
  rw [← after_stable ops wr ops_writes V 57 main_c_13 (by decide), at_main_c_13 V]
  rfl

set_option maxRecDepth 8192 in
theorem at_main_v42 (V : Valuation τ sig (Elt F)) :
    after (ops (F := F)) V (Proc.devRef .tc main_v42) = ReadP.val_main_v42 (F := F) (V (Proc.devRef .tc main_arg3)) := by
  refine (after_at ops wr ops_writes V 58 _ rfl main_v42 (by decide)).trans ?_
  refine (ternary_result _ _ _ _ _ _ _ _ _ _).trans ?_
  rw [← after_stable ops wr ops_writes V 58 main_v34 (by decide), at_main_v34 V,
    ← after_stable ops wr ops_writes V 58 main_v40 (by decide), at_main_v40 V,
    ← after_stable ops wr ops_writes V 58 main_v41 (by decide), at_main_v41 V]
  rfl

set_option maxRecDepth 8192 in
theorem at_main_cst_14 (V : Valuation τ sig (Elt F)) :
    after (ops (F := F)) V (Proc.devRef .tc main_cst_14) = ReadP.val_main_cst_14 (F := F) := by
  refine (after_at ops wr ops_writes V 59 _ rfl main_cst_14 (by decide)).trans ?_
  refine (nullary_result _ _ _ _).trans ?_
  rfl

set_option maxRecDepth 8192 in
theorem at_main_call0_v0 (V : Valuation τ sig (Elt F)) :
    after (ops (F := F)) V (Proc.devRef .tc main_call0_v0) = ReadP.val_main_call0_v0 (F := F) := by
  refine (after_at ops wr ops_writes V 60 _ rfl main_call0_v0 (by decide)).trans ?_
  refine (unary_result _ _ _ _ _ _).trans ?_
  dsimp only
  rw [← after_stable ops wr ops_writes V 60 main_cst_14 (by decide), at_main_cst_14 V]
  refine (cast_eq _ _).trans ?_
  unfold TRef.ofBuf
  rw [cast_eq]
  rfl

set_option maxRecDepth 8192 in
theorem at_main_call0_v1 (V : Valuation τ sig (Elt F)) :
    after (ops (F := F)) V (Proc.devRef .tc main_call0_v1) = ReadP.val_main_call0_v1 (F := F) := by
  refine (after_at ops wr ops_writes V 61 _ rfl main_call0_v1 (by decide)).trans ?_
  refine (unary_result _ _ _ _ _ _).trans ?_
  dsimp only
  rw [← after_stable ops wr ops_writes V 61 main_call0_v0 (by decide), at_main_call0_v0 V]
  refine (cast_eq _ _).trans ?_
  unfold TRef.ofBuf
  rw [cast_eq]
  rfl

set_option maxRecDepth 8192 in
theorem at_main_v43 (V : Valuation τ sig (Elt F)) :
    after (ops (F := F)) V (Proc.devRef .tc main_v43) = ReadP.val_main_v43 (F := F) (V (Proc.devRef .tc main_arg0)) (V (Proc.devRef .tc main_arg1)) (V (Proc.devRef .tc main_arg3)) := by
  refine (after_at ops wr ops_writes V 62 _ rfl main_v43 (by decide)).trans ?_
  refine (ternary_result _ _ _ _ _ _ _ _ _ _).trans ?_
  dsimp only
  rw [← after_stable ops wr ops_writes V 62 main_v42 (by decide), at_main_v42 V,
    ← after_stable ops wr ops_writes V 62 main_v29 (by decide), at_main_v29 V,
    ← after_stable ops wr ops_writes V 62 main_call0_v1 (by decide), at_main_call0_v1 V]
  refine (cast_eq _ _).trans ?_
  unfold TRef.ofBuf
  rw [cast_eq, cast_eq, cast_eq]
  rfl

set_option maxRecDepth 8192 in
theorem at_main_cst_15 (V : Valuation τ sig (Elt F)) :
    after (ops (F := F)) V (Proc.devRef .tc main_cst_15) = ReadP.val_main_cst_15 (F := F) := by
  refine (after_at ops wr ops_writes V 63 _ rfl main_cst_15 (by decide)).trans ?_
  refine (nullary_result _ _ _ _).trans ?_
  rfl

set_option maxRecDepth 8192 in
theorem at_main_v44 (V : Valuation τ sig (Elt F)) :
    after (ops (F := F)) V (Proc.devRef .tc main_v44) = ReadP.val_main_v44 (F := F) (V (Proc.devRef .tc main_arg0)) (V (Proc.devRef .tc main_arg1)) (V (Proc.devRef .tc main_arg3)) := by
  refine (after_at ops wr ops_writes V 64 _ rfl main_v44 (by decide)).trans ?_
  refine (binary_result _ _ _ _ _ _ _ _).trans ?_
  rw [← after_stable ops wr ops_writes V 64 main_v43 (by decide), at_main_v43 V,
    ← after_stable ops wr ops_writes V 64 main_cst_15 (by decide), at_main_cst_15 V]
  rfl

set_option maxRecDepth 8192 in
theorem at_main_v45 (V : Valuation τ sig (Elt F)) :
    after (ops (F := F)) V (Proc.devRef .tc main_v45) = ReadP.val_main_v45 (F := F) (V (Proc.devRef .tc main_arg0)) (V (Proc.devRef .tc main_arg1)) (V (Proc.devRef .tc main_arg3)) := by
  refine (after_at ops wr ops_writes V 65 _ rfl main_v45 (by decide)).trans ?_
  refine (binary_result _ _ _ _ _ _ _ _).trans ?_
  rw [← after_stable ops wr ops_writes V 65 main_v44 (by decide), at_main_v44 V,
    ← after_stable ops wr ops_writes V 65 main_v19 (by decide), at_main_v19 V]
  rfl

set_option maxRecDepth 8192 in
theorem at_main_cst_16 (V : Valuation τ sig (Elt F)) :
    after (ops (F := F)) V (Proc.devRef .tc main_cst_16) = ReadP.val_main_cst_16 (F := F) := by
  refine (after_at ops wr ops_writes V 66 _ rfl main_cst_16 (by decide)).trans ?_
  refine (nullary_result _ _ _ _).trans ?_
  rfl

set_option maxRecDepth 8192 in
theorem at_main_v46 (V : Valuation τ sig (Elt F)) :
    after (ops (F := F)) V (Proc.devRef .tc main_v46) = ReadP.val_main_v46 (F := F) (V (Proc.devRef .tc main_arg0)) (V (Proc.devRef .tc main_arg1)) (V (Proc.devRef .tc main_arg3)) := by
  refine (after_at ops wr ops_writes V 67 _ rfl main_v46 (by decide)).trans ?_
  refine (binary_result _ _ _ _ _ _ _ _).trans ?_
  rw [← after_stable ops wr ops_writes V 67 main_v45 (by decide), at_main_v45 V,
    ← after_stable ops wr ops_writes V 67 main_cst_16 (by decide), at_main_cst_16 V]
  rfl

set_option maxRecDepth 8192 in
theorem at_main_cst_17 (V : Valuation τ sig (Elt F)) :
    after (ops (F := F)) V (Proc.devRef .tc main_cst_17) = ReadP.val_main_cst_17 (F := F) := by
  refine (after_at ops wr ops_writes V 68 _ rfl main_cst_17 (by decide)).trans ?_
  refine (nullary_result _ _ _ _).trans ?_
  rfl

set_option maxRecDepth 8192 in
theorem at_main_call1_v0 (V : Valuation τ sig (Elt F)) :
    after (ops (F := F)) V (Proc.devRef .tc main_call1_v0) = ReadP.val_main_call1_v0 (F := F) := by
  refine (after_at ops wr ops_writes V 69 _ rfl main_call1_v0 (by decide)).trans ?_
  refine (unary_result _ _ _ _ _ _).trans ?_
  dsimp only
  rw [← after_stable ops wr ops_writes V 69 main_cst_17 (by decide), at_main_cst_17 V]
  refine (cast_eq _ _).trans ?_
  unfold TRef.ofBuf
  rw [cast_eq]
  rfl

set_option maxRecDepth 8192 in
theorem at_main_call1_v1 (V : Valuation τ sig (Elt F)) :
    after (ops (F := F)) V (Proc.devRef .tc main_call1_v1) = ReadP.val_main_call1_v1 (F := F) := by
  refine (after_at ops wr ops_writes V 70 _ rfl main_call1_v1 (by decide)).trans ?_
  refine (unary_result _ _ _ _ _ _).trans ?_
  dsimp only
  rw [← after_stable ops wr ops_writes V 70 main_call1_v0 (by decide), at_main_call1_v0 V]
  refine (cast_eq _ _).trans ?_
  unfold TRef.ofBuf
  rw [cast_eq]
  rfl

set_option maxRecDepth 8192 in
theorem at_main_v47 (V : Valuation τ sig (Elt F)) :
    after (ops (F := F)) V (Proc.devRef .tc main_v47) = ReadP.val_main_v47 (F := F) (V (Proc.devRef .tc main_arg0)) (V (Proc.devRef .tc main_arg1)) (V (Proc.devRef .tc main_arg3)) := by
  refine (after_at ops wr ops_writes V 71 _ rfl main_v47 (by decide)).trans ?_
  refine (ternary_result _ _ _ _ _ _ _ _ _ _).trans ?_
  dsimp only
  rw [← after_stable ops wr ops_writes V 71 main_v42 (by decide), at_main_v42 V,
    ← after_stable ops wr ops_writes V 71 main_call1_v1 (by decide), at_main_call1_v1 V,
    ← after_stable ops wr ops_writes V 71 main_v33 (by decide), at_main_v33 V]
  refine (cast_eq _ _).trans ?_
  unfold TRef.ofBuf
  rw [cast_eq, cast_eq, cast_eq]
  rfl

set_option maxRecDepth 8192 in
theorem at_main_cst_18 (V : Valuation τ sig (Elt F)) :
    after (ops (F := F)) V (Proc.devRef .tc main_cst_18) = ReadP.val_main_cst_18 (F := F) := by
  refine (after_at ops wr ops_writes V 72 _ rfl main_cst_18 (by decide)).trans ?_
  refine (nullary_result _ _ _ _).trans ?_
  rfl

set_option maxRecDepth 8192 in
theorem at_main_v48 (V : Valuation τ sig (Elt F)) :
    after (ops (F := F)) V (Proc.devRef .tc main_v48) = ReadP.val_main_v48 (F := F) (V (Proc.devRef .tc main_arg0)) (V (Proc.devRef .tc main_arg1)) (V (Proc.devRef .tc main_arg3)) := by
  refine (after_at ops wr ops_writes V 73 _ rfl main_v48 (by decide)).trans ?_
  refine (binary_result _ _ _ _ _ _ _ _).trans ?_
  rw [← after_stable ops wr ops_writes V 73 main_v47 (by decide), at_main_v47 V,
    ← after_stable ops wr ops_writes V 73 main_cst_18 (by decide), at_main_cst_18 V]
  rfl

set_option maxRecDepth 8192 in
theorem at_main_v49 (V : Valuation τ sig (Elt F)) :
    after (ops (F := F)) V (Proc.devRef .tc main_v49) = ReadP.val_main_v49 (F := F) (V (Proc.devRef .tc main_arg3)) := by
  refine (after_at ops wr ops_writes V 74 _ rfl main_v49 (by decide)).trans ?_
  refine (unary_result _ _ _ _ _ _).trans ?_
  rw [← after_stable ops wr ops_writes V 74 main_arg3 (by decide), at_main_arg3 V]
  rfl

set_option maxRecDepth 8192 in
theorem at_main_v50 (V : Valuation τ sig (Elt F)) :
    after (ops (F := F)) V (Proc.devRef .tc main_v50) = ReadP.val_main_v50 (F := F) (V (Proc.devRef .tc main_arg3)) := by
  refine (after_at ops wr ops_writes V 75 _ rfl main_v50 (by decide)).trans ?_
  refine (reshape_result _ _ _ _ _ _ _).trans ?_
  rw [← after_stable ops wr ops_writes V 75 main_v49 (by decide), at_main_v49 V]
  rfl

set_option maxRecDepth 8192 in
theorem at_main_c_19 (V : Valuation τ sig (Elt F)) :
    after (ops (F := F)) V (Proc.devRef .tc main_c_19) = ReadP.val_main_c_19 (F := F) := by
  refine (after_at ops wr ops_writes V 76 _ rfl main_c_19 (by decide)).trans ?_
  refine (nullary_result _ _ _ _).trans ?_
  rfl

set_option maxRecDepth 8192 in
theorem at_main_v51 (V : Valuation τ sig (Elt F)) :
    after (ops (F := F)) V (Proc.devRef .tc main_v51) = ReadP.val_main_v51 (F := F) (V (Proc.devRef .tc main_arg3)) := by
  refine (after_at ops wr ops_writes V 77 _ rfl main_v51 (by decide)).trans ?_
  refine (binary_result _ _ _ _ _ _ _ _).trans ?_
  rw [← after_stable ops wr ops_writes V 77 main_v50 (by decide), at_main_v50 V,
    ← after_stable ops wr ops_writes V 77 main_c_19 (by decide), at_main_c_19 V]
  rfl

set_option maxRecDepth 8192 in
theorem at_main_c_20 (V : Valuation τ sig (Elt F)) :
    after (ops (F := F)) V (Proc.devRef .tc main_c_20) = ReadP.val_main_c_20 (F := F) := by
  refine (after_at ops wr ops_writes V 78 _ rfl main_c_20 (by decide)).trans ?_
  refine (nullary_result _ _ _ _).trans ?_
  rfl

set_option maxRecDepth 8192 in
theorem at_main_v52 (V : Valuation τ sig (Elt F)) :
    after (ops (F := F)) V (Proc.devRef .tc main_v52) = ReadP.val_main_v52 (F := F) (V (Proc.devRef .tc main_arg3)) := by
  refine (after_at ops wr ops_writes V 79 _ rfl main_v52 (by decide)).trans ?_
  refine (binary_result _ _ _ _ _ _ _ _).trans ?_
  rw [← after_stable ops wr ops_writes V 79 main_v50 (by decide), at_main_v50 V,
    ← after_stable ops wr ops_writes V 79 main_c_20 (by decide), at_main_c_20 V]
  rfl

set_option maxRecDepth 8192 in
theorem at_main_v53 (V : Valuation τ sig (Elt F)) :
    after (ops (F := F)) V (Proc.devRef .tc main_v53) = ReadP.val_main_v53 (F := F) (V (Proc.devRef .tc main_arg3)) := by
  refine (after_at ops wr ops_writes V 80 _ rfl main_v53 (by decide)).trans ?_
  refine (ternary_result _ _ _ _ _ _ _ _ _ _).trans ?_
  rw [← after_stable ops wr ops_writes V 80 main_v51 (by decide), at_main_v51 V,
    ← after_stable ops wr ops_writes V 80 main_v52 (by decide), at_main_v52 V,
    ← after_stable ops wr ops_writes V 80 main_v50 (by decide), at_main_v50 V]
  rfl

set_option maxRecDepth 8192 in
theorem at_main_v54 (V : Valuation τ sig (Elt F)) :
    after (ops (F := F)) V (Proc.devRef .tc main_v54) = ReadP.val_main_v54 (F := F) (V (Proc.devRef .tc main_arg2)) (V (Proc.devRef .tc main_arg3)) := by
  refine (after_at ops wr ops_writes V 81 _ rfl main_v54 (by decide)).trans ?_
  refine (unaryIndexed_result _ _ _ _ _ _ _ _ _ _).trans ?_
  have h2 := (after_stable ops wr ops_writes V 81 main_arg2 (by decide)).symm.trans (at_main_arg2 V)
  have h53 := (after_stable ops wr ops_writes V 81 main_v53 (by decide)).symm.trans (at_main_v53 V)
  unfold ReadP.val_main_v54
  show Host.dynamicSlice S1 (after (List.take 81 ops) V (Proc.devRef .tc main_arg2)) _ sliceFits_S128_S1 = _
  rw [h2]
  congr 1
  funext k
  fin_cases k
  exact congrArg (fun (w : (⟨S_, .i32⟩ : BufTy).Contents (Elt F)) => (w (Shape.Idx.first h_S_)).toInt) h53

set_option maxRecDepth 8192 in
theorem at_main_v55 (V : Valuation τ sig (Elt F)) :
    after (ops (F := F)) V (Proc.devRef .tc main_v55) = ReadP.val_main_v55 (F := F) (V (Proc.devRef .tc main_arg2)) (V (Proc.devRef .tc main_arg3)) := by
  refine (after_at ops wr ops_writes V 82 _ rfl main_v55 (by decide)).trans ?_
  refine (reshape_result _ _ _ _ _ _ _).trans ?_
  rw [← after_stable ops wr ops_writes V 82 main_v54 (by decide), at_main_v54 V]
  rfl

set_option maxRecDepth 8192 in
theorem at_main_v56 (V : Valuation τ sig (Elt F)) :
    after (ops (F := F)) V (Proc.devRef .tc main_v56) = ReadP.val_main_v56 (F := F) (V (Proc.devRef .tc main_arg0)) (V (Proc.devRef .tc main_arg1)) (V (Proc.devRef .tc main_arg2)) (V (Proc.devRef .tc main_arg3)) := by
  refine (after_at ops wr ops_writes V 83 _ rfl main_v56 (by decide)).trans ?_
  refine (binary_result _ _ _ _ _ _ _ _).trans ?_
  rw [← after_stable ops wr ops_writes V 83 main_v48 (by decide), at_main_v48 V,
    ← after_stable ops wr ops_writes V 83 main_v55 (by decide), at_main_v55 V]
  rfl

set_option maxRecDepth 8192 in
theorem at_main_v57 (V : Valuation τ sig (Elt F)) :
    after (ops (F := F)) V (Proc.devRef .tc main_v57) = ReadP.val_main_v57 (F := F) (V (Proc.devRef .tc main_arg0)) (V (Proc.devRef .tc main_arg1)) (V (Proc.devRef .tc main_arg2)) (V (Proc.devRef .tc main_arg3)) := by
  refine (after_at ops wr ops_writes V 84 _ rfl main_v57 (by decide)).trans ?_
  refine (binary_result _ _ _ _ _ _ _ _).trans ?_
  rw [← after_stable ops wr ops_writes V 84 main_v56 (by decide), at_main_v56 V,
    ← after_stable ops wr ops_writes V 84 main_v17 (by decide), at_main_v17 V]
  rfl

set_option maxRecDepth 8192 in
theorem at_main_cst_21 (V : Valuation τ sig (Elt F)) :
    after (ops (F := F)) V (Proc.devRef .tc main_cst_21) = ReadP.val_main_cst_21 (F := F) := by
  refine (after_at ops wr ops_writes V 85 _ rfl main_cst_21 (by decide)).trans ?_
  refine (nullary_result _ _ _ _).trans ?_
  rfl

set_option maxRecDepth 8192 in
theorem at_main_v58 (V : Valuation τ sig (Elt F)) :
    after (ops (F := F)) V (Proc.devRef .tc main_v58) = ReadP.val_main_v58 (F := F) (V (Proc.devRef .tc main_arg0)) (V (Proc.devRef .tc main_arg1)) (V (Proc.devRef .tc main_arg2)) (V (Proc.devRef .tc main_arg3)) := by
  refine (after_at ops wr ops_writes V 86 _ rfl main_v58 (by decide)).trans ?_
  refine (binary_result _ _ _ _ _ _ _ _).trans ?_
  rw [← after_stable ops wr ops_writes V 86 main_v57 (by decide), at_main_v57 V,
    ← after_stable ops wr ops_writes V 86 main_cst_21 (by decide), at_main_cst_21 V]
  rfl

set_option maxRecDepth 8192 in
theorem at_main_c_22 (V : Valuation τ sig (Elt F)) :
    after (ops (F := F)) V (Proc.devRef .tc main_c_22) = ReadP.val_main_c_22 (F := F) := by
  refine (after_at ops wr ops_writes V 87 _ rfl main_c_22 (by decide)).trans ?_
  refine (nullary_result _ _ _ _).trans ?_
  rfl

set_option maxRecDepth 8192 in
theorem at_main_c_23 (V : Valuation τ sig (Elt F)) :
    after (ops (F := F)) V (Proc.devRef .tc main_c_23) = ReadP.val_main_c_23 (F := F) := by
  refine (after_at ops wr ops_writes V 88 _ rfl main_c_23 (by decide)).trans ?_
  refine (nullary_result _ _ _ _).trans ?_
  rfl

set_option maxRecDepth 8192 in
theorem at_main_call2_v0 (V : Valuation τ sig (Elt F)) :
    after (ops (F := F)) V (Proc.devRef .tc main_call2_v0) = ReadP.val_main_call2_v0 (F := F) := by
  refine (after_at ops wr ops_writes V 89 _ rfl main_call2_v0 (by decide)).trans ?_
  refine (unary_result _ _ _ _ _ _).trans ?_
  dsimp only
  rw [← after_stable ops wr ops_writes V 89 main_c_22 (by decide), at_main_c_22 V]
  refine (cast_eq _ _).trans ?_
  unfold TRef.ofBuf
  rw [cast_eq]
  rfl

set_option maxRecDepth 8192 in
theorem at_main_call2_v1 (V : Valuation τ sig (Elt F)) :
    after (ops (F := F)) V (Proc.devRef .tc main_call2_v1) = ReadP.val_main_call2_v1 (F := F) := by
  refine (after_at ops wr ops_writes V 90 _ rfl main_call2_v1 (by decide)).trans ?_
  refine (unary_result _ _ _ _ _ _).trans ?_
  dsimp only
  rw [← after_stable ops wr ops_writes V 90 main_call2_v0 (by decide), at_main_call2_v0 V]
  refine (cast_eq _ _).trans ?_
  unfold TRef.ofBuf
  rw [cast_eq]
  rfl

set_option maxRecDepth 8192 in
theorem at_main_call2_v2 (V : Valuation τ sig (Elt F)) :
    after (ops (F := F)) V (Proc.devRef .tc main_call2_v2) = ReadP.val_main_call2_v2 (F := F) (V (Proc.devRef .tc main_arg1)) := by
  refine (after_at ops wr ops_writes V 91 _ rfl main_call2_v2 (by decide)).trans ?_
  refine (binary_result _ _ _ _ _ _ _ _).trans ?_
  dsimp only
  rw [← after_stable ops wr ops_writes V 91 main_call2_v1 (by decide), at_main_call2_v1 V,
    ← after_stable ops wr ops_writes V 91 main_arg1 (by decide), at_main_arg1 V]
  refine (cast_eq _ _).trans ?_
  unfold TRef.ofBuf
  rw [cast_eq, cast_eq]
  rfl

set_option maxRecDepth 8192 in
theorem at_main_call2_v3 (V : Valuation τ sig (Elt F)) :
    after (ops (F := F)) V (Proc.devRef .tc main_call2_v3) = ReadP.val_main_call2_v3 (F := F) := by
  refine (after_at ops wr ops_writes V 92 _ rfl main_call2_v3 (by decide)).trans ?_
  refine (unary_result _ _ _ _ _ _).trans ?_
  dsimp only
  rw [← after_stable ops wr ops_writes V 92 main_c_23 (by decide), at_main_c_23 V]
  refine (cast_eq _ _).trans ?_
  unfold TRef.ofBuf
  rw [cast_eq]
  rfl

set_option maxRecDepth 8192 in
theorem at_main_call2_v4 (V : Valuation τ sig (Elt F)) :
    after (ops (F := F)) V (Proc.devRef .tc main_call2_v4) = ReadP.val_main_call2_v4 (F := F) := by
  refine (after_at ops wr ops_writes V 93 _ rfl main_call2_v4 (by decide)).trans ?_
  refine (unary_result _ _ _ _ _ _).trans ?_
  dsimp only
  rw [← after_stable ops wr ops_writes V 93 main_call2_v3 (by decide), at_main_call2_v3 V]
  refine (cast_eq _ _).trans ?_
  unfold TRef.ofBuf
  rw [cast_eq]
  rfl

set_option maxRecDepth 8192 in
theorem at_main_v59 (V : Valuation τ sig (Elt F)) :
    after (ops (F := F)) V (Proc.devRef .tc main_v59) = ReadP.val_main_v59 (F := F) (V (Proc.devRef .tc main_arg1)) := by
  refine (after_at ops wr ops_writes V 94 _ rfl main_v59 (by decide)).trans ?_
  refine (binary_result _ _ _ _ _ _ _ _).trans ?_
  dsimp only
  rw [← after_stable ops wr ops_writes V 94 main_call2_v4 (by decide), at_main_call2_v4 V,
    ← after_stable ops wr ops_writes V 94 main_call2_v2 (by decide), at_main_call2_v2 V]
  refine (cast_eq _ _).trans ?_
  unfold TRef.ofBuf
  rw [cast_eq, cast_eq]
  rfl

set_option maxRecDepth 8192 in
theorem at_main_v60 (V : Valuation τ sig (Elt F)) :
    after (ops (F := F)) V (Proc.devRef .tc main_v60) = ReadP.val_main_v60 (F := F) (V (Proc.devRef .tc main_arg1)) := by
  refine (after_at ops wr ops_writes V 95 _ rfl main_v60 (by decide)).trans ?_
  refine (unary_result _ _ _ _ _ _).trans ?_
  rw [← after_stable ops wr ops_writes V 95 main_v59 (by decide), at_main_v59 V]
  rfl

set_option maxRecDepth 8192 in
theorem at_main_call3_c (V : Valuation τ sig (Elt F)) :
    after (ops (F := F)) V (Proc.devRef .tc main_call3_c) = ReadP.val_main_call3_c (F := F) := by
  refine (after_at ops wr ops_writes V 96 _ rfl main_call3_c (by decide)).trans ?_
  refine (nullary_result _ _ _ _).trans ?_
  dsimp only
  rfl

set_option maxRecDepth 8192 in
theorem at_main_call3_v0 (V : Valuation τ sig (Elt F)) :
    after (ops (F := F)) V (Proc.devRef .tc main_call3_v0) = ReadP.val_main_call3_v0 (F := F) := by
  refine (after_at ops wr ops_writes V 97 _ rfl main_call3_v0 (by decide)).trans ?_
  refine (unary_result _ _ _ _ _ _).trans ?_
  dsimp only
  rw [← after_stable ops wr ops_writes V 97 main_call3_c (by decide), at_main_call3_c V]
  refine (cast_eq _ _).trans ?_
  unfold TRef.ofBuf
  rw [cast_eq]
  rfl

set_option maxRecDepth 8192 in
theorem at_main_call3_v1 (V : Valuation τ sig (Elt F)) :
    after (ops (F := F)) V (Proc.devRef .tc main_call3_v1) = ReadP.val_main_call3_v1 (F := F) (V (Proc.devRef .tc main_arg1)) := by
  refine (after_at ops wr ops_writes V 98 _ rfl main_call3_v1 (by decide)).trans ?_
  refine (binary_result _ _ _ _ _ _ _ _).trans ?_
  dsimp only
  rw [← after_stable ops wr ops_writes V 98 main_v60 (by decide), at_main_v60 V,
    ← after_stable ops wr ops_writes V 98 main_call3_v0 (by decide), at_main_call3_v0 V]
  refine (cast_eq _ _).trans ?_
  unfold TRef.ofBuf
  rw [cast_eq, cast_eq]
  rfl

set_option maxRecDepth 8192 in
theorem at_main_call3_c_0 (V : Valuation τ sig (Elt F)) :
    after (ops (F := F)) V (Proc.devRef .tc main_call3_c_0) = ReadP.val_main_call3_c_0 (F := F) := by
  refine (after_at ops wr ops_writes V 99 _ rfl main_call3_c_0 (by decide)).trans ?_
  refine (nullary_result _ _ _ _).trans ?_
  dsimp only
  rfl

set_option maxRecDepth 8192 in
theorem at_main_call3_v2 (V : Valuation τ sig (Elt F)) :
    after (ops (F := F)) V (Proc.devRef .tc main_call3_v2) = ReadP.val_main_call3_v2 (F := F) := by
  refine (after_at ops wr ops_writes V 100 _ rfl main_call3_v2 (by decide)).trans ?_
  refine (unary_result _ _ _ _ _ _).trans ?_
  dsimp only
  rw [← after_stable ops wr ops_writes V 100 main_call3_c_0 (by decide), at_main_call3_c_0 V]
  refine (cast_eq _ _).trans ?_
  unfold TRef.ofBuf
  rw [cast_eq]
  rfl

set_option maxRecDepth 8192 in
theorem at_main_call3_v3 (V : Valuation τ sig (Elt F)) :
    after (ops (F := F)) V (Proc.devRef .tc main_call3_v3) = ReadP.val_main_call3_v3 (F := F) (V (Proc.devRef .tc main_arg1)) := by
  refine (after_at ops wr ops_writes V 101 _ rfl main_call3_v3 (by decide)).trans ?_
  refine (binary_result _ _ _ _ _ _ _ _).trans ?_
  dsimp only
  rw [← after_stable ops wr ops_writes V 101 main_v60 (by decide), at_main_v60 V,
    ← after_stable ops wr ops_writes V 101 main_call3_v2 (by decide), at_main_call3_v2 V]
  refine (cast_eq _ _).trans ?_
  unfold TRef.ofBuf
  rw [cast_eq, cast_eq]
  rfl

set_option maxRecDepth 8192 in
theorem at_main_call3_v4 (V : Valuation τ sig (Elt F)) :
    after (ops (F := F)) V (Proc.devRef .tc main_call3_v4) = ReadP.val_main_call3_v4 (F := F) (V (Proc.devRef .tc main_arg1)) := by
  refine (after_at ops wr ops_writes V 102 _ rfl main_call3_v4 (by decide)).trans ?_
  refine (ternary_result _ _ _ _ _ _ _ _ _ _).trans ?_
  dsimp only
  rw [← after_stable ops wr ops_writes V 102 main_call3_v1 (by decide), at_main_call3_v1 V,
    ← after_stable ops wr ops_writes V 102 main_call3_v3 (by decide), at_main_call3_v3 V,
    ← after_stable ops wr ops_writes V 102 main_v60 (by decide), at_main_v60 V]
  refine (cast_eq _ _).trans ?_
  unfold TRef.ofBuf
  rw [cast_eq, cast_eq, cast_eq]
  rfl

set_option maxRecDepth 8192 in
theorem at_main_call3_v5 (V : Valuation τ sig (Elt F)) :
    after (ops (F := F)) V (Proc.devRef .tc main_call3_v5) = ReadP.val_main_call3_v5 (F := F) (V (Proc.devRef .tc main_arg1)) := by
  refine (after_at ops wr ops_writes V 103 _ rfl main_call3_v5 (by decide)).trans ?_
  refine (reshape_result _ _ _ _ _ _ _).trans ?_
  dsimp only
  rw [← after_stable ops wr ops_writes V 103 main_call3_v4 (by decide), at_main_call3_v4 V]
  rfl

set_option maxRecDepth 8192 in
theorem at_main_call3_c_1 (V : Valuation τ sig (Elt F)) :
    after (ops (F := F)) V (Proc.devRef .tc main_call3_c_1) = ReadP.val_main_call3_c_1 (F := F) := by
  refine (after_at ops wr ops_writes V 104 _ rfl main_call3_c_1 (by decide)).trans ?_
  refine (nullary_result _ _ _ _).trans ?_
  dsimp only
  rfl

set_option maxRecDepth 8192 in
theorem at_main_call3_c_2 (V : Valuation τ sig (Elt F)) :
    after (ops (F := F)) V (Proc.devRef .tc main_call3_c_2) = ReadP.val_main_call3_c_2 (F := F) := by
  refine (after_at ops wr ops_writes V 105 _ rfl main_call3_c_2 (by decide)).trans ?_
  refine (nullary_result _ _ _ _).trans ?_
  dsimp only
  rfl

set_option maxRecDepth 8192 in
theorem at_main_call3_v6 (V : Valuation τ sig (Elt F)) :
    after (ops (F := F)) V (Proc.devRef .tc main_call3_v6) = ReadP.val_main_call3_v6 (F := F) := by
  refine (after_at ops wr ops_writes V 106 _ rfl main_call3_v6 (by decide)).trans ?_
  refine (unary_result _ _ _ _ _ _).trans ?_
  dsimp only
  rw [← after_stable ops wr ops_writes V 106 main_call3_c_2 (by decide), at_main_call3_c_2 V]
  refine (cast_eq _ _).trans ?_
  unfold TRef.ofBuf
  rw [cast_eq]
  rfl

set_option maxRecDepth 8192 in
theorem at_main_call3_v7 (V : Valuation τ sig (Elt F)) :
    after (ops (F := F)) V (Proc.devRef .tc main_call3_v7) = ReadP.val_main_call3_v7 (F := F) (V (Proc.devRef .tc main_arg1)) := by
  refine (after_at ops wr ops_writes V 107 _ rfl main_call3_v7 (by decide)).trans ?_
  refine (binary_result _ _ _ _ _ _ _ _).trans ?_
  dsimp only
  rw [← after_stable ops wr ops_writes V 107 main_call3_v5 (by decide), at_main_call3_v5 V,
    ← after_stable ops wr ops_writes V 107 main_call3_v6 (by decide), at_main_call3_v6 V]
  refine (cast_eq _ _).trans ?_
  unfold TRef.ofBuf
  rw [cast_eq, cast_eq]
  rfl

set_option maxRecDepth 8192 in
theorem at_main_call3_v8 (V : Valuation τ sig (Elt F)) :
    after (ops (F := F)) V (Proc.devRef .tc main_call3_v8) = ReadP.val_main_call3_v8 (F := F) := by
  refine (after_at ops wr ops_writes V 108 _ rfl main_call3_v8 (by decide)).trans ?_
  refine (unary_result _ _ _ _ _ _).trans ?_
  dsimp only
  rw [← after_stable ops wr ops_writes V 108 main_call3_c_1 (by decide), at_main_call3_c_1 V]
  refine (cast_eq _ _).trans ?_
  unfold TRef.ofBuf
  rw [cast_eq]
  rfl

set_option maxRecDepth 8192 in
theorem at_main_call3_v9 (V : Valuation τ sig (Elt F)) :
    after (ops (F := F)) V (Proc.devRef .tc main_call3_v9) = ReadP.val_main_call3_v9 (F := F) := by
  refine (after_at ops wr ops_writes V 109 _ rfl main_call3_v9 (by decide)).trans ?_
  refine (unary_result _ _ _ _ _ _).trans ?_
  dsimp only
  rw [← after_stable ops wr ops_writes V 109 main_call3_v8 (by decide), at_main_call3_v8 V]
  refine (cast_eq _ _).trans ?_
  unfold TRef.ofBuf
  rw [cast_eq]
  rfl

set_option maxRecDepth 8192 in
theorem at_main_call3_v10 (V : Valuation τ sig (Elt F)) :
    after (ops (F := F)) V (Proc.devRef .tc main_call3_v10) = ReadP.val_main_call3_v10 (F := F) (V (Proc.devRef .tc main_arg1)) := by
  refine (after_at ops wr ops_writes V 110 _ rfl main_call3_v10 (by decide)).trans ?_
  refine (binary_result _ _ _ _ _ _ _ _).trans ?_
  dsimp only
  rw [← after_stable ops wr ops_writes V 110 main_call3_v5 (by decide), at_main_call3_v5 V,
    ← after_stable ops wr ops_writes V 110 main_call3_v9 (by decide), at_main_call3_v9 V]
  refine (cast_eq _ _).trans ?_
  unfold TRef.ofBuf
  rw [cast_eq, cast_eq]
  rfl

set_option maxRecDepth 8192 in
theorem at_main_call3_v11 (V : Valuation τ sig (Elt F)) :
    after (ops (F := F)) V (Proc.devRef .tc main_call3_v11) = ReadP.val_main_call3_v11 (F := F) (V (Proc.devRef .tc main_arg1)) := by
  refine (after_at ops wr ops_writes V 111 _ rfl main_call3_v11 (by decide)).trans ?_
  refine (binary_result _ _ _ _ _ _ _ _).trans ?_
  dsimp only
  rw [← after_stable ops wr ops_writes V 111 main_call3_v7 (by decide), at_main_call3_v7 V,
    ← after_stable ops wr ops_writes V 111 main_call3_v10 (by decide), at_main_call3_v10 V]
  refine (cast_eq _ _).trans ?_
  unfold TRef.ofBuf
  rw [cast_eq, cast_eq]
  rfl

set_option maxRecDepth 8192 in
theorem at_main_call3_c_3 (V : Valuation τ sig (Elt F)) :
    after (ops (F := F)) V (Proc.devRef .tc main_call3_c_3) = ReadP.val_main_call3_c_3 (F := F) := by
  refine (after_at ops wr ops_writes V 112 _ rfl main_call3_c_3 (by decide)).trans ?_
  refine (nullary_result _ _ _ _).trans ?_
  dsimp only
  rfl

set_option maxRecDepth 8192 in
theorem at_main_call3_v12 (V : Valuation τ sig (Elt F)) :
    after (ops (F := F)) V (Proc.devRef .tc main_call3_v12) = ReadP.val_main_call3_v12 (F := F) (V (Proc.devRef .tc main_arg1)) := by
  refine (after_at ops wr ops_writes V 113 _ rfl main_call3_v12 (by decide)).trans ?_
  refine (binary_result _ _ _ _ _ _ _ _).trans ?_
  dsimp only
  rw [← after_stable ops wr ops_writes V 113 main_call3_v11 (by decide), at_main_call3_v11 V,
    ← after_stable ops wr ops_writes V 113 main_call3_c_3 (by decide), at_main_call3_c_3 V]
  refine (cast_eq _ _).trans ?_
  unfold TRef.ofBuf
  rw [cast_eq, cast_eq]
  rfl

set_option maxRecDepth 8192 in
theorem at_main_call3_v13 (V : Valuation τ sig (Elt F)) :
    after (ops (F := F)) V (Proc.devRef .tc main_call3_v13) = ReadP.val_main_call3_v13 (F := F) (V (Proc.devRef .tc main_arg0)) (V (Proc.devRef .tc main_arg1)) := by
  refine (after_at ops wr ops_writes V 114 _ rfl main_call3_v13 (by decide)).trans ?_
  refine (binary_result _ _ _ _ _ _ _ _).trans ?_
  dsimp only
  rw [← after_stable ops wr ops_writes V 114 main_v25 (by decide), at_main_v25 V,
    ← after_stable ops wr ops_writes V 114 main_call3_v5 (by decide), at_main_call3_v5 V]
  refine (cast_eq _ _).trans ?_
  unfold TRef.ofBuf
  rw [cast_eq, cast_eq]
  rfl

set_option maxRecDepth 8192 in
theorem at_main_call3_cst (V : Valuation τ sig (Elt F)) :
    after (ops (F := F)) V (Proc.devRef .tc main_call3_cst) = ReadP.val_main_call3_cst (F := F) := by
  refine (after_at ops wr ops_writes V 115 _ rfl main_call3_cst (by decide)).trans ?_
  refine (nullary_result _ _ _ _).trans ?_
  dsimp only
  rfl

set_option maxRecDepth 8192 in
theorem at_main_call3_v14 (V : Valuation τ sig (Elt F)) :
    after (ops (F := F)) V (Proc.devRef .tc main_call3_v14) = ReadP.val_main_call3_v14 (F := F) := by
  refine (after_at ops wr ops_writes V 116 _ rfl main_call3_v14 (by decide)).trans ?_
  refine (unary_result _ _ _ _ _ _).trans ?_
  dsimp only
  rw [← after_stable ops wr ops_writes V 116 main_call3_cst (by decide), at_main_call3_cst V]
  refine (cast_eq _ _).trans ?_
  unfold TRef.ofBuf
  rw [cast_eq]
  rfl

set_option maxRecDepth 8192 in
theorem at_main_v61 (V : Valuation τ sig (Elt F)) :
    after (ops (F := F)) V (Proc.devRef .tc main_v61) = ReadP.val_main_v61 (F := F) (V (Proc.devRef .tc main_arg0)) (V (Proc.devRef .tc main_arg1)) := by
  refine (after_at ops wr ops_writes V 117 _ rfl main_v61 (by decide)).trans ?_
  refine (ternary_result _ _ _ _ _ _ _ _ _ _).trans ?_
  dsimp only
  rw [← after_stable ops wr ops_writes V 117 main_call3_v12 (by decide), at_main_call3_v12 V,
    ← after_stable ops wr ops_writes V 117 main_call3_v13 (by decide), at_main_call3_v13 V,
    ← after_stable ops wr ops_writes V 117 main_call3_v14 (by decide), at_main_call3_v14 V]
  refine (cast_eq _ _).trans ?_
  unfold TRef.ofBuf
  rw [cast_eq, cast_eq, cast_eq]
  rfl

set_option maxRecDepth 8192 in
theorem at_main_v62 (V : Valuation τ sig (Elt F)) :
    after (ops (F := F)) V (Proc.devRef .tc main_v62) = ReadP.val_main_v62 (F := F) (V (Proc.devRef .tc main_arg0)) (V (Proc.devRef .tc main_arg1)) := by
  refine (after_at ops wr ops_writes V 118 _ rfl main_v62 (by decide)).trans ?_
  refine (reshape_result _ _ _ _ _ _ _).trans ?_
  rw [← after_stable ops wr ops_writes V 118 main_v61 (by decide), at_main_v61 V]
  rfl

set_option maxRecDepth 8192 in
theorem at_main_c_24 (V : Valuation τ sig (Elt F)) :
    after (ops (F := F)) V (Proc.devRef .tc main_c_24) = ReadP.val_main_c_24 (F := F) := by
  refine (after_at ops wr ops_writes V 119 _ rfl main_c_24 (by decide)).trans ?_
  refine (nullary_result _ _ _ _).trans ?_
  rfl

set_option maxRecDepth 8192 in
theorem at_main_v63 (V : Valuation τ sig (Elt F)) :
    after (ops (F := F)) V (Proc.devRef .tc main_v63) = ReadP.val_main_v63 (F := F) := by
  refine (after_at ops wr ops_writes V 120 _ rfl main_v63 (by decide)).trans ?_
  refine (unary_result _ _ _ _ _ _).trans ?_
  rw [← after_stable ops wr ops_writes V 120 main_c_24 (by decide), at_main_c_24 V]
  rfl

set_option maxRecDepth 8192 in
theorem at_main_v64 (V : Valuation τ sig (Elt F)) :
    after (ops (F := F)) V (Proc.devRef .tc main_v64) = ReadP.val_main_v64 (F := F) (V (Proc.devRef .tc main_arg1)) := by
  refine (after_at ops wr ops_writes V 121 _ rfl main_v64 (by decide)).trans ?_
  refine (binary_result _ _ _ _ _ _ _ _).trans ?_
  rw [← after_stable ops wr ops_writes V 121 main_v59 (by decide), at_main_v59 V,
    ← after_stable ops wr ops_writes V 121 main_v63 (by decide), at_main_v63 V]
  rfl

set_option maxRecDepth 8192 in
theorem at_main_c_25 (V : Valuation τ sig (Elt F)) :
    after (ops (F := F)) V (Proc.devRef .tc main_c_25) = ReadP.val_main_c_25 (F := F) := by
  refine (after_at ops wr ops_writes V 122 _ rfl main_c_25 (by decide)).trans ?_
  refine (nullary_result _ _ _ _).trans ?_
  rfl

set_option maxRecDepth 8192 in
theorem at_main_v65 (V : Valuation τ sig (Elt F)) :
    after (ops (F := F)) V (Proc.devRef .tc main_v65) = ReadP.val_main_v65 (F := F) := by
  refine (after_at ops wr ops_writes V 123 _ rfl main_v65 (by decide)).trans ?_
  refine (unary_result _ _ _ _ _ _).trans ?_
  rw [← after_stable ops wr ops_writes V 123 main_c_25 (by decide), at_main_c_25 V]
  rfl

set_option maxRecDepth 8192 in
theorem at_main_v66 (V : Valuation τ sig (Elt F)) :
    after (ops (F := F)) V (Proc.devRef .tc main_v66) = ReadP.val_main_v66 (F := F) (V (Proc.devRef .tc main_arg1)) := by
  refine (after_at ops wr ops_writes V 124 _ rfl main_v66 (by decide)).trans ?_
  refine (binary_result _ _ _ _ _ _ _ _).trans ?_
  rw [← after_stable ops wr ops_writes V 124 main_v59 (by decide), at_main_v59 V,
    ← after_stable ops wr ops_writes V 124 main_v65 (by decide), at_main_v65 V]
  rfl

set_option maxRecDepth 8192 in
theorem at_main_v67 (V : Valuation τ sig (Elt F)) :
    after (ops (F := F)) V (Proc.devRef .tc main_v67) = ReadP.val_main_v67 (F := F) (V (Proc.devRef .tc main_arg1)) := by
  refine (after_at ops wr ops_writes V 125 _ rfl main_v67 (by decide)).trans ?_
  refine (ternary_result _ _ _ _ _ _ _ _ _ _).trans ?_
  rw [← after_stable ops wr ops_writes V 125 main_v64 (by decide), at_main_v64 V,
    ← after_stable ops wr ops_writes V 125 main_v66 (by decide), at_main_v66 V,
    ← after_stable ops wr ops_writes V 125 main_v59 (by decide), at_main_v59 V]
  rfl

set_option maxRecDepth 8192 in
theorem at_main_v68 (V : Valuation τ sig (Elt F)) :
    after (ops (F := F)) V (Proc.devRef .tc main_v68) = ReadP.val_main_v68 (F := F) (V (Proc.devRef .tc main_arg1)) := by
  refine (after_at ops wr ops_writes V 126 _ rfl main_v68 (by decide)).trans ?_
  refine (unary_result _ _ _ _ _ _).trans ?_
  rw [← after_stable ops wr ops_writes V 126 main_v67 (by decide), at_main_v67 V]
  rfl

set_option maxRecDepth 8192 in
theorem at_main_v69 (V : Valuation τ sig (Elt F)) :
    after (ops (F := F)) V (Proc.devRef .tc main_v69) = ReadP.val_main_v69 (F := F) (V (Proc.devRef .tc main_arg1)) (V (Proc.devRef .tc main_arg2)) := by
  refine (after_at ops wr ops_writes V 127 _ rfl main_v69 (by decide)).trans ?_
  refine (binary_result _ _ _ _ _ _ _ _).trans ?_
  rw [← after_stable ops wr ops_writes V 127 main_arg2 (by decide), at_main_arg2 V,
    ← after_stable ops wr ops_writes V 127 main_v68 (by decide), at_main_v68 V]
  rfl

set_option maxRecDepth 8192 in
theorem at_main_v70 (V : Valuation τ sig (Elt F)) :
    after (ops (F := F)) V (Proc.devRef .tc main_v70) = ReadP.val_main_v70 (F := F) (V (Proc.devRef .tc main_arg0)) (V (Proc.devRef .tc main_arg1)) (V (Proc.devRef .tc main_arg2)) := by
  refine (after_at ops wr ops_writes V 128 _ rfl main_v70 (by decide)).trans ?_
  refine (binary_result _ _ _ _ _ _ _ _).trans ?_
  rw [← after_stable ops wr ops_writes V 128 main_v62 (by decide), at_main_v62 V,
    ← after_stable ops wr ops_writes V 128 main_v69 (by decide), at_main_v69 V]
  rfl

set_option maxRecDepth 8192 in
theorem at_main_v71 (V : Valuation τ sig (Elt F)) :
    after (ops (F := F)) V (Proc.devRef .tc main_v71) = ReadP.val_main_v71 (F := F) (V (Proc.devRef .tc main_arg0)) (V (Proc.devRef .tc main_arg1)) (V (Proc.devRef .tc main_arg2)) := by
  refine (after_at ops wr ops_writes V 129 _ rfl main_v71 (by decide)).trans ?_
  refine (binary_result _ _ _ _ _ _ _ _).trans ?_
  rw [← after_stable ops wr ops_writes V 129 main_v70 (by decide), at_main_v70 V,
    ← after_stable ops wr ops_writes V 129 main_v14 (by decide), at_main_v14 V]
  rfl

set_option maxRecDepth 8192 in
theorem at_main_cst_26 (V : Valuation τ sig (Elt F)) :
    after (ops (F := F)) V (Proc.devRef .tc main_cst_26) = ReadP.val_main_cst_26 (F := F) := by
  refine (after_at ops wr ops_writes V 130 _ rfl main_cst_26 (by decide)).trans ?_
  refine (nullary_result _ _ _ _).trans ?_
  rfl

set_option maxRecDepth 8192 in
theorem at_main_v72 (V : Valuation τ sig (Elt F)) :
    after (ops (F := F)) V (Proc.devRef .tc main_v72) = ReadP.val_main_v72 (F := F) (V (Proc.devRef .tc main_arg0)) (V (Proc.devRef .tc main_arg1)) (V (Proc.devRef .tc main_arg2)) := by
  refine (after_at ops wr ops_writes V 131 _ rfl main_v72 (by decide)).trans ?_
  refine (binary_result _ _ _ _ _ _ _ _).trans ?_
  rw [← after_stable ops wr ops_writes V 131 main_v71 (by decide), at_main_v71 V,
    ← after_stable ops wr ops_writes V 131 main_cst_26 (by decide), at_main_cst_26 V]
  rfl

set_option maxRecDepth 8192 in
theorem at_main_v73 (V : Valuation τ sig (Elt F)) :
    after (ops (F := F)) V (Proc.devRef .tc main_v73) = ReadP.val_main_v73 (F := F) (V (Proc.devRef .tc main_arg0)) (V (Proc.devRef .tc main_arg1)) (V (Proc.devRef .tc main_arg2)) := by
  refine (after_at ops wr ops_writes V 132 _ rfl main_v73 (by decide)).trans ?_
  refine (binary_result _ _ _ _ _ _ _ _).trans ?_
  rw [← after_stable ops wr ops_writes V 132 main_v72 (by decide), at_main_v72 V,
    ← after_stable ops wr ops_writes V 132 main_v17 (by decide), at_main_v17 V]
  rfl

set_option maxRecDepth 8192 in
theorem at_main_v74 (V : Valuation τ sig (Elt F)) :
    after (ops (F := F)) V (Proc.devRef .tc main_v74) = ReadP.val_main_v74 (F := F) (V (Proc.devRef .tc main_arg0)) (V (Proc.devRef .tc main_arg1)) (V (Proc.devRef .tc main_arg2)) (V (Proc.devRef .tc main_arg3)) := by
  refine (after_at ops wr ops_writes V 133 _ rfl main_v74 (by decide)).trans ?_
  refine (binary_result _ _ _ _ _ _ _ _).trans ?_
  rw [← after_stable ops wr ops_writes V 133 main_v46 (by decide), at_main_v46 V,
    ← after_stable ops wr ops_writes V 133 main_v58 (by decide), at_main_v58 V]
  rfl

set_option maxRecDepth 8192 in
theorem at_main_v75 (V : Valuation τ sig (Elt F)) :
    after (ops (F := F)) V (Proc.devRef .tc main_v75) = ReadP.val_main_v75 (F := F) (V (Proc.devRef .tc main_arg0)) (V (Proc.devRef .tc main_arg1)) (V (Proc.devRef .tc main_arg2)) (V (Proc.devRef .tc main_arg3)) := by
  refine (after_at ops wr ops_writes V 134 _ rfl main_v75 (by decide)).trans ?_
  refine (binary_result _ _ _ _ _ _ _ _).trans ?_
  rw [← after_stable ops wr ops_writes V 134 main_v74 (by decide), at_main_v74 V,
    ← after_stable ops wr ops_writes V 134 main_v73 (by decide), at_main_v73 V]
  rfl

set_option maxRecDepth 8192 in
theorem at_main_call4_cst (V : Valuation τ sig (Elt F)) :
    after (ops (F := F)) V (Proc.devRef .tc main_call4_cst) = ReadP.val_main_call4_cst (F := F) := by
  refine (after_at ops wr ops_writes V 135 _ rfl main_call4_cst (by decide)).trans ?_
  refine (nullary_result _ _ _ _).trans ?_
  dsimp only
  rfl

set_option maxRecDepth 8192 in
theorem at_main_call4_v0 (V : Valuation τ sig (Elt F)) :
    after (ops (F := F)) V (Proc.devRef .tc main_call4_v0) = ReadP.val_main_call4_v0 (F := F) (V (Proc.devRef .tc main_arg0)) := by
  refine (after_at ops wr ops_writes V 136 _ rfl main_call4_v0 (by decide)).trans ?_
  refine (binary_result _ _ _ _ _ _ _ _).trans ?_
  dsimp only
  rw [← after_stable ops wr ops_writes V 136 main_arg0 (by decide), at_main_arg0 V,
    ← after_stable ops wr ops_writes V 136 main_call4_cst (by decide), at_main_call4_cst V]
  refine (cast_eq _ _).trans ?_
  unfold TRef.ofBuf
  rw [cast_eq, cast_eq]
  rfl

set_option maxRecDepth 8192 in
theorem at_main_call4_cst_0 (V : Valuation τ sig (Elt F)) :
    after (ops (F := F)) V (Proc.devRef .tc main_call4_cst_0) = ReadP.val_main_call4_cst_0 (F := F) := by
  refine (after_at ops wr ops_writes V 137 _ rfl main_call4_cst_0 (by decide)).trans ?_
  refine (nullary_result _ _ _ _).trans ?_
  dsimp only
  rfl

set_option maxRecDepth 8192 in
theorem at_main_call4_v1 (V : Valuation τ sig (Elt F)) :
    after (ops (F := F)) V (Proc.devRef .tc main_call4_v1) = ReadP.val_main_call4_v1 (F := F) := by
  refine (after_at ops wr ops_writes V 138 _ rfl main_call4_v1 (by decide)).trans ?_
  refine (unary_result _ _ _ _ _ _).trans ?_
  dsimp only
  rw [← after_stable ops wr ops_writes V 138 main_call4_cst_0 (by decide), at_main_call4_cst_0 V]
  refine (cast_eq _ _).trans ?_
  unfold TRef.ofBuf
  rw [cast_eq]
  rfl

set_option maxRecDepth 8192 in
theorem at_main_call4_v2 (V : Valuation τ sig (Elt F)) :
    after (ops (F := F)) V (Proc.devRef .tc main_call4_v2) = ReadP.val_main_call4_v2 (F := F) (V (Proc.devRef .tc main_arg0)) := by
  refine (after_at ops wr ops_writes V 139 _ rfl main_call4_v2 (by decide)).trans ?_
  refine (binary_result _ _ _ _ _ _ _ _).trans ?_
  dsimp only
  rw [← after_stable ops wr ops_writes V 139 main_call4_v1 (by decide), at_main_call4_v1 V,
    ← after_stable ops wr ops_writes V 139 main_call4_v0 (by decide), at_main_call4_v0 V]
  refine (cast_eq _ _).trans ?_
  unfold TRef.ofBuf
  rw [cast_eq, cast_eq]
  rfl

set_option maxRecDepth 8192 in
theorem at_main_call4_v3 (V : Valuation τ sig (Elt F)) :
    after (ops (F := F)) V (Proc.devRef .tc main_call4_v3) = ReadP.val_main_call4_v3 (F := F) (V (Proc.devRef .tc main_arg0)) := by
  refine (after_at ops wr ops_writes V 140 _ rfl main_call4_v3 (by decide)).trans ?_
  refine (unary_result _ _ _ _ _ _).trans ?_
  dsimp only
  rw [← after_stable ops wr ops_writes V 140 main_call4_v2 (by decide), at_main_call4_v2 V]
  refine (cast_eq _ _).trans ?_
  unfold TRef.ofBuf
  rw [cast_eq]
  rfl

set_option maxRecDepth 8192 in
theorem at_main_call4_v4 (V : Valuation τ sig (Elt F)) :
    after (ops (F := F)) V (Proc.devRef .tc main_call4_v4) = ReadP.val_main_call4_v4 (F := F) (V (Proc.devRef .tc main_arg0)) := by
  refine (after_at ops wr ops_writes V 141 _ rfl main_call4_v4 (by decide)).trans ?_
  refine (unary_result _ _ _ _ _ _).trans ?_
  dsimp only
  rw [← after_stable ops wr ops_writes V 141 main_call4_v3 (by decide), at_main_call4_v3 V]
  refine (cast_eq _ _).trans ?_
  unfold TRef.ofBuf
  rw [cast_eq]
  rfl

set_option maxRecDepth 8192 in
theorem at_main_call4_v5 (V : Valuation τ sig (Elt F)) :
    after (ops (F := F)) V (Proc.devRef .tc main_call4_v5) = ReadP.val_main_call4_v5 (F := F) (V (Proc.devRef .tc main_arg0)) := by
  refine (after_at ops wr ops_writes V 142 _ rfl main_call4_v5 (by decide)).trans ?_
  refine (binary_result _ _ _ _ _ _ _ _).trans ?_
  dsimp only
  rw [← after_stable ops wr ops_writes V 142 main_arg0 (by decide), at_main_arg0 V,
    ← after_stable ops wr ops_writes V 142 main_call4_v4 (by decide), at_main_call4_v4 V]
  refine (cast_eq _ _).trans ?_
  unfold TRef.ofBuf
  rw [cast_eq, cast_eq]
  rfl

set_option maxRecDepth 8192 in
theorem at_main_call4_v6 (V : Valuation τ sig (Elt F)) :
    after (ops (F := F)) V (Proc.devRef .tc main_call4_v6) = ReadP.val_main_call4_v6 (F := F) (V (Proc.devRef .tc main_arg0)) := by
  refine (after_at ops wr ops_writes V 143 _ rfl main_call4_v6 (by decide)).trans ?_
  refine (unary_result _ _ _ _ _ _).trans ?_
  dsimp only
  rw [← after_stable ops wr ops_writes V 143 main_call4_v5 (by decide), at_main_call4_v5 V]
  refine (cast_eq _ _).trans ?_
  unfold TRef.ofBuf
  rw [cast_eq]
  rfl

set_option maxRecDepth 8192 in
theorem at_main_call4_cst_1 (V : Valuation τ sig (Elt F)) :
    after (ops (F := F)) V (Proc.devRef .tc main_call4_cst_1) = ReadP.val_main_call4_cst_1 (F := F) := by
  refine (after_at ops wr ops_writes V 144 _ rfl main_call4_cst_1 (by decide)).trans ?_
  refine (nullary_result _ _ _ _).trans ?_
  dsimp only
  rfl

set_option maxRecDepth 8192 in
theorem at_main_call4_v7 (V : Valuation τ sig (Elt F)) :
    after (ops (F := F)) V (Proc.devRef .tc main_call4_v7) = ReadP.val_main_call4_v7 (F := F) (V (Proc.devRef .tc main_arg0)) := by
  refine (after_at ops wr ops_writes V 145 _ rfl main_call4_v7 (by decide)).trans ?_
  refine (binary_result _ _ _ _ _ _ _ _).trans ?_
  dsimp only
  rw [← after_stable ops wr ops_writes V 145 main_call4_v6 (by decide), at_main_call4_v6 V,
    ← after_stable ops wr ops_writes V 145 main_call4_cst_1 (by decide), at_main_call4_cst_1 V]
  refine (cast_eq _ _).trans ?_
  unfold TRef.ofBuf
  rw [cast_eq, cast_eq]
  rfl

set_option maxRecDepth 8192 in
theorem at_main_call4_v8 (V : Valuation τ sig (Elt F)) :
    after (ops (F := F)) V (Proc.devRef .tc main_call4_v8) = ReadP.val_main_call4_v8 (F := F) (V (Proc.devRef .tc main_arg0)) := by
  refine (after_at ops wr ops_writes V 146 _ rfl main_call4_v8 (by decide)).trans ?_
  refine (unary_result _ _ _ _ _ _).trans ?_
  dsimp only
  rw [← after_stable ops wr ops_writes V 146 main_call4_v7 (by decide), at_main_call4_v7 V]
  refine (cast_eq _ _).trans ?_
  unfold TRef.ofBuf
  rw [cast_eq]
  rfl

set_option maxRecDepth 8192 in
theorem at_main_call4_v9 (V : Valuation τ sig (Elt F)) :
    after (ops (F := F)) V (Proc.devRef .tc main_call4_v9) = ReadP.val_main_call4_v9 (F := F) (V (Proc.devRef .tc main_arg0)) := by
  refine (after_at ops wr ops_writes V 147 _ rfl main_call4_v9 (by decide)).trans ?_
  refine (unary_result _ _ _ _ _ _).trans ?_
  dsimp only
  rw [← after_stable ops wr ops_writes V 147 main_call4_v8 (by decide), at_main_call4_v8 V]
  refine (cast_eq _ _).trans ?_
  unfold TRef.ofBuf
  rw [cast_eq]
  rfl

set_option maxRecDepth 8192 in
theorem at_main_call4_v10 (V : Valuation τ sig (Elt F)) :
    after (ops (F := F)) V (Proc.devRef .tc main_call4_v10) = ReadP.val_main_call4_v10 (F := F) (V (Proc.devRef .tc main_arg0)) := by
  refine (after_at ops wr ops_writes V 148 _ rfl main_call4_v10 (by decide)).trans ?_
  refine (unary_result _ _ _ _ _ _).trans ?_
  dsimp only
  rw [← after_stable ops wr ops_writes V 148 main_call4_v9 (by decide), at_main_call4_v9 V]
  refine (cast_eq _ _).trans ?_
  unfold TRef.ofBuf
  rw [cast_eq]
  rfl

set_option maxRecDepth 8192 in
theorem at_main_v76 (V : Valuation τ sig (Elt F)) :
    after (ops (F := F)) V (Proc.devRef .tc main_v76) = ReadP.val_main_v76 (F := F) (V (Proc.devRef .tc main_arg0)) := by
  refine (after_at ops wr ops_writes V 149 _ rfl main_v76 (by decide)).trans ?_
  refine (binary_result _ _ _ _ _ _ _ _).trans ?_
  dsimp only
  rw [← after_stable ops wr ops_writes V 149 main_call4_v5 (by decide), at_main_call4_v5 V,
    ← after_stable ops wr ops_writes V 149 main_call4_v10 (by decide), at_main_call4_v10 V]
  refine (cast_eq _ _).trans ?_
  unfold TRef.ofBuf
  rw [cast_eq, cast_eq]
  rfl

set_option maxRecDepth 8192 in
theorem at_main_v77 (V : Valuation τ sig (Elt F)) :
    after (ops (F := F)) V (Proc.devRef .tc main_v77) = ReadP.val_main_v77 (F := F) (V (Proc.devRef .tc main_arg1)) := by
  refine (after_at ops wr ops_writes V 150 _ rfl main_v77 (by decide)).trans ?_
  refine (unary_result _ _ _ _ _ _).trans ?_
  rw [← after_stable ops wr ops_writes V 150 main_v59 (by decide), at_main_v59 V]
  rfl

set_option maxRecDepth 8192 in
theorem at_main_call5_c (V : Valuation τ sig (Elt F)) :
    after (ops (F := F)) V (Proc.devRef .tc main_call5_c) = ReadP.val_main_call5_c (F := F) := by
  refine (after_at ops wr ops_writes V 151 _ rfl main_call5_c (by decide)).trans ?_
  refine (nullary_result _ _ _ _).trans ?_
  dsimp only
  rfl

set_option maxRecDepth 8192 in
theorem at_main_call5_v0 (V : Valuation τ sig (Elt F)) :
    after (ops (F := F)) V (Proc.devRef .tc main_call5_v0) = ReadP.val_main_call5_v0 (F := F) := by
  refine (after_at ops wr ops_writes V 152 _ rfl main_call5_v0 (by decide)).trans ?_
  refine (unary_result _ _ _ _ _ _).trans ?_
  dsimp only
  rw [← after_stable ops wr ops_writes V 152 main_call5_c (by decide), at_main_call5_c V]
  refine (cast_eq _ _).trans ?_
  unfold TRef.ofBuf
  rw [cast_eq]
  rfl

set_option maxRecDepth 8192 in
theorem at_main_call5_v1 (V : Valuation τ sig (Elt F)) :
    after (ops (F := F)) V (Proc.devRef .tc main_call5_v1) = ReadP.val_main_call5_v1 (F := F) (V (Proc.devRef .tc main_arg1)) := by
  refine (after_at ops wr ops_writes V 153 _ rfl main_call5_v1 (by decide)).trans ?_
  refine (binary_result _ _ _ _ _ _ _ _).trans ?_
  dsimp only
  rw [← after_stable ops wr ops_writes V 153 main_v77 (by decide), at_main_v77 V,
    ← after_stable ops wr ops_writes V 153 main_call5_v0 (by decide), at_main_call5_v0 V]
  refine (cast_eq _ _).trans ?_
  unfold TRef.ofBuf
  rw [cast_eq, cast_eq]
  rfl

set_option maxRecDepth 8192 in
theorem at_main_call5_c_0 (V : Valuation τ sig (Elt F)) :
    after (ops (F := F)) V (Proc.devRef .tc main_call5_c_0) = ReadP.val_main_call5_c_0 (F := F) := by
  refine (after_at ops wr ops_writes V 154 _ rfl main_call5_c_0 (by decide)).trans ?_
  refine (nullary_result _ _ _ _).trans ?_
  dsimp only
  rfl

set_option maxRecDepth 8192 in
theorem at_main_call5_v2 (V : Valuation τ sig (Elt F)) :
    after (ops (F := F)) V (Proc.devRef .tc main_call5_v2) = ReadP.val_main_call5_v2 (F := F) := by
  refine (after_at ops wr ops_writes V 155 _ rfl main_call5_v2 (by decide)).trans ?_
  refine (unary_result _ _ _ _ _ _).trans ?_
  dsimp only
  rw [← after_stable ops wr ops_writes V 155 main_call5_c_0 (by decide), at_main_call5_c_0 V]
  refine (cast_eq _ _).trans ?_
  unfold TRef.ofBuf
  rw [cast_eq]
  rfl

set_option maxRecDepth 8192 in
theorem at_main_call5_v3 (V : Valuation τ sig (Elt F)) :
    after (ops (F := F)) V (Proc.devRef .tc main_call5_v3) = ReadP.val_main_call5_v3 (F := F) (V (Proc.devRef .tc main_arg1)) := by
  refine (after_at ops wr ops_writes V 156 _ rfl main_call5_v3 (by decide)).trans ?_
  refine (binary_result _ _ _ _ _ _ _ _).trans ?_
  dsimp only
  rw [← after_stable ops wr ops_writes V 156 main_v77 (by decide), at_main_v77 V,
    ← after_stable ops wr ops_writes V 156 main_call5_v2 (by decide), at_main_call5_v2 V]
  refine (cast_eq _ _).trans ?_
  unfold TRef.ofBuf
  rw [cast_eq, cast_eq]
  rfl

set_option maxRecDepth 8192 in
theorem at_main_call5_v4 (V : Valuation τ sig (Elt F)) :
    after (ops (F := F)) V (Proc.devRef .tc main_call5_v4) = ReadP.val_main_call5_v4 (F := F) (V (Proc.devRef .tc main_arg1)) := by
  refine (after_at ops wr ops_writes V 157 _ rfl main_call5_v4 (by decide)).trans ?_
  refine (ternary_result _ _ _ _ _ _ _ _ _ _).trans ?_
  dsimp only
  rw [← after_stable ops wr ops_writes V 157 main_call5_v1 (by decide), at_main_call5_v1 V,
    ← after_stable ops wr ops_writes V 157 main_call5_v3 (by decide), at_main_call5_v3 V,
    ← after_stable ops wr ops_writes V 157 main_v77 (by decide), at_main_v77 V]
  refine (cast_eq _ _).trans ?_
  unfold TRef.ofBuf
  rw [cast_eq, cast_eq, cast_eq]
  rfl

set_option maxRecDepth 8192 in
theorem at_main_call5_v5 (V : Valuation τ sig (Elt F)) :
    after (ops (F := F)) V (Proc.devRef .tc main_call5_v5) = ReadP.val_main_call5_v5 (F := F) (V (Proc.devRef .tc main_arg1)) := by
  refine (after_at ops wr ops_writes V 158 _ rfl main_call5_v5 (by decide)).trans ?_
  refine (reshape_result _ _ _ _ _ _ _).trans ?_
  dsimp only
  rw [← after_stable ops wr ops_writes V 158 main_call5_v4 (by decide), at_main_call5_v4 V]
  rfl

set_option maxRecDepth 8192 in
theorem at_main_call5_c_1 (V : Valuation τ sig (Elt F)) :
    after (ops (F := F)) V (Proc.devRef .tc main_call5_c_1) = ReadP.val_main_call5_c_1 (F := F) := by
  refine (after_at ops wr ops_writes V 159 _ rfl main_call5_c_1 (by decide)).trans ?_
  refine (nullary_result _ _ _ _).trans ?_
  dsimp only
  rfl

set_option maxRecDepth 8192 in
theorem at_main_call5_c_2 (V : Valuation τ sig (Elt F)) :
    after (ops (F := F)) V (Proc.devRef .tc main_call5_c_2) = ReadP.val_main_call5_c_2 (F := F) := by
  refine (after_at ops wr ops_writes V 160 _ rfl main_call5_c_2 (by decide)).trans ?_
  refine (nullary_result _ _ _ _).trans ?_
  dsimp only
  rfl

set_option maxRecDepth 8192 in
theorem at_main_call5_v6 (V : Valuation τ sig (Elt F)) :
    after (ops (F := F)) V (Proc.devRef .tc main_call5_v6) = ReadP.val_main_call5_v6 (F := F) := by
  refine (after_at ops wr ops_writes V 161 _ rfl main_call5_v6 (by decide)).trans ?_
  refine (unary_result _ _ _ _ _ _).trans ?_
  dsimp only
  rw [← after_stable ops wr ops_writes V 161 main_call5_c_2 (by decide), at_main_call5_c_2 V]
  refine (cast_eq _ _).trans ?_
  unfold TRef.ofBuf
  rw [cast_eq]
  rfl

set_option maxRecDepth 8192 in
theorem at_main_call5_v7 (V : Valuation τ sig (Elt F)) :
    after (ops (F := F)) V (Proc.devRef .tc main_call5_v7) = ReadP.val_main_call5_v7 (F := F) (V (Proc.devRef .tc main_arg1)) := by
  refine (after_at ops wr ops_writes V 162 _ rfl main_call5_v7 (by decide)).trans ?_
  refine (binary_result _ _ _ _ _ _ _ _).trans ?_
  dsimp only
  rw [← after_stable ops wr ops_writes V 162 main_call5_v5 (by decide), at_main_call5_v5 V,
    ← after_stable ops wr ops_writes V 162 main_call5_v6 (by decide), at_main_call5_v6 V]
  refine (cast_eq _ _).trans ?_
  unfold TRef.ofBuf
  rw [cast_eq, cast_eq]
  rfl

set_option maxRecDepth 8192 in
theorem at_main_call5_v8 (V : Valuation τ sig (Elt F)) :
    after (ops (F := F)) V (Proc.devRef .tc main_call5_v8) = ReadP.val_main_call5_v8 (F := F) := by
  refine (after_at ops wr ops_writes V 163 _ rfl main_call5_v8 (by decide)).trans ?_
  refine (unary_result _ _ _ _ _ _).trans ?_
  dsimp only
  rw [← after_stable ops wr ops_writes V 163 main_call5_c_1 (by decide), at_main_call5_c_1 V]
  refine (cast_eq _ _).trans ?_
  unfold TRef.ofBuf
  rw [cast_eq]
  rfl

set_option maxRecDepth 8192 in
theorem at_main_call5_v9 (V : Valuation τ sig (Elt F)) :
    after (ops (F := F)) V (Proc.devRef .tc main_call5_v9) = ReadP.val_main_call5_v9 (F := F) := by
  refine (after_at ops wr ops_writes V 164 _ rfl main_call5_v9 (by decide)).trans ?_
  refine (unary_result _ _ _ _ _ _).trans ?_
  dsimp only
  rw [← after_stable ops wr ops_writes V 164 main_call5_v8 (by decide), at_main_call5_v8 V]
  refine (cast_eq _ _).trans ?_
  unfold TRef.ofBuf
  rw [cast_eq]
  rfl

set_option maxRecDepth 8192 in
theorem at_main_call5_v10 (V : Valuation τ sig (Elt F)) :
    after (ops (F := F)) V (Proc.devRef .tc main_call5_v10) = ReadP.val_main_call5_v10 (F := F) (V (Proc.devRef .tc main_arg1)) := by
  refine (after_at ops wr ops_writes V 165 _ rfl main_call5_v10 (by decide)).trans ?_
  refine (binary_result _ _ _ _ _ _ _ _).trans ?_
  dsimp only
  rw [← after_stable ops wr ops_writes V 165 main_call5_v5 (by decide), at_main_call5_v5 V,
    ← after_stable ops wr ops_writes V 165 main_call5_v9 (by decide), at_main_call5_v9 V]
  refine (cast_eq _ _).trans ?_
  unfold TRef.ofBuf
  rw [cast_eq, cast_eq]
  rfl

set_option maxRecDepth 8192 in
theorem at_main_call5_v11 (V : Valuation τ sig (Elt F)) :
    after (ops (F := F)) V (Proc.devRef .tc main_call5_v11) = ReadP.val_main_call5_v11 (F := F) (V (Proc.devRef .tc main_arg1)) := by
  refine (after_at ops wr ops_writes V 166 _ rfl main_call5_v11 (by decide)).trans ?_
  refine (binary_result _ _ _ _ _ _ _ _).trans ?_
  dsimp only
  rw [← after_stable ops wr ops_writes V 166 main_call5_v7 (by decide), at_main_call5_v7 V,
    ← after_stable ops wr ops_writes V 166 main_call5_v10 (by decide), at_main_call5_v10 V]
  refine (cast_eq _ _).trans ?_
  unfold TRef.ofBuf
  rw [cast_eq, cast_eq]
  rfl

set_option maxRecDepth 8192 in
theorem at_main_call5_c_3 (V : Valuation τ sig (Elt F)) :
    after (ops (F := F)) V (Proc.devRef .tc main_call5_c_3) = ReadP.val_main_call5_c_3 (F := F) := by
  refine (after_at ops wr ops_writes V 167 _ rfl main_call5_c_3 (by decide)).trans ?_
  refine (nullary_result _ _ _ _).trans ?_
  dsimp only
  rfl

set_option maxRecDepth 8192 in
theorem at_main_call5_v12 (V : Valuation τ sig (Elt F)) :
    after (ops (F := F)) V (Proc.devRef .tc main_call5_v12) = ReadP.val_main_call5_v12 (F := F) (V (Proc.devRef .tc main_arg1)) := by
  refine (after_at ops wr ops_writes V 168 _ rfl main_call5_v12 (by decide)).trans ?_
  refine (binary_result _ _ _ _ _ _ _ _).trans ?_
  dsimp only
  rw [← after_stable ops wr ops_writes V 168 main_call5_v11 (by decide), at_main_call5_v11 V,
    ← after_stable ops wr ops_writes V 168 main_call5_c_3 (by decide), at_main_call5_c_3 V]
  refine (cast_eq _ _).trans ?_
  unfold TRef.ofBuf
  rw [cast_eq, cast_eq]
  rfl

set_option maxRecDepth 8192 in
theorem at_main_call5_v13 (V : Valuation τ sig (Elt F)) :
    after (ops (F := F)) V (Proc.devRef .tc main_call5_v13) = ReadP.val_main_call5_v13 (F := F) (V (Proc.devRef .tc main_arg0)) (V (Proc.devRef .tc main_arg1)) := by
  refine (after_at ops wr ops_writes V 169 _ rfl main_call5_v13 (by decide)).trans ?_
  refine (binary_result _ _ _ _ _ _ _ _).trans ?_
  dsimp only
  rw [← after_stable ops wr ops_writes V 169 main_v76 (by decide), at_main_v76 V,
    ← after_stable ops wr ops_writes V 169 main_call5_v5 (by decide), at_main_call5_v5 V]
  refine (cast_eq _ _).trans ?_
  unfold TRef.ofBuf
  rw [cast_eq, cast_eq]
  rfl

set_option maxRecDepth 8192 in
theorem at_main_call5_cst (V : Valuation τ sig (Elt F)) :
    after (ops (F := F)) V (Proc.devRef .tc main_call5_cst) = ReadP.val_main_call5_cst (F := F) := by
  refine (after_at ops wr ops_writes V 170 _ rfl main_call5_cst (by decide)).trans ?_
  refine (nullary_result _ _ _ _).trans ?_
  dsimp only
  rfl

set_option maxRecDepth 8192 in
theorem at_main_call5_v14 (V : Valuation τ sig (Elt F)) :
    after (ops (F := F)) V (Proc.devRef .tc main_call5_v14) = ReadP.val_main_call5_v14 (F := F) := by
  refine (after_at ops wr ops_writes V 171 _ rfl main_call5_v14 (by decide)).trans ?_
  refine (unary_result _ _ _ _ _ _).trans ?_
  dsimp only
  rw [← after_stable ops wr ops_writes V 171 main_call5_cst (by decide), at_main_call5_cst V]
  refine (cast_eq _ _).trans ?_
  unfold TRef.ofBuf
  rw [cast_eq]
  rfl

set_option maxRecDepth 8192 in
theorem at_main_v78 (V : Valuation τ sig (Elt F)) :
    after (ops (F := F)) V (Proc.devRef .tc main_v78) = ReadP.val_main_v78 (F := F) (V (Proc.devRef .tc main_arg0)) (V (Proc.devRef .tc main_arg1)) := by
  refine (after_at ops wr ops_writes V 172 _ rfl main_v78 (by decide)).trans ?_
  refine (ternary_result _ _ _ _ _ _ _ _ _ _).trans ?_
  dsimp only
  rw [← after_stable ops wr ops_writes V 172 main_call5_v12 (by decide), at_main_call5_v12 V,
    ← after_stable ops wr ops_writes V 172 main_call5_v13 (by decide), at_main_call5_v13 V,
    ← after_stable ops wr ops_writes V 172 main_call5_v14 (by decide), at_main_call5_v14 V]
  refine (cast_eq _ _).trans ?_
  unfold TRef.ofBuf
  rw [cast_eq, cast_eq, cast_eq]
  rfl

set_option maxRecDepth 8192 in
theorem at_main_v79 (V : Valuation τ sig (Elt F)) :
    after (ops (F := F)) V (Proc.devRef .tc main_v79) = ReadP.val_main_v79 (F := F) (V (Proc.devRef .tc main_arg0)) (V (Proc.devRef .tc main_arg1)) := by
  refine (after_at ops wr ops_writes V 173 _ rfl main_v79 (by decide)).trans ?_
  refine (reshape_result _ _ _ _ _ _ _).trans ?_
  rw [← after_stable ops wr ops_writes V 173 main_v78 (by decide), at_main_v78 V]
  rfl

set_option maxRecDepth 8192 in
theorem at_main_v80 (V : Valuation τ sig (Elt F)) :
    after (ops (F := F)) V (Proc.devRef .tc main_v80) = ReadP.val_main_v80 (F := F) (V (Proc.devRef .tc main_arg0)) (V (Proc.devRef .tc main_arg1)) := by
  refine (after_at ops wr ops_writes V 174 _ rfl main_v80 (by decide)).trans ?_
  refine (unary_result _ _ _ _ _ _).trans ?_
  rw [← after_stable ops wr ops_writes V 174 main_v79 (by decide), at_main_v79 V]
  rfl

set_option maxRecDepth 8192 in
theorem at_main_v81 (V : Valuation τ sig (Elt F)) :
    after (ops (F := F)) V (Proc.devRef .tc main_v81) = ReadP.val_main_v81 (F := F) (V (Proc.devRef .tc main_arg0)) (V (Proc.devRef .tc main_arg1)) := by
  refine (after_at ops wr ops_writes V 175 _ rfl main_v81 (by decide)).trans ?_
  refine (binary_result _ _ _ _ _ _ _ _).trans ?_
  rw [← after_stable ops wr ops_writes V 175 main_v80 (by decide), at_main_v80 V,
    ← after_stable ops wr ops_writes V 175 main_v14 (by decide), at_main_v14 V]
  rfl

set_option maxRecDepth 8192 in
theorem at_main_cst_27 (V : Valuation τ sig (Elt F)) :
    after (ops (F := F)) V (Proc.devRef .tc main_cst_27) = ReadP.val_main_cst_27 (F := F) := by
  refine (after_at ops wr ops_writes V 176 _ rfl main_cst_27 (by decide)).trans ?_
  refine (nullary_result _ _ _ _).trans ?_
  rfl

set_option maxRecDepth 8192 in
theorem at_main_v82 (V : Valuation τ sig (Elt F)) :
    after (ops (F := F)) V (Proc.devRef .tc main_v82) = ReadP.val_main_v82 (F := F) (V (Proc.devRef .tc main_arg0)) (V (Proc.devRef .tc main_arg1)) := by
  refine (after_at ops wr ops_writes V 177 _ rfl main_v82 (by decide)).trans ?_
  refine (binary_result _ _ _ _ _ _ _ _).trans ?_
  rw [← after_stable ops wr ops_writes V 177 main_v81 (by decide), at_main_v81 V,
    ← after_stable ops wr ops_writes V 177 main_cst_27 (by decide), at_main_cst_27 V]
  rfl

set_option maxRecDepth 8192 in
theorem at_main_v83 (V : Valuation τ sig (Elt F)) :
    after (ops (F := F)) V (Proc.devRef .tc main_v83) = ReadP.val_main_v83 (F := F) (V (Proc.devRef .tc main_arg0)) (V (Proc.devRef .tc main_arg1)) := by
  refine (after_at ops wr ops_writes V 178 _ rfl main_v83 (by decide)).trans ?_
  refine (binary_result _ _ _ _ _ _ _ _).trans ?_
  rw [← after_stable ops wr ops_writes V 178 main_v82 (by decide), at_main_v82 V,
    ← after_stable ops wr ops_writes V 178 main_v17 (by decide), at_main_v17 V]
  rfl

set_option maxRecDepth 8192 in
theorem at_main_cst_28 (V : Valuation τ sig (Elt F)) :
    after (ops (F := F)) V (Proc.devRef .tc main_cst_28) = ReadP.val_main_cst_28 (F := F) := by
  refine (after_at ops wr ops_writes V 179 _ rfl main_cst_28 (by decide)).trans ?_
  refine (nullary_result _ _ _ _).trans ?_
  rfl

set_option maxRecDepth 8192 in
theorem at_main_v84 (V : Valuation τ sig (Elt F)) :
    after (ops (F := F)) V (Proc.devRef .tc main_v84) = ReadP.val_main_v84 (F := F) (V (Proc.devRef .tc main_arg0)) (V (Proc.devRef .tc main_arg1)) (V (Proc.devRef .tc main_arg2)) (V (Proc.devRef .tc main_arg3)) := by
  refine (after_at ops wr ops_writes V 180 _ rfl main_v84 (by decide)).trans ?_
  refine (binary_result _ _ _ _ _ _ _ _).trans ?_
  rw [← after_stable ops wr ops_writes V 180 main_v75 (by decide), at_main_v75 V,
    ← after_stable ops wr ops_writes V 180 main_cst_28 (by decide), at_main_cst_28 V]
  rfl

end Cert.ReferenceIdeal.ValueP

end
-- ==== Proof.Ref.RefRun.lean ====
/- The reference's run, read one operation at a time: every weakly fair execution terminates with the two results at
   the last stages of the argument arrays' launch contents, and the arguments unchanged (each result buffer, and each
   argument, holds at the end what its own operation, or nothing, wrote). -/
import proofs.«430741_j180388627001_2_alg».proof.Proof.Ref.RunStages

set_option maxRecDepth 16384

noncomputable section

namespace Cert.ReferenceIdeal.RefValue

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v83) = val_main_v83 (F := F) (m ((c.tc : Thread nD τ).loc main_arg0)) (m ((c.tc : Thread nD τ).loc main_arg1))
      ∧ r.2.mem ((c.tc : Thread nD τ).loc main_v84) = val_main_v84 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v83).trans (at_main_v83 (launchContents m c)),
      (h c main_v84).trans (at_main_v84 (launchContents m c)),
      (h c main_arg0).trans (at_main_arg0 (launchContents m c)),
      (h c main_arg1).trans (at_main_arg1 (launchContents m c)),
      (h c main_arg2).trans (at_main_arg2 (launchContents m c)),
      (h c main_arg3).trans (at_main_arg3 (launchContents m c))⟩)
    (run_seq scopedRefs_eq scopedSems_eq defs main (fun _ => ops) main_eq (fun _ => ops_sub) m ρ)

end Cert.ReferenceIdeal.RefValue

end
-- ==== Proof.Algebraic.lean ====
/- The five claims. The three frames: the word-level kernel's and the idealized kernel's are the frame of the one
   pallas_call between its host lines, at the two instances; the reference's is its run with the results dropped.
   The idealization rewrote nothing. The algebraic claim: at the ideal instance both programs end with the
   specification's two quotients of the six statistics of the (agreeing) argument arrays; the mask of listed classes and
   the prior of the first listed class are the same host expressions of the index list and the priors in both. -/
import proofs.«430741_j180388627001_2_alg».proof.Defs
import proofs.«430741_j180388627001_2_alg».proof.Proof.K.Frame
import proofs.«430741_j180388627001_2_alg».proof.Proof.KI.KValue
import proofs.«430741_j180388627001_2_alg».proof.Proof.Ref.Result
import proofs.«430741_j180388627001_2_alg».proof.Proof.Ref.RefRun
import proofs.«430741_j180388627001_2_alg».proof.Proof.Gen.Pre_finite_inputs

set_option maxRecDepth 16384

noncomputable section

namespace Cert.Proof.Claims

open Idealize.ShloMosaic Idealize.ShloMosaic.TcCoe Idealize.SL.Sem Idealize.ShloMosaic.ValueIdx
open Cert.Spec

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2.2) (Cert.ReferenceIdeal.RefValue.run (F := Ideal) m ρ)

theorem preserves : Cert.preserves_Kernel_KernelIdeal := trivial

/-- The mask of listed classes is one host expression of the index list in both programs. -/
theorem mask_eq (x3 : (⟨Cert.KernelIdeal.S32, .i32⟩ : BufTy).Contents (Elt Ideal)) :
    Cert.ReferenceIdeal.RefValue.maskR x3 = Cert.KernelIdeal.Tail.maskK x3 := by
  rfl

/-- So is the prior of the first listed class, of the priors and the index list. -/
theorem p0_eq (x2 : (⟨Cert.KernelIdeal.S128, .f32⟩ : BufTy).Contents (Elt Ideal)) (x3 : (⟨Cert.KernelIdeal.S32, .i32⟩ : BufTy).Contents (Elt Ideal)) :
    Cert.ReferenceIdeal.RefValue.p0R x2 x3 = Cert.KernelIdeal.Tail.p0K x2 x3 := by
  rfl

theorem algebraic : Cert.algebraic_KernelIdeal_ReferenceIdeal := by
  intro m ρ m' ρ' _ hagree
  refine ⟨fun c => Cert.KernelIdeal.KValue.res47 m c, fun c => Cert.KernelIdeal.KValue.res48 m c,
    fun c => Cert.KernelIdeal.KValue.res47 m c, ?_, ?_⟩
  · exact (θ_run Cert.KernelIdeal.defs _ _).mono (fun _ h c => ⟨(h c).1, (h c).2.1, (h c).1, (h c).2.2⟩)
      (Cert.KernelIdeal.KValue.run m ρ)
  · refine (θ_run Cert.ReferenceIdeal.defs _ _).mono (fun _ h c => ?_) (Cert.ReferenceIdeal.RefValue.run (F := Ideal) m' ρ')
    have e83 : Cert.ReferenceIdeal.ReadP.val_main_v83 (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) = Cert.KernelIdeal.KValue.res47 m c := by
      rw [(hagree c).1, (hagree c).2.1, Cert.ReferenceIdeal.RefValue.ref_v83]
      rfl
    have e84 : Cert.ReferenceIdeal.ReadP.val_main_v84 (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) = Cert.KernelIdeal.KValue.res48 m c := by
      rw [(hagree c).1, (hagree c).2.1, (hagree c).2.2.1, (hagree c).2.2.2, Cert.ReferenceIdeal.RefValue.ref_v84, mask_eq, p0_eq]
      rfl
    exact ⟨(h c).1.trans e83, (h c).2.1.trans e84, (h c).1.trans e83, (h c).2.2⟩

end Cert.Proof.Claims

end
-- ==== Proof.lean ====
/- The proof of `Cert.Claim`: the kernel accumulates, per core and per class, sums over row tiles of a clamped negative
   log of the softmax (over the unlabeled rows, over the labeled rows), two row counts and two labeled-row numerators,
   and its host lines turn them into a cross-entropy and a positive-unlabeled loss; the reference computes the same
   sums over all rows at once. Over the extended reals a sum does not depend on its grouping, a one-hot weighted row sum
   picks the entry a gather reads, and `0 - x` is `-x`: the two programs compute one function (Proof/Spec.lean).
   Proof/KI/*: the idealized kernel's frame and values; Proof/K/*: the same frame at the word-level instance;
   Proof/Ref/*: the reference's stages against the specification; Proof/Algebraic.lean: the five claims. -/
import proofs.«430741_j180388627001_2_alg».proof.Defs
import proofs.«430741_j180388627001_2_alg».proof.Proof.Algebraic
import proofs.«430741_j180388627001_2_alg».proof.Proof.Gen.Kernel
import proofs.«430741_j180388627001_2_alg».proof.Proof.Gen.KernelIdeal
import proofs.«430741_j180388627001_2_alg».proof.Proof.Gen.ReferenceIdeal
import proofs.«430741_j180388627001_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
